-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128 : Shape := ⟨3, ![16, 512, 128]⟩
abbrev S16x512x512 : Shape := ⟨3, ![16, 512, 512]⟩
abbrev S16x512x8x512 : Shape := ⟨4, ![16, 512, 8, 512]⟩
abbrev S1024x4 : Shape := ⟨2, ![1024, 4]⟩
abbrev S512x2048 : Shape := ⟨2, ![512, 2048]⟩
abbrev S512 : Shape := ⟨1, ![512]⟩
abbrev S2048x128 : Shape := ⟨2, ![2048, 128]⟩
abbrev S2048x512 : Shape := ⟨2, ![2048, 512]⟩
abbrev S2048 : Shape := ⟨1, ![2048]⟩
abbrev S_ : Shape := ⟨0, ![]⟩

class Facts : Prop where
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S16x512x8x512 : S_.BroadcastsInDim S16x512x8x512 (![] : Fin 0 → Fin S16x512x8x512.rank)
  reducesTo_S16x512x8x512_S_d0_1_2_3 : S16x512x8x512.ReducesTo [0, 1, 2, 3] S_
  bcast_S_S1024x4 : S_.BroadcastsInDim S1024x4 (![] : Fin 0 → Fin S1024x4.rank)
  reducesTo_S1024x4_S_d0_1 : S1024x4.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2048x128 : S_.BroadcastsInDim S2048x128 (![] : Fin 0 → Fin S2048x128.rank)
  reducesTo_S2048x128_S_d0_1 : S2048x128.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_arg12 : FVec F S2048 .f32) (main_v48 : IVec S_ 1) (main_v49 : FVec F S2048x512 .f32) (main_v50 : FVec F S2048x512 .f32) : IVec S_ 1 :=
  let main_v51 : IVec S2048x512 1 := cmpf .olt main_v49 main_v50
  let main_c_19 : IVec S_ 1 := constantI S_ 1 1#1
  let main_v52 : IVec S_ 1 := (fun x v => Host.reduce IntOp.andi x v reducesTo_S2048x512_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S512x2048 .f32) (main_arg8 : FVec F S512 .f32) (main_arg9 : FVec F S2048x128 .f32) (main_arg10 : FVec F S2048x512 .f32) (main_arg11 : FVec F S2048 .f32) (main_arg12 : FVec F S2048 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2048x128 .f32 := Host.absf main_arg9
  let main_cst_16 : FVec F S_ .f32 := constant S_ .f32 0x7F800000#32
  let main_v45 : FVec F S2048x128 .f32 := broadcastInDim S2048x128 ![] bcast_S_S2048x128 main_cst_16
  let main_v46 : IVec S2048x128 1 := cmpf .olt main_v44 main_v45
  let main_c_17 : IVec S_ 1 := constantI S_ 1 1#1
  let main_v47 : IVec S_ 1 := (fun x v => Host.reduce IntOp.andi x v reducesTo_S2048x128_S_d0_1 h_S_) main_v46 main_c_17
  let main_v48 : IVec S_ 1 := andi main_v43 main_v47
  let main_v49 : FVec F S2048x512 .f32 := Host.absf main_arg10
  let main_cst_18 : FVec F S_ .f32 := constant S_ .f32 0x7F800000#32
  let main_v50 : FVec F S2048x512 .f32 := broadcastInDim S2048x512 ![] bcast_S_S2048x512 main_cst_18
  fn_part3 (F := F) main_arg11 main_arg12 main_v48 main_v49 main_v50

def fn_part1 {F : FTy → Type} [FloatOps F] (main_arg4 : FVec F S1024x4 .f32) (main_arg5 : FVec F S512x2048 .f32) (main_arg6 : FVec F S512 .f32) (main_arg7 : FVec F S512x2048 .f32) (main_arg8 : FVec F S512 .f32) (main_arg9 : FVec F S2048x128 .f32) (main_arg10 : FVec F S2048x512 .f32) (main_arg11 : FVec F S2048 .f32) (main_arg12 : FVec F S2048 .f32) (main_v13 : IVec S_ 1) (main_v16 : IVec S16x512x8x512 1) : IVec S_ 1 :=
  let main_c_5 : IVec S_ 1 := constantI S_ 1 1#1
  let main_v17 : IVec S_ 1 := (fun x v => Host.reduce IntOp.andi x v reducesTo_S16x512x8x512_S_d0_1_2_3 h_S_) main_v16 main_c_5
  let main_v18 : IVec S_ 1 := andi main_v13 main_v17
  let main_v19 : FVec F S1024x4 .f32 := Host.absf main_arg4
  let main_cst_6 : FVec F S_ .f32 := constant S_ .f32 0x7F800000#32
  let main_v20 : FVec F S1024x4 .f32 := broadcastInDim S1024x4 ![] bcast_S_S1024x4 main_cst_6
  let main_v21 : IVec S1024x4 1 := cmpf .olt main_v19 main_v20
  let main_c_7 : IVec S_ 1 := constantI S_ 1 1#1
  let main_v22 : IVec S_ 1 := (fun x v => Host.reduce IntOp.andi x v reducesTo_S1024x4_S_d0_1 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x512x128 .f32) (main_arg1 : FVec F S16x512x512 .f32) (main_arg2 : FVec F S16x512x512 .f32) (main_arg3 : FVec F S16x512x8x512 .f32) (main_arg4 : FVec F S1024x4 .f32) (main_arg5 : FVec F S512x2048 .f32) (main_arg6 : FVec F S512 .f32) (main_arg7 : FVec F S512x2048 .f32) (main_arg8 : FVec F S512 .f32) (main_arg9 : FVec F S2048x128 .f32) (main_arg10 : FVec F S2048x512 .f32) (main_arg11 : FVec F S2048 .f32) (main_arg12 : FVec F S2048 .f32) : IVec S_ 1 :=
  let main_v0 : FVec F S16x512x128 .f32 := Host.absf main_arg0
  let main_cst : FVec F S_ .f32 := constant S_ .f32 0x7F800000#32
  let main_v1 : FVec F S16x512x128 .f32 := broadcastInDim S16x512x128 ![] bcast_S_S16x512x128 main_cst
  let main_v2 : IVec S16x512x128 1 := cmpf .olt main_v0 main_v1
  let main_c : IVec S_ 1 := constantI S_ 1 1#1
  let main_v3 : IVec S_ 1 := (fun x v => Host.reduce IntOp.andi x v reducesTo_S16x512x128_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S16x512x512 .f32 := Host.absf main_arg2
  let main_cst_2 : FVec F S_ .f32 := constant S_ .f32 0x7F800000#32
  let main_v10 : FVec F S16x512x512 .f32 := broadcastInDim S16x512x512 ![] bcast_S_S16x512x512 main_cst_2
  let main_v11 : IVec S16x512x512 1 := cmpf .olt main_v9 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v8 main_v12
  let main_v14 : FVec F S16x512x8x512 .f32 := Host.absf main_arg3
  let main_cst_4 : FVec F S_ .f32 := constant S_ .f32 0x7F800000#32
  let main_v15 : FVec F S16x512x8x512 .f32 := broadcastInDim S16x512x8x512 ![] bcast_S_S16x512x8x512 main_cst_4
  let main_v16 : IVec S16x512x8x512 1 := cmpf .olt main_v14 main_v15
  fn_part1 (F := F) main_arg4 main_arg5 main_arg6 main_arg7 main_arg8 main_arg9 main_arg10 main_arg11 main_arg12 main_v13 main_v16
-- ==== Kernel.lean ====
abbrev S16x512x128 : Shape := ⟨3, ![16, 512, 128]⟩
abbrev S16x512x512 : Shape := ⟨3, ![16, 512, 512]⟩
abbrev S16x512x8x512 : Shape := ⟨4, ![16, 512, 8, 512]⟩
abbrev S1024x4 : Shape := ⟨2, ![1024, 4]⟩
abbrev S512x2048 : Shape := ⟨2, ![512, 2048]⟩
abbrev S512 : Shape := ⟨1, ![512]⟩
abbrev S2048x128 : Shape := ⟨2, ![2048, 128]⟩
abbrev S2048x512 : Shape := ⟨2, ![2048, 512]⟩
abbrev S2048 : Shape := ⟨1, ![2048]⟩
abbrev S8192x128 : Shape := ⟨2, ![8192, 128]⟩
abbrev S8192x512 : Shape := ⟨2, ![8192, 512]⟩
abbrev S8192x8x512 : Shape := ⟨3, ![8192, 8, 512]⟩
abbrev S512x4 : Shape := ⟨2, ![512, 4]⟩
abbrev S2048x1024 : Shape := ⟨2, ![2048, 1024]⟩
abbrev S1024 : Shape := ⟨1, ![1024]⟩
abbrev S1x1024 : Shape := ⟨2, ![1, 1024]⟩
abbrev S128x2048 : Shape := ⟨2, ![128, 2048]⟩
abbrev S1x2048 : Shape := ⟨2, ![1, 2048]⟩
abbrev S512x128 : Shape := ⟨2, ![512, 128]⟩
abbrev S512x512 : Shape := ⟨2, ![512, 512]⟩
abbrev S512x8x512 : Shape := ⟨3, ![512, 8, 512]⟩
abbrev S4096x512 : Shape := ⟨2, ![4096, 512]⟩
abbrev S4096x4 : Shape := ⟨2, ![4096, 4]⟩
abbrev S512x8x4 : Shape := ⟨3, ![512, 8, 4]⟩
abbrev S512x1x4 : Shape := ⟨3, ![512, 1, 4]⟩
abbrev S512x1x1 : Shape := ⟨3, ![512, 1, 1]⟩
abbrev S512x1 : Shape := ⟨2, ![512, 1]⟩
abbrev S512x1x512 : Shape := ⟨3, ![512, 1, 512]⟩
abbrev S512x1024 : Shape := ⟨2, ![512, 1024]⟩

abbrev nBuf : Space → Nat
  | .hbm => 35
  | .vmem => 19
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S16x512x512, .f32⟩
  | .hbm, ⟨3, _⟩ => ⟨S16x512x8x512, .f32⟩
  | .hbm, ⟨4, _⟩ => ⟨S1024x4, .f32⟩
  | .hbm, ⟨5, _⟩ => ⟨S512x2048, .f32⟩
  | .hbm, ⟨6, _⟩ => ⟨S512, .f32⟩
  | .hbm, ⟨7, _⟩ => ⟨S512x2048, .f32⟩
  | .hbm, ⟨8, _⟩ => ⟨S512, .f32⟩
  | .hbm, ⟨9, _⟩ => ⟨S2048x128, .f32⟩
  | .hbm, ⟨10, _⟩ => ⟨S2048x512, .f32⟩
  | .hbm, ⟨11, _⟩ => ⟨S2048, .f32⟩
  | .hbm, ⟨12, _⟩ => ⟨S2048, .f32⟩
  | .hbm, ⟨13, _⟩ => ⟨S8192x128, .f32⟩
  | .hbm, ⟨14, _⟩ => ⟨S8192x512, .f32⟩
  | .hbm, ⟨15, _⟩ => ⟨S8192x512, .f32⟩
  | .hbm, ⟨16, _⟩ => ⟨S8192x8x512, .f32⟩
  | .hbm, ⟨17, _⟩ => ⟨S512x4, .f32⟩
  | .hbm, ⟨18, _⟩ => ⟨S512x4, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S2048x1024, .bf16⟩
  | .hbm, ⟨23, _⟩ => ⟨S1024, .f32⟩
  | .hbm, ⟨24, _⟩ => ⟨S1x1024, .f32⟩
  | .hbm, ⟨25, _⟩ => ⟨S128x2048, .f32⟩
  | .hbm, ⟨26, _⟩ => ⟨S128x2048, .bf16⟩
  | .hbm, ⟨27, _⟩ => ⟨S512x2048, .f32⟩
  | .hbm, ⟨28, _⟩ => ⟨S512x2048, .bf16⟩
  | .hbm, ⟨29, _⟩ => ⟨S2048, .f32⟩
  | .hbm, ⟨30, _⟩ => ⟨S1x2048, .f32⟩
  | .hbm, ⟨31, _⟩ => ⟨S8192x512, .f32⟩
  | .hbm, ⟨32, _⟩ => ⟨S8192x512, .f32⟩
  | .hbm, ⟨33, _⟩ => ⟨S16x512x512, .f32⟩
  | .hbm, ⟨34, _⟩ => ⟨S16x512x512, .f32⟩
  | .local _ .vmem, ⟨0, _⟩ => ⟨S512x128, .f32⟩
  | .local _ .vmem, ⟨1, _⟩ => ⟨S512x128, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x8x512, .f32⟩
  | .local _ .vmem, ⟨7, _⟩ => ⟨S512x8x512, .f32⟩
  | .local _ .vmem, ⟨8, _⟩ => ⟨S512x4, .f32⟩
  | .local _ .vmem, ⟨9, _⟩ => ⟨S512x4, .f32⟩
  | .local _ .vmem, ⟨10, _⟩ => ⟨S2048x1024, .bf16⟩
  | .local _ .vmem, ⟨11, _⟩ => ⟨S1x1024, .f32⟩
  | .local _ .vmem, ⟨12, _⟩ => ⟨S128x2048, .bf16⟩
  | .local _ .vmem, ⟨13, _⟩ => ⟨S512x2048, .bf16⟩
  | .local _ .vmem, ⟨14, _⟩ => ⟨S1x2048, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S16x512x128_S8192x128 : S16x512x128.ShapeCasts S8192x128
  shapeCasts_S16x512x512_S8192x512 : S16x512x512.ShapeCasts S8192x512
  shapeCasts_S16x512x8x512_S8192x8x512 : S16x512x8x512.ShapeCasts S8192x8x512
  slices_S1024x4_S512x4_0_0 : S1024x4.Slices ![0, 0] S512x4
  slices_S1024x4_S512x4_512_0 : S1024x4.Slices ![512, 0] S512x4
  transposes_S512x2048_S2048x512_1_0 : S512x2048.Transposes [1, 0] S2048x512
  concatenates_S2048x512_S2048x512_S2048x1024_d1 : Shape.Concatenates [S2048x512, S2048x512] S2048x1024 1
  bitsLt_bf16_f32 : FTy.bits .bf16 < FTy.bits .f32
  concatenates_S512_S512_S1024_d0 : Shape.Concatenates [S512, S512] S1024 0
  shapeCasts_S1024_S1x1024 : S1024.ShapeCasts S1x1024
  transposes_S2048x128_S128x2048_1_0 : S2048x128.Transposes [1, 0] S128x2048
  transposes_S2048x512_S512x2048_1_0 : S2048x512.Transposes [1, 0] S512x2048
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x8x512_S512x8x512_0_0_0 : ∀ a, (![0, 0, 0] : Fin 3 → Nat) a + S512x8x512.size a ≤ S512x8x512.size a
  h_S512x8x512 : 0 < S512x8x512.numel
  shapeCasts_S512x8x512_S512x8x512 : S512x8x512.ShapeCasts S512x8x512
  inb_S512x4_S512x4_0_0 : ∀ a, (![0, 0] : Fin 2 → Nat) a + S512x4.size a ≤ S512x4.size a
  h_S512x4 : 0 < S512x4.numel
  shapeCasts_S512x4_S512x4 : S512x4.ShapeCasts S512x4
  shapeCasts_S512x8x512_S4096x512 : S512x8x512.ShapeCasts S4096x512
  shapeCasts_S4096x4_S512x8x4 : S4096x4.ShapeCasts S512x8x4
  shapeCasts_S512x4_S512x1x4 : S512x4.ShapeCasts S512x1x4
  broadcasts_S512x1x4_S512x8x4 : S512x1x4.Broadcasts S512x8x4
  reduces_S512x8x4_S512x4 : S512x8x4.Reduces [1] S512x4
  slices_S512x8x4_o0_0_0_S512x1x1 : S512x8x4.Slices ![0, 0, 0] S512x1x1
  shapeCasts_S512x1x1_S512x1 : S512x1x1.ShapeCasts S512x1
  slices_S512x8x512_o0_0_0_S512x1x512 : S512x8x512.Slices ![0, 0, 0] S512x1x512
  shapeCasts_S512x1x512_S512x512 : S512x1x512.ShapeCasts S512x512
  broadcasts_S512x1_S512x512 : S512x1.Broadcasts S512x512
  slices_S512x8x4_o0_1_0_S512x1x1 : S512x8x4.Slices ![0, 1, 0] S512x1x1
  slices_S512x8x512_o0_1_0_S512x1x512 : S512x8x512.Slices ![0, 1, 0] S512x1x512
  slices_S512x8x4_o0_2_0_S512x1x1 : S512x8x4.Slices ![0, 2, 0] S512x1x1
  slices_S512x8x512_o0_2_0_S512x1x512 : S512x8x512.Slices ![0, 2, 0] S512x1x512
  slices_S512x8x4_o0_3_0_S512x1x1 : S512x8x4.Slices ![0, 3, 0] S512x1x1
  slices_S512x8x512_o0_3_0_S512x1x512 : S512x8x512.Slices ![0, 3, 0] S512x1x512
  slices_S512x8x4_o0_4_0_S512x1x1 : S512x8x4.Slices ![0, 4, 0] S512x1x1
  slices_S512x8x512_o0_4_0_S512x1x512 : S512x8x512.Slices ![0, 4, 0] S512x1x512
  slices_S512x8x4_o0_5_0_S512x1x1 : S512x8x4.Slices ![0, 5, 0] S512x1x1
  slices_S512x8x512_o0_5_0_S512x1x512 : S512x8x512.Slices ![0, 5, 0] S512x1x512
  slices_S512x8x4_o0_6_0_S512x1x1 : S512x8x4.Slices ![0, 6, 0] S512x1x1
  slices_S512x8x512_o0_6_0_S512x1x512 : S512x8x512.Slices ![0, 6, 0] S512x1x512
  slices_S512x8x4_o0_7_0_S512x1x1 : S512x8x4.Slices ![0, 7, 0] S512x1x1
  slices_S512x8x512_o0_7_0_S512x1x512 : S512x8x512.Slices ![0, 7, 0] S512x1x512
  slices_S512x8x4_o0_0_1_S512x1x1 : S512x8x4.Slices ![0, 0, 1] S512x1x1
  slices_S512x8x4_o0_1_1_S512x1x1 : S512x8x4.Slices ![0, 1, 1] S512x1x1
  slices_S512x8x4_o0_2_1_S512x1x1 : S512x8x4.Slices ![0, 2, 1] S512x1x1
  slices_S512x8x4_o0_3_1_S512x1x1 : S512x8x4.Slices ![0, 3, 1] S512x1x1
  slices_S512x8x4_o0_4_1_S512x1x1 : S512x8x4.Slices ![0, 4, 1] S512x1x1
  slices_S512x8x4_o0_5_1_S512x1x1 : S512x8x4.Slices ![0, 5, 1] S512x1x1
  slices_S512x8x4_o0_6_1_S512x1x1 : S512x8x4.Slices ![0, 6, 1] S512x1x1
  slices_S512x8x4_o0_7_1_S512x1x1 : S512x8x4.Slices ![0, 7, 1] S512x1x1
  slices_S512x8x4_o0_0_2_S512x1x1 : S512x8x4.Slices ![0, 0, 2] S512x1x1
  slices_S512x8x4_o0_1_2_S512x1x1 : S512x8x4.Slices ![0, 1, 2] S512x1x1
  slices_S512x8x4_o0_2_2_S512x1x1 : S512x8x4.Slices ![0, 2, 2] S512x1x1
  slices_S512x8x4_o0_3_2_S512x1x1 : S512x8x4.Slices ![0, 3, 2] S512x1x1
  slices_S512x8x4_o0_4_2_S512x1x1 : S512x8x4.Slices ![0, 4, 2] S512x1x1
  slices_S512x8x4_o0_5_2_S512x1x1 : S512x8x4.Slices ![0, 5, 2] S512x1x1
  slices_S512x8x4_o0_6_2_S512x1x1 : S512x8x4.Slices ![0, 6, 2] S512x1x1
  slices_S512x8x4_o0_7_2_S512x1x1 : S512x8x4.Slices ![0, 7, 2] S512x1x1
  slices_S512x8x4_o0_0_3_S512x1x1 : S512x8x4.Slices ![0, 0, 3] S512x1x1
  slices_S512x8x4_o0_1_3_S512x1x1 : S512x8x4.Slices ![0, 1, 3] S512x1x1
  slices_S512x8x4_o0_2_3_S512x1x1 : S512x8x4.Slices ![0, 2, 3] S512x1x1
  slices_S512x8x4_o0_3_3_S512x1x1 : S512x8x4.Slices ![0, 3, 3] S512x1x1
  slices_S512x8x4_o0_4_3_S512x1x1 : S512x8x4.Slices ![0, 4, 3] S512x1x1
  slices_S512x8x4_o0_5_3_S512x1x1 : S512x8x4.Slices ![0, 5, 3] S512x1x1
  slices_S512x8x4_o0_6_3_S512x1x1 : S512x8x4.Slices ![0, 6, 3] S512x1x1
  slices_S512x8x4_o0_7_3_S512x1x1 : S512x8x4.Slices ![0, 7, 3] S512x1x1
  concatenates_S512x512_S512x512_S512x512_S512x512_S512x2048_d1 : Shape.Concatenates [S512x512, S512x512, S512x512, S512x512] S512x2048 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  shapeCasts_S8192x512_S16x512x512 : S8192x512.ShapeCasts S16x512x512
  dot_S512x512_S512x4_S512x4_1_0_0_1_n_n_wf : DotDims.WF S512x512 S512x4 S512x4 [1] [0] [0] [1] [] []
  dot_S4096x512_S512x4_S4096x4_1_0_0_1_n_n_wf : DotDims.WF S4096x512 S512x4 S4096x4 [1] [0] [0] [1] [] []
  dot_S512x2048_S2048x1024_S512x1024_1_0_0_1_n_n_wf : DotDims.WF S512x2048 S2048x1024 S512x1024 [1] [0] [0] [1] [] []
  dot_S512x128_S128x2048_S512x2048_1_0_0_1_n_n_wf : DotDims.WF S512x128 S128x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8x512.size a ≤ S8192x8x512.size a
  hwx0_3 : ∀ i : grid0.Coords, EltTy.bits .f32 = 32 ∨ (Rect.block (s := S8192x8x512) S512x8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4.size a ≤ S512x4.size a
  hwx0_4 : ∀ i : grid0.Coords, EltTy.bits .f32 = 32 ∨ (Rect.block (s := S512x4) S512x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S512x4.size a
  hwx0_5 : ∀ i : grid0.Coords, EltTy.bits .f32 = 32 ∨ (Rect.block (s := S512x4) S512x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S128x2048.size a
  hwx0_8 : ∀ i : grid0.Coords, EltTy.bits .bf16 = 32 ∨ (Rect.block (s := S128x2048) S128x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S8192x512.size a
  hwx0_11 : ∀ i : grid0.Coords, EltTy.bits .f32 = 32 ∨ (Rect.block (s := S8192x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S8192x512.size a
  hwx0_12 : ∀ i : grid0.Coords, EltTy.bits .f32 = 32 ∨ (Rect.block (s := S8192x512) S512x512.size (cc0_transform_12 i) (hinb0_12 i)).WholeWords (EltTy.packing .f32)

variable [Facts₀]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def dot_S4096x512_S512x4_S4096x4_1_0_0_1_n_n : DotDims S4096x512 S512x4 S4096x4 where
  lhsContracting := [1]
  rhsContracting := [0]
  lhsNonContracting := [0]
  rhsNonContracting := [1]
  lhsBatch := []
  rhsBatch := []
  wf := dot_S4096x512_S512x4_S4096x4_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S128x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v18_1) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16x512x128 : Shape := ⟨3, ![16, 512, 128]⟩
abbrev S16x512x512 : Shape := ⟨3, ![16, 512, 512]⟩
abbrev S16x512x8x512 : Shape := ⟨4, ![16, 512, 8, 512]⟩
abbrev S1024x4 : Shape := ⟨2, ![1024, 4]⟩
abbrev S512x2048 : Shape := ⟨2, ![512, 2048]⟩
abbrev S512 : Shape := ⟨1, ![512]⟩
abbrev S2048x128 : Shape := ⟨2, ![2048, 128]⟩
abbrev S2048x512 : Shape := ⟨2, ![2048, 512]⟩
abbrev S2048 : Shape := ⟨1, ![2048]⟩
abbrev S8192x128 : Shape := ⟨2, ![8192, 128]⟩
abbrev S8192x512 : Shape := ⟨2, ![8192, 512]⟩
abbrev S8192x8x512 : Shape := ⟨3, ![8192, 8, 512]⟩
abbrev S512x4 : Shape := ⟨2, ![512, 4]⟩
abbrev S8192x4 : Shape := ⟨2, ![8192, 4]⟩
abbrev S8192x1x4 : Shape := ⟨3, ![8192, 1, 4]⟩
abbrev S8192x8x4 : Shape := ⟨3, ![8192, 8, 4]⟩
abbrev S_ : Shape := ⟨0, ![]⟩
abbrev S8192x4x512 : Shape := ⟨3, ![8192, 4, 512]⟩
abbrev S8192x2048 : Shape := ⟨2, ![8192, 2048]⟩
abbrev S1x512 : Shape := ⟨2, ![1, 512]⟩
abbrev S128x2048 : Shape := ⟨2, ![128, 2048]⟩
abbrev S1x2048 : Shape := ⟨2, ![1, 2048]⟩

abbrev nBuf : Space → Nat
  | .hbm => 122
  | .vmem => 0
  | .smem => 0
  | _ => 0

abbrev bufTy : (tb : Table) → Fin (tcTables nBuf tb) → BufTy
  | .hbm, ⟨0, _⟩ => ⟨S16x512x128, .f32⟩
  | .hbm, ⟨1, _⟩ => ⟨S16x512x512, .f32⟩
  | .hbm, ⟨2, _⟩ => ⟨S16x512x512, .f32⟩
  | .hbm, ⟨3, _⟩ => ⟨S16x512x8x512, .f32⟩
  | .hbm, ⟨4, _⟩ => ⟨S1024x4, .f32⟩
  | .hbm, ⟨5, _⟩ => ⟨S512x2048, .f32⟩
  | .hbm, ⟨6, _⟩ => ⟨S512, .f32⟩
  | .hbm, ⟨7, _⟩ => ⟨S512x2048, .f32⟩
  | .hbm, ⟨8, _⟩ => ⟨S512, .f32⟩
  | .hbm, ⟨9, _⟩ => ⟨S2048x128, .f32⟩
  | .hbm, ⟨10, _⟩ => ⟨S2048x512, .f32⟩
  | .hbm, ⟨11, _⟩ => ⟨S2048, .f32⟩
  | .hbm, ⟨12, _⟩ => ⟨S2048, .f32⟩
  | .hbm, ⟨13, _⟩ => ⟨S8192x128, .f32⟩
  | .hbm, ⟨14, _⟩ => ⟨S8192x512, .f32⟩
  | .hbm, ⟨15, _⟩ => ⟨S8192x512, .f32⟩
  | .hbm, ⟨16, _⟩ => ⟨S8192x8x512, .f32⟩
  | .hbm, ⟨17, _⟩ => ⟨S512x4, .f32⟩
  | .hbm, ⟨18, _⟩ => ⟨S512x4, .f32⟩
  | .hbm, ⟨19, _⟩ => ⟨S8192x4, .f32⟩
  | .hbm, ⟨20, _⟩ => ⟨S8192x1x4, .f32⟩
  | .hbm, ⟨21, _⟩ => ⟨S8192x8x4, .f32⟩
  | .hbm, ⟨22, _⟩ => ⟨S8192x8x4, .f32⟩
  | .hbm, ⟨23, _⟩ => ⟨S8192x8x4, .f32⟩
  | .hbm, ⟨24, _⟩ => ⟨S_, .f32⟩
  | .hbm, ⟨25, _⟩ => ⟨S8192x8x4, .f32⟩
  | .hbm, ⟨26, _⟩ => ⟨S8192x8x4, .i1⟩
  | .hbm, ⟨27, _⟩ => ⟨S_, .f32⟩
  | .hbm, ⟨28, _⟩ => ⟨S8192x8x4, .f32⟩
  | .hbm, ⟨29, _⟩ => ⟨S8192x8x4, .f32⟩
  | .hbm, ⟨30, _⟩ => ⟨S8192x8x4, .f32⟩
  | .hbm, ⟨31, _⟩ => ⟨S_, .f32⟩
  | .hbm, ⟨32, _⟩ => ⟨S8192x4, .f32⟩
  | .hbm, ⟨33, _⟩ => ⟨S_, .f32⟩
  | .hbm, ⟨34, _⟩ => ⟨S8192x4, .f32⟩
  | .hbm, ⟨35, _⟩ => ⟨S8192x4, .f32⟩
  | .hbm, ⟨36, _⟩ => ⟨S8192x1x4, .f32⟩
  | .hbm, ⟨37, _⟩ => ⟨S8192x8x4, .f32⟩
  | .hbm, ⟨38, _⟩ => ⟨S8192x8x4, .f32⟩
  | .hbm, ⟨39, _⟩ => ⟨S8192x8x4, .f32⟩
  | .hbm, ⟨40, _⟩ => ⟨S_, .f32⟩
  | .hbm, ⟨41, _⟩ => ⟨S8192x4, .f32⟩
  | .hbm, ⟨42, _⟩ => ⟨S8192x1x4, .f32⟩
  | .hbm, ⟨43, _⟩ => ⟨S8192x8x4, .f32⟩
  | .hbm, ⟨44, _⟩ => ⟨S8192x8x4, .f32⟩
  | .hbm, ⟨45, _⟩ => ⟨S8192x4x512, .f32⟩
  | .hbm, ⟨46, _⟩ => ⟨S8192x2048, .f32⟩
  | .hbm, ⟨47, _⟩ => ⟨S2048x512, .f32⟩
  | .hbm, ⟨48, _⟩ => ⟨S8192x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S2048x512, .f32⟩
  | .hbm, ⟨61, _⟩ => ⟨S8192x512, .f32⟩
  | .hbm, ⟨62, _⟩ => ⟨S1x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S_, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S128x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S512x2048, .f32⟩
  | .hbm, ⟨81, _⟩ => ⟨S8192x2048, .f32⟩
  | .hbm, ⟨82, _⟩ => ⟨S8192x2048, .f32⟩
  | .hbm, ⟨83, _⟩ => ⟨S1x2048, .f32⟩
  | .hbm, ⟨84, _⟩ => ⟨S8192x2048, .f32⟩
  | .hbm, ⟨85, _⟩ => ⟨S8192x2048, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S8192x512, .f32⟩
  | .hbm, ⟨94, _⟩ => ⟨S8192x512, .f32⟩
  | .hbm, ⟨95, _⟩ => ⟨S_, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S_, .f32⟩
  | .hbm, ⟨101, _⟩ => ⟨S8192x512, .f32⟩
  | .hbm, ⟨102, _⟩ => ⟨S8192x512, .f32⟩
  | .hbm, ⟨103, _⟩ => ⟨S_, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x512, .f32⟩
  | .hbm, ⟨108, _⟩ => ⟨S8192x512, .f32⟩
  | .hbm, ⟨109, _⟩ => ⟨S_, .f32⟩
  | .hbm, ⟨110, _⟩ => ⟨S8192x512, .f32⟩
  | .hbm, ⟨111, _⟩ => ⟨S8192x512, .f32⟩
  | .hbm, ⟨112, _⟩ => ⟨S_, .f32⟩
  | .hbm, ⟨113, _⟩ => ⟨S8192x512, .f32⟩
  | .hbm, ⟨114, _⟩ => ⟨S8192x512, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S16x512x512, .f32⟩
  | .hbm, ⟨121, _⟩ => ⟨S16x512x512, .f32⟩
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_8 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_v77 : Ref sig .tc := ⟨.hbm, 102, rfl⟩
abbrev main_cst_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]

class Facts₀ : Prop where
  shapeCasts_S16x512x128_S8192x128 : S16x512x128.ShapeCasts S8192x128
  shapeCasts_S16x512x512_S8192x512 : S16x512x512.ShapeCasts S8192x512
  shapeCasts_S16x512x8x512_S8192x8x512 : S16x512x8x512.ShapeCasts S8192x8x512
  slices_S1024x4_S512x4_0_0 : S1024x4.Slices ![0, 0] S512x4
  slices_S1024x4_S512x4_512_0 : S1024x4.Slices ![512, 0] S512x4
  bcast_S8192x4_S8192x1x4_0_2 : S8192x4.BroadcastsInDim S8192x1x4 (![0, 2] : Fin 2 → Fin S8192x1x4.rank)
  bcast_S8192x1x4_S8192x8x4_0_1_2 : S8192x1x4.BroadcastsInDim S8192x8x4 (![0, 1, 2] : Fin 3 → Fin S8192x8x4.rank)
  bcast_S_S8192x8x4 : S_.BroadcastsInDim S8192x8x4 (![] : Fin 0 → Fin S8192x8x4.rank)
  reducesTo_S8192x8x4_S8192x4_d1 : S8192x8x4.ReducesTo [1] S8192x4
  h_S_ : 0 < S_.numel
  bcast_S_S8192x4 : S_.BroadcastsInDim S8192x4 (![] : Fin 0 → Fin S8192x4.rank)
  shapeCasts_S8192x4x512_S8192x2048 : S8192x4x512.ShapeCasts S8192x2048
  transposes_S512x2048_S2048x512_1_0 : S512x2048.Transposes [1, 0] S2048x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  transposes_S2048x128_S128x2048_1_0 : S2048x128.Transposes [1, 0] S128x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x512_S512x2048_1_0 : S2048x512.Transposes [1, 0] S512x2048
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  shapeCasts_S8192x512_S16x512x512 : S8192x512.ShapeCasts S16x512x512
  dot_S8192x512_S512x4_S8192x4_1_0_0_1_n_n_wf : DotDims.WF S8192x512 S512x4 S8192x4 [1] [0] [0] [1] [] []
  dot_S8192x8x512_S512x4_S8192x8x4_2_0_01_1_n_n_wf : DotDims.WF S8192x8x512 S512x4 S8192x8x4 [2] [0] [0, 1] [1] [] []
  dot_S8192x8x4_S8192x8x512_S8192x4x512_1_1_2_2_0_0_wf : DotDims.WF S8192x8x4 S8192x8x512 S8192x4x512 [1] [1] [2] [2] [0] [0]
  dot_S8192x2048_S2048x512_S8192x512_1_0_0_1_n_n_wf : DotDims.WF S8192x2048 S2048x512 S8192x512 [1] [0] [0] [1] [] []
  dot_S8192x128_S128x2048_S8192x2048_1_0_0_1_n_n_wf : DotDims.WF S8192x128 S128x2048 S8192x2048 [1] [0] [0] [1] [] []
  dot_S8192x512_S512x2048_S8192x2048_1_0_0_1_n_n_wf : DotDims.WF S8192x512 S512x2048 S8192x2048 [1] [0] [0] [1] [] []

variable [Facts₀]

def dot_S8192x512_S512x4_S8192x4_1_0_0_1_n_n : DotDims S8192x512 S512x4 S8192x4 where
  lhsContracting := [1]
  rhsContracting := [0]
  lhsNonContracting := [0]
  rhsNonContracting := [1]
  lhsBatch := []
  rhsBatch := []
  wf := dot_S8192x512_S512x4_S8192x4_1_0_0_1_n_n_wf
def dot_S8192x8x512_S512x4_S8192x8x4_2_0_01_1_n_n : DotDims S8192x8x512 S512x4 S8192x8x4 where
  lhsContracting := [2]
  rhsContracting := [0]
  lhsNonContracting := [0, 1]
  rhsNonContracting := [1]
  lhsBatch := []
  rhsBatch := []
  wf := dot_S8192x8x512_S512x4_S8192x8x4_2_0_01_1_n_n_wf
def dot_S8192x8x4_S8192x8x512_S8192x4x512_1_1_2_2_0_0 : DotDims S8192x8x4 S8192x8x512 S8192x4x512 where
  lhsContracting := [1]
  rhsContracting := [1]
  lhsNonContracting := [2]
  rhsNonContracting := [2]
  lhsBatch := [0]
  rhsBatch := [0]
  wf := dot_S8192x8x4_S8192x8x512_S8192x4x512_1_1_2_2_0_0_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x128_S128x2048_S8192x2048_1_0_0_1_n_n : DotDims S8192x128 S128x2048 S8192x2048 where
  lhsContracting := [1]
  rhsContracting := [0]
  lhsNonContracting := [0]
  rhsNonContracting := [1]
  lhsBatch := []
  rhsBatch := []
  wf := dot_S8192x128_S128x2048_S8192x2048_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.Spec.lean ====
/-
  The row function of the attention cell, on the extended reals.

  Every output row of the cell depends on ONE row of the state arrays: the hidden state `h` (512 entries), the
  carried state `c` (512), the input `x` (128) and the eight neighbour states `hs` (8 × 512), and on the weights.
  This module states that dependence once, over plain functions of coordinates:

    logit k m = (∑ q, h q · aS q m) + (∑ q, hs k q · aN q m)                 the attention logit of neighbour k, head m
    act       = leaky_relu 0.2 of it
    prob      = softmax of act over the eight neighbours (the maximum taken from -∞, as jax takes it)
    agg m j   = ∑ k, prob k m · hs k j                                         the per-head aggregate, then laid out m·512 + j
    gateF, gateI = logistic ((∑ q, aggFlat q · w q j) + b j)                   the two spatial gates
    hmod = h · gateI,  cmod = c · gateF
    gate g    = ((∑ q, x q · wih q g) + (∑ q, hmod q · whh q g)) + bl g        the four LSTM gates, bl the summed bias
    cnew j    = σ(gate (512 + j)) · cmod j + σ(gate j) · tanh (gate (1024 + j))
    hnew j    = σ(gate (1536 + j)) · tanh (cnew j)

  Both programs are shown to compute `hnew` and `cnew` of the rows of their arguments.
-/
import Idealize.ShloMosaic.PureOps.Ideal

noncomputable section

open scoped BigOperators

namespace AttCell

open Idealize.ShloMosaic

/-- The f32 patterns of the two programs, as the extended reals they denote. -/
abbrev lit02 : EReal := Ideal.ofBits .f32 0x3E4CCCCD#32
abbrev litNegInf : EReal := Ideal.ofBits .f32 0xFF800000#32
abbrev litZero : EReal := Ideal.ofBits .f32 0x00000000#32

/-- Coordinates of the fused axes: the first and second half of 1024 columns, the four quarters of 2048 gate columns,
    and head `m`, hidden coordinate `j` of the flat 2048 aggregate. -/
abbrev lo (j : Fin 512) : Fin 1024 := ⟨j.val, by omega⟩
abbrev hi (j : Fin 512) : Fin 1024 := ⟨512 + j.val, by omega⟩
abbrev q0 (j : Fin 512) : Fin 2048 := ⟨j.val, by omega⟩
abbrev q1 (j : Fin 512) : Fin 2048 := ⟨512 + j.val, by omega⟩
abbrev q2 (j : Fin 512) : Fin 2048 := ⟨1024 + j.val, by omega⟩
abbrev q3 (j : Fin 512) : Fin 2048 := ⟨1536 + j.val, by omega⟩
abbrev headOf (q : Fin 2048) : Fin 4 := ⟨q.val / 512, by omega⟩
abbrev colOf (q : Fin 2048) : Fin 512 := ⟨q.val % 512, by omega⟩

/-- leaky_relu with slope 0.2, as both programs spell it: a select on `x ≥ 0`. -/
def leaky (x : EReal) : EReal := Scalar.select (Ideal.cmp .oge x litZero) x (lit02 * x)

section Attention
variable (hrow : Fin 512 → EReal) (hsrow : Fin 8 → Fin 512 → EReal) (aS aN : Fin 512 → Fin 4 → EReal)

def logit (k : Fin 8) (m : Fin 4) : EReal := (∑ q, hrow q * aS q m) + ∑ q, hsrow k q * aN q m
def act (k : Fin 8) (m : Fin 4) : EReal := leaky (logit hrow hsrow aS aN k m)
/-- The neighbours' maximum, folded from -∞ and joined with -∞ once more. -/
def rowmax (m : Fin 4) : EReal :=
  max litNegInf ((Finset.univ : Finset (Fin 8)).fold max litNegInf fun k => act hrow hsrow aS aN k m)
def ex (k : Fin 8) (m : Fin 4) : EReal := Ideal.exp (act hrow hsrow aS aN k m - rowmax hrow hsrow aS aN m)
def den (m : Fin 4) : EReal := ∑ k, ex hrow hsrow aS aN k m
def prob (k : Fin 8) (m : Fin 4) : EReal := Ideal.div (ex hrow hsrow aS aN k m) (den hrow hsrow aS aN m)
def agg (m : Fin 4) (j : Fin 512) : EReal := ∑ k, prob hrow hsrow aS aN k m * hsrow k j
def aggFlat (q : Fin 2048) : EReal := agg hrow hsrow aS aN (headOf q) (colOf q)
end Attention

section Cell
variable (hrow crow : Fin 512 → EReal) (hsrow : Fin 8 → Fin 512 → EReal) (xrow : Fin 128 → EReal)
  (aS aN : Fin 512 → Fin 4 → EReal) (wf wi : Fin 2048 → Fin 512 → EReal) (bf bi : Fin 512 → EReal)
  (wih : Fin 128 → Fin 2048 → EReal) (whh : Fin 512 → Fin 2048 → EReal) (bl : Fin 2048 → EReal)

def gateF (j : Fin 512) : EReal := Ideal.logistic ((∑ q, aggFlat hrow hsrow aS aN q * wf q j) + bf j)
def gateI (j : Fin 512) : EReal := Ideal.logistic ((∑ q, aggFlat hrow hsrow aS aN q * wi q j) + bi j)
def hmod (j : Fin 512) : EReal := hrow j * gateI hrow hsrow aS aN wi bi j
def cmod (j : Fin 512) : EReal := crow j * gateF hrow hsrow aS aN wf bf j
def gate (g : Fin 2048) : EReal :=
  ((∑ q, xrow q * wih q g) + ∑ q, hmod hrow hsrow aS aN wi bi q * whh q g) + bl g
def cnew (j : Fin 512) : EReal :=
  Ideal.logistic (gate hrow hsrow xrow aS aN wi bi wih whh bl (q1 j)) * cmod hrow crow hsrow aS aN wf bf j
    + Ideal.logistic (gate hrow hsrow xrow aS aN wi bi wih whh bl (q0 j))
      * Ideal.tanh (gate hrow hsrow xrow aS aN wi bi wih whh bl (q2 j))
def hnew (j : Fin 512) : EReal :=
  Ideal.logistic (gate hrow hsrow xrow aS aN wi bi wih whh bl (q3 j))
    * Ideal.tanh (cnew hrow crow hsrow xrow aS aN wf wi bf bi wih whh bl j)
end Cell

end AttCell

end
-- ==== Proof.KSoftmax.lean ====
import proofs.«416576_j22479858827484_3_alg».proof.Proof.Gen.KernelIdeal.Skeleton
import proofs.«416576_j22479858827484_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The two products at an entry -/

/-- Left operand of the self product: row coordinate of the output on axis 0 … -/
theorem lhsS_0 (i : S512x4.Idx) (q : dot_S512x512_S512x4_S512x4_1_0_0_1_n_n.contr.Idx) :
    (dot_S512x512_S512x4_S512x4_1_0_0_1_n_n.lhsIdx i q 0).val = (i 0).val := by
  unfold DotDims.lhsIdx
  rw [dif_neg (show ¬(0 : Fin S512x512.rank) ∈ dot_S512x512_S512x4_S512x4_1_0_0_1_n_n.lhsBatch by decide), dif_pos (show (0 : Fin S512x512.rank) ∈ dot_S512x512_S512x4_S512x4_1_0_0_1_n_n.lhsNonContracting by decide)]
  rfl
/-- … and the contraction coordinate on axis 1. -/
theorem lhsS_1 (i : S512x4.Idx) (q : dot_S512x512_S512x4_S512x4_1_0_0_1_n_n.contr.Idx) :
    (dot_S512x512_S512x4_S512x4_1_0_0_1_n_n.lhsIdx i q 1).val = (q ⟨0, by decide⟩).val :=
  dot_S512x512_S512x4_S512x4_1_0_0_1_n_n.lhsIdx_val_of_single rfl i q
/-- Right operand of the self product: the contraction coordinate on axis 0 … -/
theorem rhsS_0 (i : S512x4.Idx) (q : dot_S512x512_S512x4_S512x4_1_0_0_1_n_n.contr.Idx) :
    (dot_S512x512_S512x4_S512x4_1_0_0_1_n_n.rhsIdx i q 0).val = (q ⟨0, by decide⟩).val :=
  dot_S512x512_S512x4_S512x4_1_0_0_1_n_n.rhsIdx_val_of_single rfl i q
/-- … and the output's column on axis 1. -/
theorem rhsS_1 (i : S512x4.Idx) (q : dot_S512x512_S512x4_S512x4_1_0_0_1_n_n.contr.Idx) :
    (dot_S512x512_S512x4_S512x4_1_0_0_1_n_n.rhsIdx i q 1).val = (i 1).val := by
  unfold DotDims.rhsIdx
  rw [dif_neg (show ¬(1 : Fin S512x4.rank) ∈ dot_S512x512_S512x4_S512x4_1_0_0_1_n_n.rhsBatch by decide), dif_pos (show (1 : Fin S512x4.rank) ∈ dot_S512x512_S512x4_S512x4_1_0_0_1_n_n.rhsNonContracting by decide)]
  rfl

/-- The [512,512] × [512,4] product into a zero accumulator, at entry (r, m): the sum over the shared coordinate. -/
theorem matS_apply (y0 : FVec Ideal S512x512 .f32) (y1 : FVec Ideal S512x4 .f32) (r : Fin 512) (m : Fin 4) :
    matmul dot_S512x512_S512x4_S512x4_1_0_0_1_n_n none y0 y1 (constant (F := Ideal) S512x4 .f32 0x00000000#32) (ix2 r m)
      = ∑ q : Fin 512, y0 (ix2 r q) * y1 (ix2 q m) := by
  simp only [matmul]
  rw [Ideal.matmul_constant_zero_apply, ← Equiv.sum_comp (contrEquiv1 dot_S512x512_S512x4_S512x4_1_0_0_1_n_n 512 rfl rfl).symm]
  refine Finset.sum_congr rfl fun q _ => ?_
  have hq := contrEquiv1_symm_val dot_S512x512_S512x4_S512x4_1_0_0_1_n_n 512 rfl rfl q
  have el : dot_S512x512_S512x4_S512x4_1_0_0_1_n_n.lhsIdx (ix2 r m) ((contrEquiv1 dot_S512x512_S512x4_S512x4_1_0_0_1_n_n 512 rfl rfl).symm q) = ix2 r q := funext fun a => Fin.ext (by
    match a with
    | ⟨0, _⟩ => exact lhsS_0 _ _
    | ⟨1, _⟩ => exact (lhsS_1 _ _).trans hq)
  have er : dot_S512x512_S512x4_S512x4_1_0_0_1_n_n.rhsIdx (ix2 r m) ((contrEquiv1 dot_S512x512_S512x4_S512x4_1_0_0_1_n_n 512 rfl rfl).symm q) = ix2 q m := funext fun a => Fin.ext (by
    match a with
    | ⟨0, _⟩ => exact (rhsS_0 _ _).trans hq
    | ⟨1, _⟩ => exact rhsS_1 _ _)
  rw [el, er]

/-- Left operand of the neighbour product: row coordinate of the output on axis 0 … -/
theorem lhsN_0 (i : S4096x4.Idx) (q : dot_S4096x512_S512x4_S4096x4_1_0_0_1_n_n.contr.Idx) :
    (dot_S4096x512_S512x4_S4096x4_1_0_0_1_n_n.lhsIdx i q 0).val = (i 0).val := by
  unfold DotDims.lhsIdx
  rw [dif_neg (show ¬(0 : Fin S4096x512.rank) ∈ dot_S4096x512_S512x4_S4096x4_1_0_0_1_n_n.lhsBatch by decide), dif_pos (show (0 : Fin S4096x512.rank) ∈ dot_S4096x512_S512x4_S4096x4_1_0_0_1_n_n.lhsNonContracting by decide)]
  rfl
/-- … and the contraction coordinate on axis 1. -/
theorem lhsN_1 (i : S4096x4.Idx) (q : dot_S4096x512_S512x4_S4096x4_1_0_0_1_n_n.contr.Idx) :
    (dot_S4096x512_S512x4_S4096x4_1_0_0_1_n_n.lhsIdx i q 1).val = (q ⟨0, by decide⟩).val :=
  dot_S4096x512_S512x4_S4096x4_1_0_0_1_n_n.lhsIdx_val_of_single rfl i q
/-- Right operand of the neighbour product: the contraction coordinate on axis 0 … -/
theorem rhsN_0 (i : S4096x4.Idx) (q : dot_S4096x512_S512x4_S4096x4_1_0_0_1_n_n.contr.Idx) :
    (dot_S4096x512_S512x4_S4096x4_1_0_0_1_n_n.rhsIdx i q 0).val = (q ⟨0, by decide⟩).val :=
  dot_S4096x512_S512x4_S4096x4_1_0_0_1_n_n.rhsIdx_val_of_single rfl i q
/-- … and the output's column on axis 1. -/
theorem rhsN_1 (i : S4096x4.Idx) (q : dot_S4096x512_S512x4_S4096x4_1_0_0_1_n_n.contr.Idx) :
    (dot_S4096x512_S512x4_S4096x4_1_0_0_1_n_n.rhsIdx i q 1).val = (i 1).val := by
  unfold DotDims.rhsIdx
  rw [dif_neg (show ¬(1 : Fin S512x4.rank) ∈ dot_S4096x512_S512x4_S4096x4_1_0_0_1_n_n.rhsBatch by decide), dif_pos (show (1 : Fin S512x4.rank) ∈ dot_S4096x512_S512x4_S4096x4_1_0_0_1_n_n.rhsNonContracting by decide)]
  rfl

/-- The [4096,512] × [512,4] product into a zero accumulator, at entry (p, m): the sum over the shared coordinate. -/
theorem matN_apply (y0 : FVec Ideal S4096x512 .f32) (y1 : FVec Ideal S512x4 .f32) (p : Fin 4096) (m : Fin 4) :
    matmul dot_S4096x512_S512x4_S4096x4_1_0_0_1_n_n none y0 y1 (constant (F := Ideal) S4096x4 .f32 0x00000000#32) (ix2 p m)
      = ∑ q : Fin 512, y0 (ix2 p q) * y1 (ix2 q m) := by
  simp only [matmul]
  rw [Ideal.matmul_constant_zero_apply, ← Equiv.sum_comp (contrEquiv1 dot_S4096x512_S512x4_S4096x4_1_0_0_1_n_n 512 rfl rfl).symm]
  refine Finset.sum_congr rfl fun q _ => ?_
  have hq := contrEquiv1_symm_val dot_S4096x512_S512x4_S4096x4_1_0_0_1_n_n 512 rfl rfl q
  have el : dot_S4096x512_S512x4_S4096x4_1_0_0_1_n_n.lhsIdx (ix2 p m) ((contrEquiv1 dot_S4096x512_S512x4_S4096x4_1_0_0_1_n_n 512 rfl rfl).symm q) = ix2 p q := funext fun a => Fin.ext (by
    match a with
    | ⟨0, _⟩ => exact lhsN_0 _ _
    | ⟨1, _⟩ => exact (lhsN_1 _ _).trans hq)
  have er : dot_S4096x512_S512x4_S4096x4_1_0_0_1_n_n.rhsIdx (ix2 p m) ((contrEquiv1 dot_S4096x512_S512x4_S4096x4_1_0_0_1_n_n 512 rfl rfl).symm q) = ix2 q m := funext fun a => Fin.ext (by
    match a with
    | ⟨0, _⟩ => exact (rhsN_0 _ _).trans hq
    | ⟨1, _⟩ => exact rhsN_1 _ _)
  rw [el, er]

/-! ## The layout operations at an entry -/

/-- Row `8·r + k` of the flattened neighbour arrays. -/
abbrev flat (r : Fin 512) (k : Fin 8) : Fin 4096 := ⟨r.val * 8 + k.val, by have := r.isLt; have := k.isLt; omega⟩

/-- The [512,8,512] block flattened to [4096,512]: row 8·r+k, column q is the block's entry (r, k, q). -/
theorem castN_apply {α : Type} (x : S512x8x512.Idx → α) (h : S512x8x512.ShapeCasts S4096x512) (r : Fin 512) (k : Fin 8) (q : Fin 512) :
    shapeCast S4096x512 x h (ix2 (flat r k) q) = x (ix3 r k q) :=
  shapeCast_apply x h _ _ (by
    rw [Shape.rowMajor_val_three, Shape.rowMajor_val_two]
    rfl)

/-- The flat [4096,4] product cast back to [512,8,4]: entry (r, k, m) is row 8·r+k, column m. -/
theorem castB_apply {α : Type} (y : S4096x4.Idx → α) (h : S4096x4.ShapeCasts S512x8x4) (r : Fin 512) (k : Fin 8) (m : Fin 4) :
    shapeCast S512x8x4 y h (ix3 r k m) = y (ix2 (flat r k) m) :=
  shapeCast_apply y h _ _ (by
    rw [Shape.rowMajor_val_three, Shape.rowMajor_val_two]
    rfl)

/-- A [512,4] array given a unit neighbour axis and broadcast along it: entry (r, k, m) is the array's (r, m). -/
theorem bcast_apply {α : Type} (y : S512x4.Idx → α) (h : S512x4.ShapeCasts S512x1x4) (hb : S512x1x4.Broadcasts S512x8x4)
    (r : Fin 512) (k : Fin 8) (m : Fin 4) :
    broadcastTo S512x8x4 (shapeCast S512x1x4 y h) hb (ix3 r k m) = y (ix2 r m) := by
  refine (broadcastTo_apply (shapeCast S512x1x4 y h) hb (ix3 r k m) (ix3 r (0 : Fin 1) m) fun ax => ?_).trans ?_
  · match ax with
    | ⟨0, _⟩ => rfl
    | ⟨1, _⟩ => rfl
    | ⟨2, _⟩ => rfl
  · exact shapeCast_apply y h _ _ (by
      rw [Shape.rowMajor_val_three, Shape.rowMajor_val_two]
      show r.val * 4 + m.val = (r.val * 1 + 0) * 4 + m.val
      omega)

/-! ## The two reductions over the neighbour axis at an entry -/

/-- The source entry over (r, m) with neighbour coordinate k is (r, k, m). -/
theorem lift_eq (h : S512x8x4.Reduces [1] S512x4) (r : Fin 512) (m : Fin 4) (k : Fin 8) :
    h.lift (ix2 r m) k = ix3 r k m :=
  funext fun a => Fin.ext (by
    match a with
    | ⟨0, _⟩ => rfl
    | ⟨1, _⟩ => rfl
    | ⟨2, _⟩ => rfl)

/-- The maximum over the neighbour axis, folded from the accumulator's -∞, at (r, m). -/
theorem redmax_apply (x : FVec Ideal S512x8x4 .f32) (h : S512x8x4.Reduces [1] S512x4) (hφ : FKind.Formats .f32)
    (hacc : (0xFF800000#32 : BitVec FTy.f32.bits) = FKind.maximumf.neutral .f32 hφ) (r : Fin 512) (m : Fin 4) :
    multiReduction (F := Ideal) .maximumf [1] S512x4 x 0xFF800000#32 h hφ hacc (ix2 r m)
      = (Finset.univ : Finset (Fin 8)).fold max AttCell.litNegInf fun k => x (ix3 r k m) := by
  refine (Ideal.multiReduction_maximumf_single x _ h hφ hacc (ix2 r m)).trans ?_
  show (Finset.univ : Finset (Fin 8)).fold max AttCell.litNegInf (fun k => x (h.lift (ix2 r m) k)) = _
  exact Finset.fold_congr fun k _ => congrArg x (lift_eq h r m k)

/-- The sum over the neighbour axis at (r, m). -/
theorem redsum_apply (x : FVec Ideal S512x8x4 .f32) (h : S512x8x4.Reduces [1] S512x4) (hφ : FKind.Formats .f32)
    (hacc : (0x00000000#32 : BitVec FTy.f32.bits) = FKind.add.neutral .f32 hφ) (r : Fin 512) (m : Fin 4) :
    multiReduction (F := Ideal) .add [1] S512x4 x 0x00000000#32 h hφ hacc (ix2 r m) = ∑ k : Fin 8, x (ix3 r k m) := by
  refine (Ideal.multiReduction_add_single x _ h hφ hacc (ix2 r m)).trans ?_
  show ∑ k : Fin 8, x (h.lift (ix2 r m) k) = _
  exact Finset.sum_congr rfl fun k _ => congrArg x (lift_eq h r m k)

/-! ## The kernel's stages, named -/

section Stages
variable (v0 : Vec Ideal S512x512 .f32) (v4 : Vec Ideal S512x8x512 .f32) (v6 v10 : Vec Ideal S512x4 .f32)

/-- The logits as the kernel forms them: the self product broadcast along the neighbours plus the neighbour product. -/
def kLogit : FVec Ideal S512x8x4 .f32 :=
  addf
    (broadcastTo S512x8x4
      (shapeCast S512x1x4
        (matmul dot_S512x512_S512x4_S512x4_1_0_0_1_n_n none (k0_pay4 v0) (shapeCast S512x4 v6 shapeCasts_S512x4_S512x4 : FVec Ideal S512x4 .f32)
          (constant S512x4 .f32 0x00000000#32))
        shapeCasts_S512x4_S512x1x4)
      broadcasts_S512x1x4_S512x8x4)
    (shapeCast S512x8x4
      (matmul dot_S4096x512_S512x4_S4096x4_1_0_0_1_n_n none (shapeCast S4096x512 (k0_pay6 v4) shapeCasts_S512x8x512_S4096x512 : FVec Ideal S4096x512 .f32)
        (shapeCast S512x4 v10 shapeCasts_S512x4_S512x4 : FVec Ideal S512x4 .f32) (constant S4096x4 .f32 0x00000000#32))
      shapeCasts_S4096x4_S512x8x4)

/-- The leaky logits: the select on "logit ≥ 0" between the logit and 0.2 times it. -/
def kAct : FVec Ideal S512x8x4 .f32 :=
  select (cmpf .oge (kLogit v0 v4 v6 v10) (broadcast S512x8x4 (Scalar.ofBits .f32 0x00000000#32))) (kLogit v0 v4 v6 v10)
    (mulf (broadcast S512x8x4 (Scalar.ofBits .f32 0x3E4CCCCD#32)) (kLogit v0 v4 v6 v10))

/-- The neighbours' maximum, joined with -∞ once more. -/
def kMax : FVec Ideal S512x4 .f32 :=
  maximumf (broadcast S512x4 (Scalar.ofBits .f32 0xFF800000#32))
    (multiReduction .maximumf [1] S512x4 (kAct v0 v4 v6 v10) 0xFF800000#32 reduces_S512x8x4_S512x4 (.inl rfl) rfl)

/-- The exponentials of the leaky logits less their maximum. -/
def kEx : FVec Ideal S512x8x4 .f32 :=
  exp (subf (kAct v0 v4 v6 v10)
    (broadcastTo S512x8x4 (shapeCast S512x1x4 (kMax v0 v4 v6 v10) shapeCasts_S512x4_S512x1x4) broadcasts_S512x1x4_S512x8x4))

/-- Their sum over the neighbours. -/
def kDen : FVec Ideal S512x4 .f32 :=
  multiReduction .add [1] S512x4 (kEx v0 v4 v6 v10) 0x00000000#32 reduces_S512x8x4_S512x4 (.inl rfl) rfl

/-- The payload is the quotient of the exponentials by their sum, the sum broadcast along the neighbours. -/
theorem pay7_eq :
    k0_pay7 (F := Ideal) v0 v4 v6 v10
      = divf (kEx v0 v4 v6 v10)
          (broadcastTo S512x8x4 (shapeCast S512x1x4 (kDen v0 v4 v6 v10) shapeCasts_S512x4_S512x1x4) broadcasts_S512x1x4_S512x8x4) :=
  rfl

end Stages

/-! ## Each stage at an entry is the specification's -/

/-- The casts of the state arrays to their own shapes are the arrays. -/
theorem pay4_eq (v0 : Vec Ideal S512x512 .f32) : k0_pay4 (F := Ideal) v0 = v0 := shapeCast_self v0 _
theorem pay6_eq (v4 : Vec Ideal S512x8x512 .f32) : k0_pay6 (F := Ideal) v4 = v4 := shapeCast_self v4 _

section StageReads
variable (v0 : Vec Ideal S512x512 .f32) (v4 : Vec Ideal S512x8x512 .f32) (v6 v10 : Vec Ideal S512x4 .f32)

/-- The logit at (r, k, m): row r of the state against column m of the self weights, plus neighbour k's row
    against column m of the neighbour weights. -/
theorem kLogit_apply (r : Fin 512) (k : Fin 8) (m : Fin 4) :
    kLogit v0 v4 v6 v10 (ix3 r k m)
      = AttCell.logit (fun q => v0 (ix2 r q)) (fun k q => v4 (ix3 r k q)) (fun q m => v6 (ix2 q m))
          (fun q m => v10 (ix2 q m)) k m := by
  unfold kLogit AttCell.logit
  refine congrArg₂ (· + ·) ?_ ?_
  · refine (bcast_apply _ _ _ r k m).trans ?_
    refine (matS_apply _ _ r m).trans ?_
    rw [pay4_eq, shapeCast_self]
  · refine (castB_apply _ _ r k m).trans ?_
    refine (matN_apply _ _ (flat r k) m).trans ?_
    rw [pay6_eq, shapeCast_self]
    exact Finset.sum_congr rfl fun q _ => congrArg (· * v10 (ix2 q m)) (castN_apply v4 _ r k q)

/-- The leaky logit at (r, k, m). -/
theorem kAct_apply (r : Fin 512) (k : Fin 8) (m : Fin 4) :
    kAct v0 v4 v6 v10 (ix3 r k m)
      = AttCell.act (fun q => v0 (ix2 r q)) (fun k q => v4 (ix3 r k q)) (fun q m => v6 (ix2 q m))
          (fun q m => v10 (ix2 q m)) k m := by
  unfold AttCell.act AttCell.leaky
  rw [← kLogit_apply v0 v4 v6 v10 r k m]
  rfl

/-- The neighbours' maximum at (r, m). -/
theorem kMax_apply (r : Fin 512) (m : Fin 4) :
    kMax v0 v4 v6 v10 (ix2 r m)
      = AttCell.rowmax (fun q => v0 (ix2 r q)) (fun k q => v4 (ix3 r k q)) (fun q m => v6 (ix2 q m))
          (fun q m => v10 (ix2 q m)) m := by
  unfold kMax AttCell.rowmax
  refine congrArg (max AttCell.litNegInf) ((redmax_apply _ _ _ _ r m).trans ?_)
  exact Finset.fold_congr fun k _ => kAct_apply v0 v4 v6 v10 r k m

/-- The exponential at (r, k, m). -/
theorem kEx_apply (r : Fin 512) (k : Fin 8) (m : Fin 4) :
    kEx v0 v4 v6 v10 (ix3 r k m)
      = AttCell.ex (fun q => v0 (ix2 r q)) (fun k q => v4 (ix3 r k q)) (fun q m => v6 (ix2 q m))
          (fun q m => v10 (ix2 q m)) k m := by
  unfold kEx AttCell.ex
  refine congrArg Ideal.exp (congrArg₂ (· - ·) (kAct_apply v0 v4 v6 v10 r k m) ?_)
  exact (bcast_apply _ _ _ r k m).trans (kMax_apply v0 v4 v6 v10 r m)

/-- The denominator at (r, m). -/
theorem kDen_apply (r : Fin 512) (m : Fin 4) :
    kDen v0 v4 v6 v10 (ix2 r m)
      = AttCell.den (fun q => v0 (ix2 r q)) (fun k q => v4 (ix3 r k q)) (fun q m => v6 (ix2 q m))
          (fun q m => v10 (ix2 q m)) m := by
  unfold kDen AttCell.den
  refine (redsum_apply _ _ _ _ r m).trans ?_
  exact Finset.sum_congr rfl fun k _ => kEx_apply v0 v4 v6 v10 r k m

end StageReads

/-- The kernel's attention weights at one entry: the softmax over the eight neighbours of the leaky logits of row `r`. -/
theorem softmax_apply (v0 : Vec Ideal S512x512 .f32) (v4 : Vec Ideal S512x8x512 .f32) (v6 v10 : Vec Ideal S512x4 .f32)
    (r : Fin 512) (k : Fin 8) (m : Fin 4) :
    k0_pay7 (F := Ideal) v0 v4 v6 v10 (ix3 r k m)
      = AttCell.prob (fun q => v0 (ix2 r q)) (fun k q => v4 (ix3 r k q)) (fun q m => v6 (ix2 q m))
          (fun q m => v10 (ix2 q m)) k m := by
  rw [pay7_eq]
  unfold AttCell.prob
  refine congrArg₂ Ideal.div (kEx_apply v0 v4 v6 v10 r k m) ?_
  exact (bcast_apply _ _ _ r k m).trans (kDen_apply v0 v4 v6 v10 r m)

end Cert.KernelIdeal.Row

end
-- ==== Proof.KHeads.lean ====
import proofs.«416576_j22479858827484_3_alg».proof.Proof.Gen.KernelIdeal.Skeleton
import proofs.«416576_j22479858827484_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- One neighbour's contribution to one head's aggregate: the attention weight of neighbour `ok`, head `om`, cut out of the
    weights, spread along the 512 hidden coordinates, times the neighbour's state row. At row `r`, hidden coordinate `j` it is
    `P (r, ok, om) · HS (r, ok, j)`. The offsets are natural numbers and the layout evidence is arbitrary. -/
theorem term_apply (P : FVec Ideal S512x8x4 .f32) (HS : FVec Ideal S512x8x512 .f32) (ok om : ℕ) (hk : ok < 8) (hm : om < 4)
    (h1 : S512x8x4.Slices ![0, ok, om] S512x1x1) (h2 : S512x1x1.ShapeCasts S512x1) (h3 : S512x1.Broadcasts S512x512)
    (h4 : S512x8x512.Slices ![0, ok, 0] S512x1x512) (h5 : S512x1x512.ShapeCasts S512x512) (r j : Fin 512) :
    mulf (broadcastTo S512x512 (shapeCast S512x1 (extractStridedSlice S512x1x1 ![0, ok, om] P h1) h2) h3)
        (shapeCast S512x512 (extractStridedSlice S512x1x512 ![0, ok, 0] HS h4) h5) (ix2 r j)
      = P (ix3 r ⟨ok, hk⟩ ⟨om, hm⟩) * HS (ix3 r ⟨ok, hk⟩ j) := by
  refine congrArg₂ (· * ·) ?_ ?_
  · refine (broadcastTo_apply _ h3 (ix2 r j) (ix2 r (0 : Fin 1)) fun a => ?_).trans ?_
    · match a with
      | ⟨0, _⟩ => show r.val = if (512 : ℕ) = 1 then 0 else r.val; rw [if_neg (by decide)]
      | ⟨1, _⟩ => rfl
    refine (shapeCast_apply _ h2 (ix2 r (0 : Fin 1)) (ix3 r (0 : Fin 1) (0 : Fin 1)) ?_).trans ?_
    · rw [Shape.rowMajor_val_three, Shape.rowMajor_val_two]; show (r.val * 1 + 0) * 1 + 0 = r.val * 1 + 0; omega
    exact extractStridedSlice_apply _ P h1 (ix3 r (0 : Fin 1) (0 : Fin 1)) (ix3 r ⟨ok, hk⟩ ⟨om, hm⟩) fun a => by
      match a with
      | ⟨0, _⟩ => show r.val = 0 + r.val; omega
      | ⟨1, _⟩ => show ok = ok + 0; omega
      | ⟨2, _⟩ => show om = om + 0; omega
  · refine (shapeCast_apply _ h5 (ix2 r j) (ix3 r (0 : Fin 1) j) ?_).trans ?_
    · rw [Shape.rowMajor_val_three, Shape.rowMajor_val_two]; show (r.val * 1 + 0) * 512 + j.val = r.val * 512 + j.val; omega
    exact extractStridedSlice_apply _ HS h4 (ix3 r (0 : Fin 1) j) (ix3 r ⟨ok, hk⟩ j) fun a => by
      match a with
      | ⟨0, _⟩ => show r.val = 0 + r.val; omega
      | ⟨1, _⟩ => show ok = ok + 0; omega
      | ⟨2, _⟩ => show j.val = 0 + j.val; omega

/-- Head 0's aggregate at row `r`, hidden coordinate `j`: the eight neighbours' weighted states, summed. Its first term and
    its second weight arrive as values of their own. -/
theorem head0_apply (v0 : Vec Ideal S512x512 .f32) (v4 : Vec Ideal S512x8x512 .f32) (v6 v10 : Vec Ideal S512x4 .f32) (r j : Fin 512) :
    k0_pay10 (F := Ideal) (k0_pay6 v4) (k0_pay7 v0 v4 v6 v10) (k0_pay8 v0 v4 v6 v10) (k0_pay9 v0 v4 v6 v10) (ix2 r j)
      = ∑ k : Fin 8, k0_pay7 (F := Ideal) v0 v4 v6 v10 (ix3 r k (0 : Fin 4)) * k0_pay6 (F := Ideal) v4 (ix3 r k j) := by
  rw [Fin.sum_univ_eight]
  unfold k0_pay10 k0_pay8 k0_pay9
  generalize k0_pay7 (F := Ideal) v0 v4 v6 v10 = P
  generalize k0_pay6 (F := Ideal) v4 = HS
  simp only [addf_apply]
  rw [term_apply P HS 0 0 (by omega) (by omega),
    term_apply P HS 1 0 (by omega) (by omega),
    term_apply P HS 2 0 (by omega) (by omega),
    term_apply P HS 3 0 (by omega) (by omega),
    term_apply P HS 4 0 (by omega) (by omega),
    term_apply P HS 5 0 (by omega) (by omega),
    term_apply P HS 6 0 (by omega) (by omega),
    term_apply P HS 7 0 (by omega) (by omega)]
  rfl

/-- Head 1's aggregate at row `r`, hidden coordinate `j`. -/
theorem head1_apply (HS : FVec Ideal S512x8x512 .f32) (P : FVec Ideal S512x8x4 .f32) (r j : Fin 512) :
    k0_pay12 (F := Ideal) HS P (k0_pay11 HS P) (ix2 r j) = ∑ k : Fin 8, P (ix3 r k (1 : Fin 4)) * HS (ix3 r k j) := by
  rw [Fin.sum_univ_eight]
  unfold k0_pay12 k0_pay11
  simp only [addf_apply]
  rw [term_apply P HS 0 1 (by omega) (by omega),
    term_apply P HS 1 1 (by omega) (by omega),
    term_apply P HS 2 1 (by omega) (by omega),
    term_apply P HS 3 1 (by omega) (by omega),
    term_apply P HS 4 1 (by omega) (by omega),
    term_apply P HS 5 1 (by omega) (by omega),
    term_apply P HS 6 1 (by omega) (by omega),
    term_apply P HS 7 1 (by omega) (by omega)]
  rfl

/-- Head 2's aggregate at row `r`, hidden coordinate `j`. -/
theorem head2_apply (HS : FVec Ideal S512x8x512 .f32) (P : FVec Ideal S512x8x4 .f32) (r j : Fin 512) :
    k0_pay16 (F := Ideal) HS P (k0_pay13 HS P) (k0_pay14 HS) (k0_pay15 P) (ix2 r j)
      = ∑ k : Fin 8, P (ix3 r k (2 : Fin 4)) * HS (ix3 r k j) := by
  rw [Fin.sum_univ_eight]
  unfold k0_pay16 k0_pay13 k0_pay14 k0_pay15
  simp only [addf_apply]
  rw [term_apply P HS 0 2 (by omega) (by omega),
    term_apply P HS 1 2 (by omega) (by omega),
    term_apply P HS 2 2 (by omega) (by omega),
    term_apply P HS 3 2 (by omega) (by omega),
    term_apply P HS 4 2 (by omega) (by omega),
    term_apply P HS 5 2 (by omega) (by omega),
    term_apply P HS 6 2 (by omega) (by omega),
    term_apply P HS 7 2 (by omega) (by omega)]
  rfl

/-- The fused bias row, cast to its own shape and repeated down the 512 rows, at (r, j'): the bias at column j'. -/
theorem bias_apply (v258 : Vec Ideal S1x1024 .f32) (h : S1x1024.ShapeCasts S1x1024) (h' : S1x1024.Broadcasts S512x1024)
    (r : Fin 512) (j' : Fin 1024) :
    broadcastTo S512x1024 (shapeCast S1x1024 v258 h) h' (ix2 r j') = v258 (ix2 0 j') :=
  (broadcastTo_1b_ab_apply _ h' r j').trans (congrFun (shapeCast_self v258 h) _)

/-- The fused contraction's index functions, axis by axis: the left operand is read at (row of the result, contraction index), -/
theorem lhs_gates_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_gates_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- the right operand at (contraction index, column of the result). -/
theorem rhs_gates_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_gates_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The fused [512,2048] × [2048,1024] product into a zero accumulator, at entry (r, j'): the plain sum over the 2048
    contraction coordinates of the operands' products. -/
theorem mm_apply (A : FVec Ideal S512x2048 .bf16) (B : FVec Ideal S2048x1024 .bf16) (r : Fin 512) (j' : Fin 1024) :
    matmul dot_S512x2048_S2048x1024_S512x1024_1_0_0_1_n_n none A B (constant (F := Ideal) S512x1024 .f32 0x00000000#32) (ix2 r j')
      = ∑ q : Fin 2048, A (ix2 r q) * B (ix2 q j') := by
  show FloatOps.matmul dot_S512x2048_S2048x1024_S512x1024_1_0_0_1_n_n none A B (constant (F := Ideal) S512x1024 .f32 0x00000000#32) (ix2 r j') = _
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r j') ((contrEquiv1 dot_S512x2048_S2048x1024_S512x1024_1_0_0_1_n_n 2048 rfl rfl).symm k) = ix2 r k := funext fun a => Fin.ext (by
    match a with
    | ⟨0, _⟩ => exact lhs_gates_0 _ _
    | ⟨1, _⟩ => exact (lhs_gates_1 _ _).trans hk)
  have er : dot_S512x2048_S2048x1024_S512x1024_1_0_0_1_n_n.rhsIdx (ix2 r j') ((contrEquiv1 dot_S512x2048_S2048x1024_S512x1024_1_0_0_1_n_n 2048 rfl rfl).symm k) = ix2 k j' := funext fun a => Fin.ext (by
    match a with
    | ⟨0, _⟩ => exact (rhs_gates_0 _ _).trans hk
    | ⟨1, _⟩ => exact rhs_gates_1 _ _)
  rw [el, er]

/-- Four [512,512] blocks laid side by side along the columns, read at (r, q): block `q / 512` at column `q % 512`. Stated
    against a table `G` of the four blocks' rows at `r`. -/
theorem cat4_apply (X0 X1 X2 X3 : FVec Ideal S512x512 .f32)
    (h : Shape.Concatenates [S512x512, S512x512, S512x512, S512x512] S512x2048 1)
    (G : Fin 4 → Fin 512 → EReal) (r : Fin 512)
    (h0 : ∀ j, X0 (ix2 r j) = G 0 j) (h1 : ∀ j, X1 (ix2 r j) = G 1 j) (h2 : ∀ j, X2 (ix2 r j) = G 2 j)
    (h3 : ∀ j, X3 (ix2 r j) = G 3 j) (q : Fin 2048) :
    concatenate S512x2048 1 [⟨S512x512, X0⟩, ⟨S512x512, X1⟩, ⟨S512x512, X2⟩, ⟨S512x512, X3⟩] h (ix2 r q)
      = G (AttCell.headOf q) (AttCell.colOf q) := by
  have hq := q.isLt
  have hi : ∀ b : Fin S512x512.rank, b.cast (rfl : S512x512.rank = S512x2048.rank) ≠ (1 : Fin S512x2048.rank) →
      ((ix2 r (AttCell.colOf q) : S512x512.Idx) b).val = ((ix2 r q : S512x2048.Idx) (b.cast rfl)).val := fun b hb => by
    match b with
    | ⟨0, _⟩ => rfl
    | ⟨1, _⟩ => exact absurd (Fin.ext rfl) hb
  rcases (by omega : q.val / 512 = 0 ∨ q.val / 512 = 1 ∨ q.val / 512 = 2 ∨ q.val / 512 = 3) with e | e | e | e
  · rw [show AttCell.headOf q = 0 from Fin.ext e, ← h0]
    exact concatenate_apply_piece (α := Ideal .f32) (1 : Fin S512x2048.rank) [⟨S512x512, X0⟩, ⟨S512x512, X1⟩, ⟨S512x512, X2⟩, ⟨S512x512, X3⟩] h (ix2 r q) 0 (by simp) S512x512 X0 rfl rfl 0 rfl
      (ix2 r (AttCell.colOf q)) hi (by show 0 + q.val % 512 = q.val; omega)
  · rw [show AttCell.headOf q = 1 from Fin.ext e, ← h1]
    exact concatenate_apply_piece (α := Ideal .f32) (1 : Fin S512x2048.rank) [⟨S512x512, X0⟩, ⟨S512x512, X1⟩, ⟨S512x512, X2⟩, ⟨S512x512, X3⟩] h (ix2 r q) 1 (by simp) S512x512 X1 rfl rfl 512 rfl
      (ix2 r (AttCell.colOf q)) hi (by show 512 + q.val % 512 = q.val; omega)
  · rw [show AttCell.headOf q = 2 from Fin.ext e, ← h2]
    exact concatenate_apply_piece (α := Ideal .f32) (1 : Fin S512x2048.rank) [⟨S512x512, X0⟩, ⟨S512x512, X1⟩, ⟨S512x512, X2⟩, ⟨S512x512, X3⟩] h (ix2 r q) 2 (by simp) S512x512 X2 rfl rfl 1024 rfl
      (ix2 r (AttCell.colOf q)) hi (by show 1024 + q.val % 512 = q.val; omega)
  · rw [show AttCell.headOf q = 3 from Fin.ext e, ← h3]
    exact concatenate_apply_piece (α := Ideal .f32) (1 : Fin S512x2048.rank) [⟨S512x512, X0⟩, ⟨S512x512, X1⟩, ⟨S512x512, X2⟩, ⟨S512x512, X3⟩] h (ix2 r q) 3 (by simp) S512x512 X3 rfl rfl 1536 rfl
      (ix2 r (AttCell.colOf q)) hi (by show 1536 + q.val % 512 = q.val; omega)

/-- The fused spatial-gate logits at one entry: the four heads' aggregates laid side by side, times the fused weight,
    plus the fused bias. -/
theorem gatesfi_apply (v0 : Vec Ideal S512x512 .f32) (v4 : Vec Ideal S512x8x512 .f32) (v6 v10 : Vec Ideal S512x4 .f32)
    (v255 : Vec Ideal S2048x1024 .bf16) (v258 : Vec Ideal S1x1024 .f32) (r : Fin 512) (j' : Fin 1024) :
    k0_pay20 (F := Ideal) (k0_pay6 v4) (k0_pay7 v0 v4 v6 v10)
        (k0_pay10 (k0_pay6 v4) (k0_pay7 v0 v4 v6 v10) (k0_pay8 v0 v4 v6 v10) (k0_pay9 v0 v4 v6 v10))
        (k0_pay12 (k0_pay6 v4) (k0_pay7 v0 v4 v6 v10) (k0_pay11 (k0_pay6 v4) (k0_pay7 v0 v4 v6 v10)))
        (k0_pay16 (k0_pay6 v4) (k0_pay7 v0 v4 v6 v10) (k0_pay13 (k0_pay6 v4) (k0_pay7 v0 v4 v6 v10)) (k0_pay14 (k0_pay6 v4))
          (k0_pay15 (k0_pay7 v0 v4 v6 v10)))
        (k0_pay17 (k0_pay6 v4) (k0_pay7 v0 v4 v6 v10)) (k0_pay18 (k0_pay7 v0 v4 v6 v10)) (k0_pay19 (k0_pay6 v4)) v255 v258
        (ix2 r j')
      = (∑ q : Fin 2048, (∑ k : Fin 8, k0_pay7 (F := Ideal) v0 v4 v6 v10 (ix3 r k (AttCell.headOf q)) * v4 (ix3 r k (AttCell.colOf q)))
            * v255 (ix2 q j')) + v258 (ix2 0 j') := by
  -- the neighbour states pass through a cast to their own shape
  have e6 : k0_pay6 (F := Ideal) v4 = v4 := by unfold k0_pay6; exact shapeCast_self v4 _
  unfold k0_pay20
  refine (addf_apply _ _ _).trans (congrArg₂ (· + ·) ?_ (bias_apply v258 _ _ r j'))
  refine (mm_apply _ _ r j').trans (Finset.sum_congr rfl fun q _ => ?_)
  refine congrArg₂ (· * ·) ?_ (congrFun (shapeCast_self v255 _) _)
  refine Eq.trans (truncf_apply _ _ _) ?_
  refine (cat4_apply _ _ _ _ _
    (fun m j => ∑ k : Fin 8, k0_pay7 (F := Ideal) v0 v4 v6 v10 (ix3 r k m) * k0_pay6 (F := Ideal) v4 (ix3 r k j)) r
    (fun j => head0_apply v0 v4 v6 v10 r j) (fun j => head1_apply _ _ r j) (fun j => head2_apply _ _ r j) (fun j => ?_) q).trans ?_
  · -- head 3: three terms arrive summed, the fourth arrives as its two factors, four more are formed here
    show _ = ∑ k : Fin 8, k0_pay7 (F := Ideal) v0 v4 v6 v10 (ix3 r k (3 : Fin 4)) * k0_pay6 (F := Ideal) v4 (ix3 r k j)
    rw [Fin.sum_univ_eight]
    unfold k0_pay17 k0_pay18 k0_pay19
    generalize k0_pay7 (F := Ideal) v0 v4 v6 v10 = P
    generalize k0_pay6 (F := Ideal) v4 = HS
    simp only [addf_apply]
    rw [term_apply P HS 0 3 (by omega) (by omega),
    term_apply P HS 1 3 (by omega) (by omega),
    term_apply P HS 2 3 (by omega) (by omega),
    term_apply P HS 3 3 (by omega) (by omega),
    term_apply P HS 4 3 (by omega) (by omega),
    term_apply P HS 5 3 (by omega) (by omega),
    term_apply P HS 6 3 (by omega) (by omega),
    term_apply P HS 7 3 (by omega) (by omega)]
    rfl
  · show (∑ k : Fin 8, k0_pay7 (F := Ideal) v0 v4 v6 v10 (ix3 r k (AttCell.headOf q)) * k0_pay6 (F := Ideal) v4 (ix3 r k (AttCell.colOf q))) = _
    rw [e6]

end Cert.KernelIdeal.Row

end
-- ==== Proof.KUpper.lean ====
import proofs.«416576_j22479858827484_3_alg».proof.Proof.Gen.KernelIdeal.Skeleton
import proofs.«416576_j22479858827484_3_alg».proof.Proof.Spec
import proofs.«416576_j22479858827484_3_alg».proof.Proof.Gen.KernelIdeal.Frame
import proofs.«416576_j22479858827484_3_alg».proof.Proof.KSoftmax
import proofs.«416576_j22479858827484_3_alg».proof.Proof.KHeads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The two products of the gate logits, read at an entry -/

theorem lhs_mmx_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_mmx_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_mmx_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_mmx_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The input product into a zero accumulator at `(r, g)`: the sum over the 128 input coordinates. -/
theorem mmx_apply (a : FVec Ideal S512x128 .bf16) (b : FVec Ideal S128x2048 .bf16) (r : Fin 512) (g : Fin 2048) :
    matmul dot_S512x128_S128x2048_S512x2048_1_0_0_1_n_n none a b (constant (F := Ideal) S512x2048 .f32 0x00000000#32) (ix2 r g)
      = ∑ q : Fin 128, a (ix2 r q) * b (ix2 q g) := by
  show FloatOps.matmul _ _ _ _ _ _ = _
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r g) ((ValueIdx.contrEquiv1 dot_S512x128_S128x2048_S512x2048_1_0_0_1_n_n 128 rfl rfl).symm k) = ix2 r k := funext fun a => Fin.ext (by
    match a with
    | ⟨0, _⟩ => exact lhs_mmx_0 _ _
    | ⟨1, _⟩ => exact (lhs_mmx_1 _ _).trans hk)
  have er : dot_S512x128_S128x2048_S512x2048_1_0_0_1_n_n.rhsIdx (ix2 r g) ((ValueIdx.contrEquiv1 dot_S512x128_S128x2048_S512x2048_1_0_0_1_n_n 128 rfl rfl).symm k) = ix2 k g := funext fun a => Fin.ext (by
    match a with
    | ⟨0, _⟩ => exact (rhs_mmx_0 _ _).trans hk
    | ⟨1, _⟩ => exact rhs_mmx_1 _ _)
  rw [el, er]

theorem lhs_mmh_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_mmh_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_mmh_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_mmh_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The hidden-state product into a zero accumulator at `(r, g)`: the sum over the 512 hidden coordinates. -/
theorem mmh_apply (a : FVec Ideal S512x512 .bf16) (b : FVec Ideal S512x2048 .bf16) (r : Fin 512) (g : Fin 2048) :
    matmul dot_S512x512_S512x2048_S512x2048_1_0_0_1_n_n none a b (constant (F := Ideal) S512x2048 .f32 0x00000000#32) (ix2 r g)
      = ∑ q : Fin 512, a (ix2 r q) * b (ix2 q g) := by
  show FloatOps.matmul _ _ _ _ _ _ = _
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 r g) ((ValueIdx.contrEquiv1 dot_S512x512_S512x2048_S512x2048_1_0_0_1_n_n 512 rfl rfl).symm k) = ix2 r k := funext fun a => Fin.ext (by
    match a with
    | ⟨0, _⟩ => exact lhs_mmh_0 _ _
    | ⟨1, _⟩ => exact (lhs_mmh_1 _ _).trans hk)
  have er : dot_S512x512_S512x2048_S512x2048_1_0_0_1_n_n.rhsIdx (ix2 r g) ((ValueIdx.contrEquiv1 dot_S512x512_S512x2048_S512x2048_1_0_0_1_n_n 512 rfl rfl).symm k) = ix2 k g := funext fun a => Fin.ext (by
    match a with
    | ⟨0, _⟩ => exact (rhs_mmh_0 _ _).trans hk
    | ⟨1, _⟩ => exact rhs_mmh_1 _ _)
  rw [el, er]

/-! ## The payloads of the cell, read at an entry -/

/-- The four gate logits at `(r, g)`: input product plus hidden product plus the bias row. -/
theorem pay1_apply (v270 : FVec Ideal S512x128 .bf16) (v271 : FVec Ideal S512x512 .bf16) (v272 : Vec Ideal S128x2048 .bf16)
    (v275 : Vec Ideal S512x2048 .bf16) (v279 : Vec Ideal S1x2048 .f32) (r : Fin 512) (g : Fin 2048) :
    k0_pay1 (F := Ideal) v270 v271 v272 v275 v279 (ix2 r g)
      = ((∑ q : Fin 128, v270 (ix2 r q) * v272 (ix2 q g)) + ∑ q : Fin 512, v271 (ix2 r q) * v275 (ix2 q g))
          + v279 (ix2 0 g) := by
  unfold k0_pay1
  simp only [shapeCast_self]
  show (matmul _ none v270 v272 _ (ix2 r g) + matmul _ none v271 v275 _ (ix2 r g)) + broadcastTo S512x2048 v279 _ (ix2 r g) = _
  rw [mmx_apply, mmh_apply, broadcastTo_1b_ab_apply]

/-- Over any array of gate logits `G`: the carried-state formula at `(r, j)` reads `G` at the columns
    `512 + j`, `j` and `1024 + j` of row `r`. -/
theorem cnew_of_gates (G : FVec Ideal S512x2048 .f32) (v267 : FVec Ideal S512x512 .f32) (r j : Fin 512) :
    addf (mulf (logistic (extractStridedSlice S512x512 ![0, 512] G slices_S512x2048_o0_512_S512x512)) v267)
        (mulf (logistic (extractStridedSlice S512x512 ![0, 0] G slices_S512x2048_o0_0_S512x512))
          (tanh (extractStridedSlice S512x512 ![0, 1024] G slices_S512x2048_o0_1024_S512x512))) (ix2 r j)
      = Ideal.logistic (G (ix2 r (AttCell.q1 j))) * v267 (ix2 r j)
        + Ideal.logistic (G (ix2 r (AttCell.q0 j))) * Ideal.tanh (G (ix2 r (AttCell.q2 j))) := by
  show Ideal.logistic (extractStridedSlice S512x512 ![0, 512] G slices_S512x2048_o0_512_S512x512 (ix2 r j)) * v267 (ix2 r j)
      + Ideal.logistic (extractStridedSlice S512x512 ![0, 0] G slices_S512x2048_o0_0_S512x512 (ix2 r j))
        * Ideal.tanh (extractStridedSlice S512x512 ![0, 1024] G slices_S512x2048_o0_1024_S512x512 (ix2 r j)) = _
  rw [slice2_axis1_apply 512 G _ r j (AttCell.q1 j) rfl, slice2_axis1_apply 0 G _ r j (AttCell.q0 j) (Nat.zero_add _).symm,
    slice2_axis1_apply 1024 G _ r j (AttCell.q2 j) rfl]

/-- The new carried state at `(r, j)`: forget gate times the carried input plus input gate times candidate. -/
theorem pay2_apply (v267 : FVec Ideal S512x512 .f32) (v270 : FVec Ideal S512x128 .bf16) (v271 : FVec Ideal S512x512 .bf16)
    (v272 : Vec Ideal S128x2048 .bf16) (v275 : Vec Ideal S512x2048 .bf16) (v279 : Vec Ideal S1x2048 .f32) (r j : Fin 512) :
    k0_pay2 (F := Ideal) v267 v270 v271 v272 v275 v279 (ix2 r j)
      = Ideal.logistic (k0_pay1 (F := Ideal) v270 v271 v272 v275 v279 (ix2 r (AttCell.q1 j))) * v267 (ix2 r j)
        + Ideal.logistic (k0_pay1 (F := Ideal) v270 v271 v272 v275 v279 (ix2 r (AttCell.q0 j)))
          * Ideal.tanh (k0_pay1 (F := Ideal) v270 v271 v272 v275 v279 (ix2 r (AttCell.q2 j))) := by
  unfold k0_pay2
  exact cnew_of_gates (k0_pay1 (F := Ideal) v270 v271 v272 v275 v279) v267 r j

/-- Over any gate logits `G` and carried state `C`: the hidden-state formula at `(r, j)` reads `G` at column `1536 + j`. -/
theorem hnew_of_gates (G : FVec Ideal S512x2048 .f32) (C : FVec Ideal S512x512 .f32) (r j : Fin 512) :
    mulf (logistic (extractStridedSlice S512x512 ![0, 1536] G slices_S512x2048_o0_1536_S512x512)) (tanh C) (ix2 r j)
      = Ideal.logistic (G (ix2 r (AttCell.q3 j))) * Ideal.tanh (C (ix2 r j)) := by
  show Ideal.logistic (extractStridedSlice S512x512 ![0, 1536] G slices_S512x2048_o0_1536_S512x512 (ix2 r j)) * Ideal.tanh (C (ix2 r j)) = _
  rw [slice2_axis1_apply 1536 G _ r j (AttCell.q3 j) rfl]

/-- The new hidden state at `(r, j)`: output gate times the hyperbolic tangent of the new carried state. -/
theorem pay3_apply (v267 : FVec Ideal S512x512 .f32) (v270 : FVec Ideal S512x128 .bf16) (v271 : FVec Ideal S512x512 .bf16)
    (v272 : Vec Ideal S128x2048 .bf16) (v275 : Vec Ideal S512x2048 .bf16) (v279 : Vec Ideal S1x2048 .f32) (r j : Fin 512) :
    k0_pay3 (F := Ideal) v267 v270 v271 v272 v275 v279 (ix2 r j)
      = Ideal.logistic (k0_pay1 (F := Ideal) v270 v271 v272 v275 v279 (ix2 r (AttCell.q3 j)))
        * Ideal.tanh (k0_pay2 (F := Ideal) v267 v270 v271 v272 v275 v279 (ix2 r j)) := by
  unfold k0_pay3
  exact hnew_of_gates (k0_pay1 (F := Ideal) v270 v271 v272 v275 v279) (k0_pay2 (F := Ideal) v267 v270 v271 v272 v275 v279) r j

/-- Over any array of spatial-gate logits `G`: a state times the logistic of the first half of `G`'s columns. -/
theorem mod_lo_of_gates (G : FVec Ideal S512x1024 .f32) (C : FVec Ideal S512x512 .f32) (r j : Fin 512) :
    mulf C (logistic (extractStridedSlice S512x512 ![0, 0] G slices_S512x1024_o0_0_S512x512)) (ix2 r j)
      = C (ix2 r j) * Ideal.logistic (G (ix2 r (AttCell.lo j))) := by
  show C (ix2 r j) * Ideal.logistic (extractStridedSlice S512x512 ![0, 0] G slices_S512x1024_o0_0_S512x512 (ix2 r j)) = _
  rw [slice2_axis1_apply 0 G _ r j (AttCell.lo j) (Nat.zero_add _).symm]

/-- … and of the second half; the narrowing of the product is the identity on extended reals. -/
theorem mod_hi_of_gates (G : FVec Ideal S512x1024 .f32) (H : FVec Ideal S512x512 .f32) (r j : Fin 512) :
    truncf .bf16 (mulf H (logistic (extractStridedSlice S512x512 ![0, 512] G slices_S512x1024_o0_512_S512x512))) bitsLt_bf16_f32 (ix2 r j)
      = H (ix2 r j) * Ideal.logistic (G (ix2 r (AttCell.hi j))) := by
  show H (ix2 r j) * Ideal.logistic (extractStridedSlice S512x512 ![0, 512] G slices_S512x1024_o0_512_S512x512 (ix2 r j)) = _
  rw [slice2_axis1_apply 512 G _ r j (AttCell.hi j) rfl]

/-- The modulated carried state at `(r, j)`. -/
theorem pay21_apply (v3 : FVec Ideal S512x512 .f32) (v5 : FVec Ideal S512x8x512 .f32) (v32 : FVec Ideal S512x8x4 .f32)
    (v87 v142 v197 v217 : FVec Ideal S512x512 .f32) (v219 : FVec Ideal S512x1 .f32) (v220 : FVec Ideal S512x1x512 .f32)
    (v255 : Vec Ideal S2048x1024 .bf16) (v258 : Vec Ideal S1x1024 .f32) (r j : Fin 512) :
    k0_pay21 (F := Ideal) v3 v5 v32 v87 v142 v197 v217 v219 v220 v255 v258 (ix2 r j)
      = v3 (ix2 r j) * Ideal.logistic (k0_pay20 (F := Ideal) v5 v32 v87 v142 v197 v217 v219 v220 v255 v258 (ix2 r (AttCell.lo j))) := by
  unfold k0_pay21
  exact mod_lo_of_gates (k0_pay20 (F := Ideal) v5 v32 v87 v142 v197 v217 v219 v220 v255 v258) v3 r j

/-- The modulated hidden state at `(r, j)`. -/
theorem pay23_apply (v1 : FVec Ideal S512x512 .f32) (v5 : FVec Ideal S512x8x512 .f32) (v32 : FVec Ideal S512x8x4 .f32)
    (v87 v142 v197 v217 : FVec Ideal S512x512 .f32) (v219 : FVec Ideal S512x1 .f32) (v220 : FVec Ideal S512x1x512 .f32)
    (v255 : Vec Ideal S2048x1024 .bf16) (v258 : Vec Ideal S1x1024 .f32) (r j : Fin 512) :
    k0_pay23 (F := Ideal) v1 v5 v32 v87 v142 v197 v217 v219 v220 v255 v258 (ix2 r j)
      = v1 (ix2 r j) * Ideal.logistic (k0_pay20 (F := Ideal) v5 v32 v87 v142 v197 v217 v219 v220 v255 v258 (ix2 r (AttCell.hi j))) := by
  unfold k0_pay23
  exact mod_hi_of_gates (k0_pay20 (F := Ideal) v5 v32 v87 v142 v197 v217 v219 v220 v255 v258) v1 r j

/-- The input block narrowed: itself. -/
theorem pay22_eq (v268 : Vec Ideal S512x128 .f32) : k0_pay22 (F := Ideal) v268 = v268 := by
  unfold k0_pay22
  rw [shapeCast_self]
  rfl

/-- The same-shape cast of the carried block: itself. -/
theorem pay5_eq (v : Vec Ideal S512x512 .f32) : k0_pay5 (F := Ideal) v = v := by unfold k0_pay5; exact shapeCast_self _ _

/-! ## The cell of a block, from the block's inputs -/

/-- The modulated hidden block as the body hands it to the gate product: a function of the block's inputs. -/
def hmodK (x1 : Vec Ideal S512x512 .f32) (x3 : Vec Ideal S512x8x512 .f32) (x4 x5 : Vec Ideal S512x4 .f32)
    (x6 : Vec Ideal S2048x1024 .bf16) (x7 : Vec Ideal S1x1024 .f32) : FVec Ideal S512x512 .bf16 :=
  k0_pay23 (F := Ideal) (k0_pay4 x1) (k0_pay6 x3) (k0_pay7 x1 x3 x4 x5) (k0_pay10 (k0_pay6 x3) (k0_pay7 x1 x3 x4 x5) (k0_pay8 x1 x3 x4 x5) (k0_pay9 x1
    x3 x4 x5)) (k0_pay12 (k0_pay6 x3) (k0_pay7 x1 x3 x4 x5) (k0_pay11 (k0_pay6 x3) (k0_pay7 x1 x3 x4 x5))) (k0_pay16
    (k0_pay6 x3) (k0_pay7 x1 x3 x4 x5) (k0_pay13 (k0_pay6 x3) (k0_pay7 x1 x3 x4 x5)) (k0_pay14 (k0_pay6 x3)) (k0_pay15
    (k0_pay7 x1 x3 x4 x5))) (k0_pay17 (k0_pay6 x3) (k0_pay7 x1 x3 x4 x5)) (k0_pay18 (k0_pay7 x1 x3 x4 x5)) (k0_pay19
    (k0_pay6 x3)) x6 x7

/-- The modulated carried block, likewise. -/
def cmodK (x1 x2 : Vec Ideal S512x512 .f32) (x3 : Vec Ideal S512x8x512 .f32) (x4 x5 : Vec Ideal S512x4 .f32)
    (x6 : Vec Ideal S2048x1024 .bf16) (x7 : Vec Ideal S1x1024 .f32) : FVec Ideal S512x512 .f32 :=
  k0_pay21 (F := Ideal) (k0_pay5 x2) (k0_pay6 x3) (k0_pay7 x1 x3 x4 x5) (k0_pay10 (k0_pay6 x3) (k0_pay7 x1 x3 x4 x5) (k0_pay8 x1 x3 x4 x5) (k0_pay9 x1
    x3 x4 x5)) (k0_pay12 (k0_pay6 x3) (k0_pay7 x1 x3 x4 x5) (k0_pay11 (k0_pay6 x3) (k0_pay7 x1 x3 x4 x5))) (k0_pay16
    (k0_pay6 x3) (k0_pay7 x1 x3 x4 x5) (k0_pay13 (k0_pay6 x3) (k0_pay7 x1 x3 x4 x5)) (k0_pay14 (k0_pay6 x3)) (k0_pay15
    (k0_pay7 x1 x3 x4 x5))) (k0_pay17 (k0_pay6 x3) (k0_pay7 x1 x3 x4 x5)) (k0_pay18 (k0_pay7 x1 x3 x4 x5)) (k0_pay19
    (k0_pay6 x3)) x6 x7

/-- The modulated hidden state of row `r`: the row's hidden state times the second spatial gate, whose logit is the
    flat aggregate of the row against the second half of the fused weight, plus the second half of the fused bias. -/
theorem hmodK_apply (x1 : Vec Ideal S512x512 .f32) (x3 : Vec Ideal S512x8x512 .f32) (x4 x5 : Vec Ideal S512x4 .f32)
    (x6 : Vec Ideal S2048x1024 .bf16) (x7 : Vec Ideal S1x1024 .f32) (r j : Fin 512) :
    hmodK x1 x3 x4 x5 x6 x7 (ix2 r j)
      = AttCell.hmod (fun q => x1 (ix2 r q)) (fun k q => x3 (ix3 r k q)) (fun q m => x4 (ix2 q m)) (fun q m => x5 (ix2 q m))
          (fun q j => x6 (ix2 q (AttCell.hi j))) (fun j => x7 (ix2 0 (AttCell.hi j))) j := by
  unfold hmodK
  rw [pay23_apply, pay4_eq, gatesfi_apply]
  simp only [softmax_apply]
  rfl

/-- The modulated carried state of row `r`: the carried state times the first spatial gate. -/
theorem cmodK_apply (x1 x2 : Vec Ideal S512x512 .f32) (x3 : Vec Ideal S512x8x512 .f32) (x4 x5 : Vec Ideal S512x4 .f32)
    (x6 : Vec Ideal S2048x1024 .bf16) (x7 : Vec Ideal S1x1024 .f32) (r j : Fin 512) :
    cmodK x1 x2 x3 x4 x5 x6 x7 (ix2 r j)
      = AttCell.cmod (fun q => x1 (ix2 r q)) (fun q => x2 (ix2 r q)) (fun k q => x3 (ix3 r k q)) (fun q m => x4 (ix2 q m))
          (fun q m => x5 (ix2 q m)) (fun q j => x6 (ix2 q (AttCell.lo j))) (fun j => x7 (ix2 0 (AttCell.lo j))) j := by
  unfold cmodK
  rw [pay21_apply, pay5_eq, gatesfi_apply]
  simp only [softmax_apply]
  rfl

/-- The four LSTM gate logits of row `r`, from the block's inputs: the input row against the input weight, plus the
    modulated hidden row against the hidden weight, plus the bias. -/
theorem gateK_apply (x0 : Vec Ideal S512x128 .f32) (x1 : Vec Ideal S512x512 .f32) (x3 : Vec Ideal S512x8x512 .f32)
    (x4 x5 : Vec Ideal S512x4 .f32) (x6 : Vec Ideal S2048x1024 .bf16) (x7 : Vec Ideal S1x1024 .f32)
    (x8 : Vec Ideal S128x2048 .bf16) (x9 : Vec Ideal S512x2048 .bf16) (x10 : Vec Ideal S1x2048 .f32) (r : Fin 512) (g : Fin 2048) :
    k0_pay1 (F := Ideal) (k0_pay22 x0) (hmodK x1 x3 x4 x5 x6 x7) x8 x9 x10 (ix2 r g)
      = AttCell.gate (fun q => x1 (ix2 r q)) (fun k q => x3 (ix3 r k q)) (fun q => x0 (ix2 r q))
          (fun q m => x4 (ix2 q m)) (fun q m => x5 (ix2 q m))
          (fun q j => x6 (ix2 q (AttCell.hi j))) (fun j => x7 (ix2 0 (AttCell.hi j)))
          (fun q g => x8 (ix2 q g)) (fun q g => x9 (ix2 q g)) (fun g => x10 (ix2 0 g)) g := by
  rw [pay1_apply, pay22_eq]
  simp only [hmodK_apply]
  rfl

/-- The new carried state of row `r`, from the block's inputs. -/
theorem cnewK_apply (x0 : Vec Ideal S512x128 .f32) (x1 x2 : Vec Ideal S512x512 .f32) (x3 : Vec Ideal S512x8x512 .f32)
    (x4 x5 : Vec Ideal S512x4 .f32) (x6 : Vec Ideal S2048x1024 .bf16) (x7 : Vec Ideal S1x1024 .f32)
    (x8 : Vec Ideal S128x2048 .bf16) (x9 : Vec Ideal S512x2048 .bf16) (x10 : Vec Ideal S1x2048 .f32) (r j : Fin 512) :
    k0_pay2 (F := Ideal) (cmodK x1 x2 x3 x4 x5 x6 x7) (k0_pay22 x0) (hmodK x1 x3 x4 x5 x6 x7) x8 x9 x10 (ix2 r j)
      = AttCell.cnew (fun q => x1 (ix2 r q)) (fun q => x2 (ix2 r q)) (fun k q => x3 (ix3 r k q)) (fun q => x0 (ix2 r q))
          (fun q m => x4 (ix2 q m)) (fun q m => x5 (ix2 q m))
          (fun q j => x6 (ix2 q (AttCell.lo j))) (fun q j => x6 (ix2 q (AttCell.hi j)))
          (fun j => x7 (ix2 0 (AttCell.lo j))) (fun j => x7 (ix2 0 (AttCell.hi j)))
          (fun q g => x8 (ix2 q g)) (fun q g => x9 (ix2 q g)) (fun g => x10 (ix2 0 g)) j := by
  rw [pay2_apply, gateK_apply, gateK_apply, gateK_apply, cmodK_apply]
  rfl

/-- The new hidden state of row `r`, from the block's inputs. -/
theorem hnewK_apply (x0 : Vec Ideal S512x128 .f32) (x1 x2 : Vec Ideal S512x512 .f32) (x3 : Vec Ideal S512x8x512 .f32)
    (x4 x5 : Vec Ideal S512x4 .f32) (x6 : Vec Ideal S2048x1024 .bf16) (x7 : Vec Ideal S1x1024 .f32)
    (x8 : Vec Ideal S128x2048 .bf16) (x9 : Vec Ideal S512x2048 .bf16) (x10 : Vec Ideal S1x2048 .f32) (r j : Fin 512) :
    k0_pay3 (F := Ideal) (cmodK x1 x2 x3 x4 x5 x6 x7) (k0_pay22 x0) (hmodK x1 x3 x4 x5 x6 x7) x8 x9 x10 (ix2 r j)
      = AttCell.hnew (fun q => x1 (ix2 r q)) (fun q => x2 (ix2 r q)) (fun k q => x3 (ix3 r k q)) (fun q => x0 (ix2 r q))
          (fun q m => x4 (ix2 q m)) (fun q m => x5 (ix2 q m))
          (fun q j => x6 (ix2 q (AttCell.lo j))) (fun q j => x6 (ix2 q (AttCell.hi j)))
          (fun j => x7 (ix2 0 (AttCell.lo j))) (fun j => x7 (ix2 0 (AttCell.hi j)))
          (fun q g => x8 (ix2 q g)) (fun q g => x9 (ix2 q g)) (fun g => x10 (ix2 0 g)) j := by
  rw [pay3_apply, gateK_apply, cnewK_apply]
  rfl

/-! ## What the body leaves in the two output blocks -/

/-- The zero offsets of a whole-block rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the `h` output block, entry by entry: `hnew` of the block's row. -/
theorem out11_apply (x0 : Vec Ideal S512x128 .f32) (x1 x2 : Vec Ideal S512x512 .f32) (x3 : Vec Ideal S512x8x512 .f32)
    (x4 x5 : Vec Ideal S512x4 .f32) (x6 : Vec Ideal S2048x1024 .bf16) (x7 : Vec Ideal S1x1024 .f32)
    (x8 : Vec Ideal S128x2048 .bf16) (x9 : Vec Ideal S512x2048 .bf16) (x10 : Vec Ideal S1x2048 .f32) (r j : Fin 512) :
    out0_11 (F := Ideal) x0 x1 x2 x3 x4 x5 x6 x7 x8 x9 x10 (ix2 r j)
      = AttCell.hnew (fun q => x1 (ix2 r q)) (fun q => x2 (ix2 r q)) (fun k q => x3 (ix3 r k q)) (fun q => x0 (ix2 r q))
          (fun q m => x4 (ix2 q m)) (fun q m => x5 (ix2 q m))
          (fun q j => x6 (ix2 q (AttCell.lo j))) (fun q j => x6 (ix2 q (AttCell.hi j)))
          (fun j => x7 (ix2 0 (AttCell.lo j))) (fun j => x7 (ix2 0 (AttCell.hi j)))
          (fun q g => x8 (ix2 q g)) (fun q g => x9 (ix2 q g)) (fun g => x10 (ix2 0 g)) j := by
  unfold out0_11
  rw [View.canon_unit_zero hz2]
  simp only [View.ld_unit_zero (S := S512x512) hz2, View.ld_unit_zero (S := S512x8x512) hz3, View.ld_unit_zero (S := S512x4) hz2,
    View.ld_unit_zero (S := S2048x1024) hz2, View.ld_unit_zero (S := S1x1024) hz2, View.ld_unit_zero (S := S512x128) hz2,
    View.ld_unit_zero (S := S128x2048) hz2, View.ld_unit_zero (S := S512x2048) hz2, View.ld_unit_zero (S := S1x2048) hz2]
  exact hnewK_apply x0 x1 x2 x3 x4 x5 x6 x7 x8 x9 x10 r j

/-- And in the `c` output block: `cnew` of the block's row. -/
theorem out12_apply (x0 : Vec Ideal S512x128 .f32) (x1 x2 : Vec Ideal S512x512 .f32) (x3 : Vec Ideal S512x8x512 .f32)
    (x4 x5 : Vec Ideal S512x4 .f32) (x6 : Vec Ideal S2048x1024 .bf16) (x7 : Vec Ideal S1x1024 .f32)
    (x8 : Vec Ideal S128x2048 .bf16) (x9 : Vec Ideal S512x2048 .bf16) (x10 : Vec Ideal S1x2048 .f32) (r j : Fin 512) :
    out0_12 (F := Ideal) x0 x1 x2 x3 x4 x5 x6 x7 x8 x9 x10 (ix2 r j)
      = AttCell.cnew (fun q => x1 (ix2 r q)) (fun q => x2 (ix2 r q)) (fun k q => x3 (ix3 r k q)) (fun q => x0 (ix2 r q))
          (fun q m => x4 (ix2 q m)) (fun q m => x5 (ix2 q m))
          (fun q j => x6 (ix2 q (AttCell.lo j))) (fun q j => x6 (ix2 q (AttCell.hi j)))
          (fun j => x7 (ix2 0 (AttCell.lo j))) (fun j => x7 (ix2 0 (AttCell.hi j)))
          (fun q g => x8 (ix2 q g)) (fun q g => x9 (ix2 q g)) (fun g => x10 (ix2 0 g)) j := by
  unfold out0_12
  rw [View.canon_unit_zero hz2]
  simp only [View.ld_unit_zero (S := S512x512) hz2, View.ld_unit_zero (S := S512x8x512) hz3, View.ld_unit_zero (S := S512x4) hz2,
    View.ld_unit_zero (S := S2048x1024) hz2, View.ld_unit_zero (S := S1x1024) hz2, View.ld_unit_zero (S := S512x128) hz2,
    View.ld_unit_zero (S := S128x2048) hz2, View.ld_unit_zero (S := S512x2048) hz2, View.ld_unit_zero (S := S1x2048) hz2]
  exact cnewK_apply x0 x1 x2 x3 x4 x5 x6 x7 x8 x9 x10 r j

end Cert.KernelIdeal.Row

end
-- ==== Proof.KWeights.lean ====
import proofs.«416576_j22479858827484_3_alg».proof.KernelIdeal
import proofs.«416576_j22479858827484_3_alg».proof.Proof.Spec
import Idealize.ShloMosaic.Lib.ValueIdx
import Idealize.ShloMosaic.Lib.ValueLayout
import Idealize.ShloMosaic.Lib.Pipeline.Value

noncomputable section

open scoped BigOperators
open Idealize.ShloMosaic

namespace Cert.KernelIdeal.Row

open Cert.KernelIdeal Idealize.ShloMosaic.ValueIdx

variable [Facts₀]
open Facts₀

/-! ## The weights as the kernel's wrapper lays them out, read at an entry

The wrapper slices the attention vector in two, transposes the four weight matrices, lays the two spatial-gate
weights side by side and their biases end to end, and adds the two LSTM biases. Each lemma reads one of those arrays
at an entry as an entry of an argument. -/

/-- Rows 0–511 of the attention vector. -/
theorem aself_at (a : FVec Ideal S1024x4 .f32) (q : Fin 512) (h : Fin 4) :
    extractStridedSlice S512x4 ![0, 0] a slices_S1024x4_S512x4_0_0 (ix2 q h) = a (ix2 (⟨q.val, by omega⟩ : Fin 1024) h) :=
  extractStridedSlice_apply _ a _ (ix2 q h) (ix2 (⟨q.val, by omega⟩ : Fin 1024) h) fun d => match d with
    | ⟨0, _⟩ => by show q.val = 0 + q.val; omega
    | ⟨1, _⟩ => by show h.val = 0 + h.val; omega

/-- Rows 512–1023 of the attention vector. -/
theorem anb_at (a : FVec Ideal S1024x4 .f32) (q : Fin 512) (h : Fin 4) :
    extractStridedSlice S512x4 ![512, 0] a slices_S1024x4_S512x4_512_0 (ix2 q h) = a (ix2 (⟨512 + q.val, by omega⟩ : Fin 1024) h) :=
  extractStridedSlice_apply _ a _ (ix2 q h) (ix2 (⟨512 + q.val, by omega⟩ : Fin 1024) h) fun d => match d with
    | ⟨0, _⟩ => by show 512 + q.val = 512 + q.val; rfl
    | ⟨1, _⟩ => by show h.val = 0 + h.val; omega

/-- The two transposed spatial-gate weights side by side: the first 512 columns are `w_fg` transposed. -/
theorem wcat_lo (w5 w7 : FVec Ideal S512x2048 .f32) (q : Fin 2048) (j : Fin 512) :
    (concatenate S2048x1024 1 [⟨S2048x512, transpose S2048x512 [1, 0] w5 transposes_S512x2048_S2048x512_1_0⟩,
        ⟨S2048x512, transpose S2048x512 [1, 0] w7 transposes_S512x2048_S2048x512_1_0⟩] concatenates_S2048x512_S2048x512_S2048x1024_d1) (ix2 q (AttCell.lo j)) = w5 (ix2 j q) := by
  refine (concatenate_pair_apply_left (t := S2048x1024) (s₁ := S2048x512) (s₂ := S2048x512) (1 : Fin 2) _ _ _ (ix2 q (AttCell.lo j)) rfl (ix2 q j) fun b => match b with
    | ⟨0, _⟩ => rfl
    | ⟨1, _⟩ => rfl).trans ?_
  exact transpose_apply [1, 0] w5 _ (ix2 q j) (ix2 j q) fun b => match b with
    | ⟨0, _⟩ => rfl
    | ⟨1, _⟩ => rfl

/-- The last 512 columns are `w_ig` transposed. -/
theorem wcat_hi (w5 w7 : FVec Ideal S512x2048 .f32) (q : Fin 2048) (j : Fin 512) :
    (concatenate S2048x1024 1 [⟨S2048x512, transpose S2048x512 [1, 0] w5 transposes_S512x2048_S2048x512_1_0⟩,
        ⟨S2048x512, transpose S2048x512 [1, 0] w7 transposes_S512x2048_S2048x512_1_0⟩] concatenates_S2048x512_S2048x512_S2048x1024_d1) (ix2 q (AttCell.hi j)) = w7 (ix2 j q) := by
  refine (concatenate_pair_apply_right (t := S2048x1024) (s₁ := S2048x512) (s₂ := S2048x512) (1 : Fin 2) _ _ _ (ix2 q (AttCell.hi j)) rfl rfl (ix2 q j) (fun b => match b with
    | ⟨0, _⟩ => fun _ => rfl
    | ⟨1, _⟩ => fun hne => absurd rfl hne) (by show j.val + 512 = 512 + j.val; omega)).trans ?_
  exact transpose_apply [1, 0] w7 _ (ix2 q j) (ix2 j q) fun b => match b with
    | ⟨0, _⟩ => rfl
    | ⟨1, _⟩ => rfl

/-- The fused weight is that array under a change of format, which is the identity on the extended reals. -/
theorem wfused_lo (w5 w7 : FVec Ideal S512x2048 .f32) (q : Fin 2048) (j : Fin 512) :
    truncf (F := Ideal) .bf16 (concatenate S2048x1024 1 [⟨S2048x512, transpose S2048x512 [1, 0] w5 transposes_S512x2048_S2048x512_1_0⟩,
        ⟨S2048x512, transpose S2048x512 [1, 0] w7 transposes_S512x2048_S2048x512_1_0⟩] concatenates_S2048x512_S2048x512_S2048x1024_d1) bitsLt_bf16_f32
      (ix2 q (AttCell.lo j)) = w5 (ix2 j q) := wcat_lo w5 w7 q j
theorem wfused_hi (w5 w7 : FVec Ideal S512x2048 .f32) (q : Fin 2048) (j : Fin 512) :
    truncf (F := Ideal) .bf16 (concatenate S2048x1024 1 [⟨S2048x512, transpose S2048x512 [1, 0] w5 transposes_S512x2048_S2048x512_1_0⟩,
        ⟨S2048x512, transpose S2048x512 [1, 0] w7 transposes_S512x2048_S2048x512_1_0⟩] concatenates_S2048x512_S2048x512_S2048x1024_d1) bitsLt_bf16_f32
      (ix2 q (AttCell.hi j)) = w7 (ix2 j q) := wcat_hi w5 w7 q j

/-- The fused spatial-gate bias row: `b_fg` then `b_ig`. -/
theorem bfused_lo (b6 b8 : FVec Ideal S512 .f32) (j : Fin 512) :
    shapeCast S1x1024 (concatenate S1024 0 [⟨S512, b6⟩, ⟨S512, b8⟩] concatenates_S512_S512_S1024_d0) shapeCasts_S1024_S1x1024
      (ix2 (0 : Fin 1) (AttCell.lo j)) = b6 (ix1 j) := by
  refine (shapeCast_a_1a_apply _ shapeCasts_S1024_S1x1024 (0 : Fin 1) (AttCell.lo j)).trans ?_
  exact concatenate_pair_apply_left (t := S1024) (s₁ := S512) (s₂ := S512) (0 : Fin 1) _ _ _ (ix1 (AttCell.lo j)) rfl (ix1 j) fun b => match b with
    | ⟨0, _⟩ => rfl
theorem bfused_hi (b6 b8 : FVec Ideal S512 .f32) (j : Fin 512) :
    shapeCast S1x1024 (concatenate S1024 0 [⟨S512, b6⟩, ⟨S512, b8⟩] concatenates_S512_S512_S1024_d0) shapeCasts_S1024_S1x1024
      (ix2 (0 : Fin 1) (AttCell.hi j)) = b8 (ix1 j) := by
  refine (shapeCast_a_1a_apply _ shapeCasts_S1024_S1x1024 (0 : Fin 1) (AttCell.hi j)).trans ?_
  exact concatenate_pair_apply_right (t := S1024) (s₁ := S512) (s₂ := S512) (0 : Fin 1) _ _ _ (ix1 (AttCell.hi j)) rfl rfl (ix1 j) (fun b => match b with
    | ⟨0, _⟩ => fun hne => absurd rfl hne) (by show j.val + 512 = 512 + j.val; omega)

/-- The input weight transposed. -/
theorem wih_at (w9 : FVec Ideal S2048x128 .f32) (q : Fin 128) (g : Fin 2048) :
    truncf (F := Ideal) .bf16 (transpose S128x2048 [1, 0] w9 transposes_S2048x128_S128x2048_1_0) bitsLt_bf16_f32 (ix2 q g) = w9 (ix2 g q) :=
  transpose_apply [1, 0] w9 _ (ix2 q g) (ix2 g q) fun b => match b with
    | ⟨0, _⟩ => rfl
    | ⟨1, _⟩ => rfl

/-- The hidden weight transposed. -/
theorem whh_at (w10 : FVec Ideal S2048x512 .f32) (q : Fin 512) (g : Fin 2048) :
    truncf (F := Ideal) .bf16 (transpose S512x2048 [1, 0] w10 transposes_S2048x512_S512x2048_1_0) bitsLt_bf16_f32 (ix2 q g) = w10 (ix2 g q) :=
  transpose_apply [1, 0] w10 _ (ix2 q g) (ix2 g q) fun b => match b with
    | ⟨0, _⟩ => rfl
    | ⟨1, _⟩ => rfl

/-- The LSTM bias row: the two biases added. -/
theorem blstm_at (b11 b12 : FVec Ideal S2048 .f32) (g : Fin 2048) :
    shapeCast S1x2048 (addf (F := Ideal) b11 b12) shapeCasts_S2048_S1x2048 (ix2 (0 : Fin 1) g) = b11 (ix1 g) + b12 (ix1 g) :=
  shapeCast_a_1a_apply _ shapeCasts_S2048_S1x2048 (0 : Fin 1) g

end Cert.KernelIdeal.Row

end
-- ==== Proof.KernelArray.lean ====
/-
  The kernel's two output arrays after the run, as functions of the arguments.

  The grid has sixteen points; point `t` reads rows `512 t … 512 t + 511` of the four state arrays and the whole of
  every weight array, and writes the same rows of the two output arrays. What the body leaves in its output blocks is
  `hnew` / `cnew` of each row of the blocks it read (Proof/KUpper.lean), so what point `t` writes back is block `t` of
  ONE array, `Gh` resp. `Gc`: entry (n, j) is `hnew` / `cnew` of row n of the arrays the region finds. The sixteen blocks
  cover the output arrays (row n is in block n / 512), hence after the run the arrays ARE `Gh` and `Gc`.
  The arrays the region finds are what the wrapper's host operations made of the arguments: the states reshaped, the
  weights sliced, transposed, laid side by side, the biases laid end to end or added (Proof/KWeights.lean reads each
  at an entry). After the region the two output arrays are reshaped to [16, 512, 512]: the two results.
-/
import proofs.«416576_j22479858827484_3_alg».proof.Proof.Gen.KernelIdeal.Frame
import proofs.«416576_j22479858827484_3_alg».proof.Proof.Spec
import proofs.«416576_j22479858827484_3_alg».proof.Proof.KUpper
import proofs.«416576_j22479858827484_3_alg».proof.Proof.KWeights
import Idealize.ShloMosaic.Lib.StableHlo.Run
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.StableHlo
open Idealize.ShloMosaic.Pipeline (Dat)

namespace Cert.KernelIdeal.Row

open Cert.KernelIdeal Cert.KernelIdeal.Gen Idealize.ShloMosaic.ValueIdx

variable (m : (ℓ : Loc nD τ sig) → Buf (Elt Ideal) ℓ) (ρ : Dev nD → PrngReg)

/-! ## The grid

Sixteen points; point `t` takes block `t` of the row axis of the four state windows and of the two output windows,
and the one block of every weight window. -/

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem idx_facts_w : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem tN (t : Fin cfg0.N) : t.val < 16 := by have := t.isLt; have h : cfg0.N = 16 := N_0; omega

/-- Row `r` of the block at point `t` is row `512 t + r` of the array. -/
abbrev rowAt (t : Fin cfg0.N) (r : Fin 512) : Fin 8192 := ⟨512 * t.val + r.val, by have := tN t; omega⟩

/-! ## The blocks the body reads, as rows of the arrays the region finds -/

theorem iblk0_apply (c : Dev nD) (t : Fin cfg0.N) (r : Fin 512) (q : Fin 128) :
    (iblk m c 0 t : Vec Ideal S512x128 .f32) (ix2 r q) = (V m c main_v0 : S8192x128.Idx → EReal) (ix2 (rowAt t r) q) := by
  obtain ⟨⟨e0, e1⟩, -⟩ := idx_facts t
  unfold iblk
  rw [View.read_apply]
  show V m c main_v0 _ = V m c main_v0 _
  congr 1; funext a; apply Fin.ext
  match a with
  | ⟨0, _⟩ => show win0_0.index t 0 * 512 + 1 * r.val = 512 * t.val + r.val; rw [e0]; omega
  | ⟨1, _⟩ => show win0_0.index t 1 * 128 + 1 * q.val = q.val; rw [e1]; omega

theorem iblk1_apply (c : Dev nD) (t : Fin cfg0.N) (r q : Fin 512) :
    (iblk m c 1 t : Vec Ideal S512x512 .f32) (ix2 r q) = (V m c main_v1 : S8192x512.Idx → EReal) (ix2 (rowAt t r) q) := by
  obtain ⟨-, ⟨e0, e1⟩, -⟩ := idx_facts t
  unfold iblk
  rw [View.read_apply]
  show V m c main_v1 _ = V m c main_v1 _
  congr 1; funext a; apply Fin.ext
  match a with
  | ⟨0, _⟩ => show win0_1.index t 0 * 512 + 1 * r.val = 512 * t.val + r.val; rw [e0]; omega
  | ⟨1, _⟩ => show win0_1.index t 1 * 512 + 1 * q.val = q.val; rw [e1]; omega

theorem iblk2_apply (c : Dev nD) (t : Fin cfg0.N) (r q : Fin 512) :
    (iblk m c 2 t : Vec Ideal S512x512 .f32) (ix2 r q) = (V m c main_v2 : S8192x512.Idx → EReal) (ix2 (rowAt t r) q) := by
  obtain ⟨-, -, ⟨e0, e1⟩, -⟩ := idx_facts t
  unfold iblk
  rw [View.read_apply]
  show V m c main_v2 _ = V m c main_v2 _
  congr 1; funext a; apply Fin.ext
  match a with
  | ⟨0, _⟩ => show win0_2.index t 0 * 512 + 1 * r.val = 512 * t.val + r.val; rw [e0]; omega
  | ⟨1, _⟩ => show win0_2.index t 1 * 512 + 1 * q.val = q.val; rw [e1]; omega

theorem iblk3_apply (c : Dev nD) (t : Fin cfg0.N) (r : Fin 512) (k : Fin 8) (q : Fin 512) :
    (iblk m c 3 t : Vec Ideal S512x8x512 .f32) (ix3 r k q) = (V m c main_v3 : S8192x8x512.Idx → EReal) (ix3 (rowAt t r) k q) := by
  obtain ⟨-, -, -, ⟨e0, e1, e2⟩, -⟩ := idx_facts t
  unfold iblk
  rw [View.read_apply]
  show V m c main_v3 _ = V m c main_v3 _
  congr 1; funext a; apply Fin.ext
  match a with
  | ⟨0, _⟩ => show win0_3.index t 0 * 512 + 1 * r.val = 512 * t.val + r.val; rw [e0]; omega
  | ⟨1, _⟩ => show win0_3.index t 1 * 8 + 1 * k.val = k.val; rw [e1]; omega
  | ⟨2, _⟩ => show win0_3.index t 2 * 512 + 1 * q.val = q.val; rw [e2]; omega

theorem iblk4_apply (c : Dev nD) (t : Fin cfg0.N) (a : Fin 512) (b : Fin 4) :
    (iblk m c 4 t : Vec Ideal S512x4 _) (ix2 a b) = (V m c main_v4 : S512x4.Idx → EReal) (ix2 a b) := by
  obtain ⟨⟨e0, e1⟩, -⟩ := idx_facts_w t
  unfold iblk
  rw [View.read_apply]
  show V m c main_v4 _ = V m c main_v4 _
  congr 1; funext d; apply Fin.ext
  match d with
  | ⟨0, _⟩ => show win0_4.index t 0 * 512 + 1 * a.val = a.val; rw [e0]; omega
  | ⟨1, _⟩ => show win0_4.index t 1 * 4 + 1 * b.val = b.val; rw [e1]; omega

theorem iblk5_apply (c : Dev nD) (t : Fin cfg0.N) (a : Fin 512) (b : Fin 4) :
    (iblk m c 5 t : Vec Ideal S512x4 _) (ix2 a b) = (V m c main_v5 : S512x4.Idx → EReal) (ix2 a b) := by
  obtain ⟨-, ⟨e0, e1⟩, -⟩ := idx_facts_w t
  unfold iblk
  rw [View.read_apply]
  show V m c main_v5 _ = V m c main_v5 _
  congr 1; funext d; apply Fin.ext
  match d with
  | ⟨0, _⟩ => show win0_5.index t 0 * 512 + 1 * a.val = a.val; rw [e0]; omega
  | ⟨1, _⟩ => show win0_5.index t 1 * 4 + 1 * b.val = b.val; rw [e1]; omega

theorem iblk6_apply (c : Dev nD) (t : Fin cfg0.N) (a : Fin 2048) (b : Fin 1024) :
    (iblk m c 6 t : Vec Ideal S2048x1024 _) (ix2 a b) = (V m c main_v9 : S2048x1024.Idx → EReal) (ix2 a b) := by
  obtain ⟨-, -, ⟨e0, e1⟩, -⟩ := idx_facts_w t
  unfold iblk
  rw [View.read_apply]
  show V m c main_v9 _ = V m c main_v9 _
  congr 1; funext d; apply Fin.ext
  match d with
  | ⟨0, _⟩ => show win0_6.index t 0 * 2048 + 1 * a.val = a.val; rw [e0]; omega
  | ⟨1, _⟩ => show win0_6.index t 1 * 1024 + 1 * b.val = b.val; rw [e1]; omega

theorem iblk7_apply (c : Dev nD) (t : Fin cfg0.N) (a : Fin 1) (b : Fin 1024) :
    (iblk m c 7 t : Vec Ideal S1x1024 _) (ix2 a b) = (V m c main_v11 : S1x1024.Idx → EReal) (ix2 a b) := by
  obtain ⟨-, -, -, ⟨e0, e1⟩, -⟩ := idx_facts_w t
  unfold iblk
  rw [View.read_apply]
  show V m c main_v11 _ = V m c main_v11 _
  congr 1; funext d; apply Fin.ext
  match d with
  | ⟨0, _⟩ => show win0_7.index t 0 * 1 + 1 * a.val = a.val; rw [e0]; omega
  | ⟨1, _⟩ => show win0_7.index t 1 * 1024 + 1 * b.val = b.val; rw [e1]; omega

theorem iblk8_apply (c : Dev nD) (t : Fin cfg0.N) (a : Fin 128) (b : Fin 2048) :
    (iblk m c 8 t : Vec Ideal S128x2048 _) (ix2 a b) = (V m c main_v13 : S128x2048.Idx → EReal) (ix2 a b) := by
  obtain ⟨-, -, -, -, ⟨e0, e1⟩, -⟩ := idx_facts_w t
  unfold iblk
  rw [View.read_apply]
  show V m c main_v13 _ = V m c main_v13 _
  congr 1; funext d; apply Fin.ext
  match d with
  | ⟨0, _⟩ => show win0_8.index t 0 * 128 + 1 * a.val = a.val; rw [e0]; omega
  | ⟨1, _⟩ => show win0_8.index t 1 * 2048 + 1 * b.val = b.val; rw [e1]; omega

theorem iblk9_apply (c : Dev nD) (t : Fin cfg0.N) (a : Fin 512) (b : Fin 2048) :
    (iblk m c 9 t : Vec Ideal S512x2048 _) (ix2 a b) = (V m c main_v15 : S512x2048.Idx → EReal) (ix2 a b) := by
  obtain ⟨-, -, -, -, -, ⟨e0, e1⟩, -⟩ := idx_facts_w t
  unfold iblk
  rw [View.read_apply]
  show V m c main_v15 _ = V m c main_v15 _
  congr 1; funext d; apply Fin.ext
  match d with
  | ⟨0, _⟩ => show win0_9.index t 0 * 512 + 1 * a.val = a.val; rw [e0]; omega
  | ⟨1, _⟩ => show win0_9.index t 1 * 2048 + 1 * b.val = b.val; rw [e1]; omega

theorem iblk10_apply (c : Dev nD) (t : Fin cfg0.N) (a : Fin 1) (b : Fin 2048) :
    (iblk m c 10 t : Vec Ideal S1x2048 _) (ix2 a b) = (V m c main_v17 : S1x2048.Idx → EReal) (ix2 a b) := by
  obtain ⟨-, -, -, -, -, -, ⟨e0, e1⟩⟩ := idx_facts_w t
  unfold iblk
  rw [View.read_apply]
  show V m c main_v17 _ = V m c main_v17 _
  congr 1; funext d; apply Fin.ext
  match d with
  | ⟨0, _⟩ => show win0_10.index t 0 * 1 + 1 * a.val = a.val; rw [e0]; omega
  | ⟨1, _⟩ => show win0_10.index t 1 * 2048 + 1 * b.val = b.val; rw [e1]; omega

/-! ## The two output arrays after the run -/

/-- The arrays the region finds, read by coordinates: the four state arrays by row, the weight arrays whole. -/
abbrev xrowV (c : Dev nD) (n : Fin 8192) : Fin 128 → EReal := fun q => (V m c main_v0 : S8192x128.Idx → EReal) (ix2 n q)
abbrev hrowV (c : Dev nD) (n : Fin 8192) : Fin 512 → EReal := fun q => (V m c main_v1 : S8192x512.Idx → EReal) (ix2 n q)
abbrev crowV (c : Dev nD) (n : Fin 8192) : Fin 512 → EReal := fun q => (V m c main_v2 : S8192x512.Idx → EReal) (ix2 n q)
abbrev hsrowV (c : Dev nD) (n : Fin 8192) : Fin 8 → Fin 512 → EReal := fun k q => (V m c main_v3 : S8192x8x512.Idx → EReal) (ix3 n k q)
abbrev aSV (c : Dev nD) : Fin 512 → Fin 4 → EReal := fun q h => (V m c main_v4 : S512x4.Idx → EReal) (ix2 q h)
abbrev aNV (c : Dev nD) : Fin 512 → Fin 4 → EReal := fun q h => (V m c main_v5 : S512x4.Idx → EReal) (ix2 q h)
abbrev wfV (c : Dev nD) : Fin 2048 → Fin 512 → EReal := fun q j => (V m c main_v9 : S2048x1024.Idx → EReal) (ix2 q (AttCell.lo j))
abbrev wiV (c : Dev nD) : Fin 2048 → Fin 512 → EReal := fun q j => (V m c main_v9 : S2048x1024.Idx → EReal) (ix2 q (AttCell.hi j))
abbrev bfV (c : Dev nD) : Fin 512 → EReal := fun j => (V m c main_v11 : S1x1024.Idx → EReal) (ix2 0 (AttCell.lo j))
abbrev biV (c : Dev nD) : Fin 512 → EReal := fun j => (V m c main_v11 : S1x1024.Idx → EReal) (ix2 0 (AttCell.hi j))
abbrev wihV (c : Dev nD) : Fin 128 → Fin 2048 → EReal := fun q g => (V m c main_v13 : S128x2048.Idx → EReal) (ix2 q g)
abbrev whhV (c : Dev nD) : Fin 512 → Fin 2048 → EReal := fun q g => (V m c main_v15 : S512x2048.Idx → EReal) (ix2 q g)
abbrev blV (c : Dev nD) : Fin 2048 → EReal := fun g => (V m c main_v17 : S1x2048.Idx → EReal) (ix2 0 g)

/-- The new hidden state as ONE array: entry (n, j) is `hnew` of row n. -/
def Gh (c : Dev nD) : S8192x512.Idx → EReal := fun i =>
  AttCell.hnew (hrowV m c (i 0)) (crowV m c (i 0)) (hsrowV m c (i 0)) (xrowV m c (i 0)) (aSV m c) (aNV m c) (wfV m c) (wiV m c)
    (bfV m c) (biV m c) (wihV m c) (whhV m c) (blV m c) (i 1)
/-- The new carried state as ONE array: entry (n, j) is `cnew` of row n. -/
def Gc (c : Dev nD) : S8192x512.Idx → EReal := fun i =>
  AttCell.cnew (hrowV m c (i 0)) (crowV m c (i 0)) (hsrowV m c (i 0)) (xrowV m c (i 0)) (aSV m c) (aNV m c) (wfV m c) (wiV m c)
    (bfV m c) (biV m c) (wihV m c) (whhV m c) (blV m c) (i 1)

/-- Entry (r, j) of output block `t` sits at row `512 t + r` of the output array. -/
theorem emb11 (t : Fin cfg0.N) (r j : Fin 512) :
    ((cfg0.win 11).blk t).view.emb (ix2 r j) = (ix2 (rowAt t r) j : S8192x512.Idx) := by
  obtain ⟨-, -, -, -, ⟨e0, e1⟩, -⟩ := idx_facts t
  funext a; apply Fin.ext
  match a with
  | ⟨0, _⟩ => show win0_11.index t 0 * 512 + 1 * r.val = 512 * t.val + r.val; rw [e0]; omega
  | ⟨1, _⟩ => show win0_11.index t 1 * 512 + 1 * j.val = j.val; rw [e1]; omega
theorem emb12 (t : Fin cfg0.N) (r j : Fin 512) :
    ((cfg0.win 12).blk t).view.emb (ix2 r j) = (ix2 (rowAt t r) j : S8192x512.Idx) := by
  obtain ⟨-, -, -, -, -, ⟨e0, e1⟩⟩ := idx_facts t
  funext a; apply Fin.ext
  match a with
  | ⟨0, _⟩ => show win0_12.index t 0 * 512 + 1 * r.val = 512 * t.val + r.val; rw [e0]; omega
  | ⟨1, _⟩ => show win0_12.index t 1 * 512 + 1 * j.val = j.val; rw [e1]; omega

/-- What point `t` writes back to the `h` output is block `t` of `Gh`. -/
theorem flushed11_eq (c : Dev nD) (t : Fin cfg0.N) :
    (dats m 0 c).flushed 11 t = ((cfg0.win 11).blk t).view.read (Elt Ideal) (Gh m c) := by
  show (cfg0.win 11).cut (grid0.coords t) ((dats m 0 c).after 11 t) = _
  rw [after0_11]
  funext y
  obtain ⟨r, j, rfl⟩ : ∃ (r j : Fin 512), y = ix2 r j := ⟨y 0, y 1, eq_ix2 y⟩
  rw [View.read_apply, emb11]
  refine (out11_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) r j).trans ?_
  simp only [iblk0_apply, iblk1_apply, iblk2_apply, iblk3_apply, iblk4_apply, iblk5_apply, iblk6_apply, iblk7_apply,
    iblk8_apply, iblk9_apply, iblk10_apply]
  rfl

/-- What point `t` writes back to the `c` output is block `t` of `Gc`. -/
theorem flushed12_eq (c : Dev nD) (t : Fin cfg0.N) :
    (dats m 0 c).flushed 12 t = ((cfg0.win 12).blk t).view.read (Elt Ideal) (Gc m c) := by
  show (cfg0.win 12).cut (grid0.coords t) ((dats m 0 c).after 12 t) = _
  rw [after0_12]
  funext y
  obtain ⟨r, j, rfl⟩ : ∃ (r j : Fin 512), y = ix2 r j := ⟨y 0, y 1, eq_ix2 y⟩
  rw [View.read_apply, emb12]
  refine (out12_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) r j).trans ?_
  simp only [iblk0_apply, iblk1_apply, iblk2_apply, iblk3_apply, iblk4_apply, iblk5_apply, iblk6_apply, iblk7_apply,
    iblk8_apply, iblk9_apply, iblk10_apply]
  rfl

/-- An index of an output array is in point `t`'s block iff each coordinate is in the block's range. -/
theorem mem_blk11 (t : Fin cfg0.N) (i : S8192x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v18_0).slice (win0_11.rect t)).set ↔ _
  rw [View.set_slice_whole, Rect.mem_set_unit]
  exact Iff.rfl
theorem mem_blk12 (t : Fin cfg0.N) (i : S8192x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v18_1).slice (win0_12.rect t)).set ↔ _
  rw [View.set_slice_whole, Rect.mem_set_unit]
  exact Iff.rfl

/-- The point whose block holds row `n`: `n / 512`. -/
abbrev pointOf (i : S8192x512.Idx) : Fin cfg0.N := ⟨(i 0).val / 512, by have h : cfg0.N = 16 := N_0; have := (i 0).isLt; show (i 0).val / 512 < cfg0.N; rw [h]; have : (i 0).val < 8192 := (i 0).isLt; omega⟩

/-- Every index of the `h` output array is in the block of the point that holds its row. -/
theorem cover11 (i : S8192x512.Idx) : ∃ t : Fin cfg0.N, (cfg0.win 11).flush t = true ∧ i ∈ ((cfg0.win 11).blk t).view.set := by
  refine ⟨pointOf i, flush0_11 _, ?_⟩
  rw [mem_blk11]
  obtain ⟨-, -, -, -, ⟨e0, e1⟩, -⟩ := idx_facts (pointOf i)
  have h0 : (i 0).val < 8192 := (i 0).isLt
  have h1 : (i 1).val < 512 := (i 1).isLt
  intro a
  match a with
  | ⟨0, _⟩ => show win0_11.index (pointOf i) 0 * 512 ≤ (i 0).val ∧ (i 0).val < win0_11.index (pointOf i) 0 * 512 + 512; rw [e0]; show (i 0).val / 512 * 512 ≤ (i 0).val ∧ (i 0).val < (i 0).val / 512 * 512 + 512; omega
  | ⟨1, _⟩ => show win0_11.index (pointOf i) 1 * 512 ≤ (i 1).val ∧ (i 1).val < win0_11.index (pointOf i) 1 * 512 + 512; rw [e1]; omega
theorem cover12 (i : S8192x512.Idx) : ∃ t : Fin cfg0.N, (cfg0.win 12).flush t = true ∧ i ∈ ((cfg0.win 12).blk t).view.set := by
  refine ⟨pointOf i, flush0_12 _, ?_⟩
  rw [mem_blk12]
  obtain ⟨-, -, -, -, -, ⟨e0, e1⟩⟩ := idx_facts (pointOf i)
  have h0 : (i 0).val < 8192 := (i 0).isLt
  have h1 : (i 1).val < 512 := (i 1).isLt
  intro a
  match a with
  | ⟨0, _⟩ => show win0_12.index (pointOf i) 0 * 512 ≤ (i 0).val ∧ (i 0).val < win0_12.index (pointOf i) 0 * 512 + 512; rw [e0]; show (i 0).val / 512 * 512 ≤ (i 0).val ∧ (i 0).val < (i 0).val / 512 * 512 + 512; omega
  | ⟨1, _⟩ => show win0_12.index (pointOf i) 1 * 512 ≤ (i 1).val ∧ (i 1).val < win0_12.index (pointOf i) 1 * 512 + 512; rw [e1]; omega

/-- The sixteen blocks tile the output arrays, so after the run they hold `Gh` and `Gc`. -/
theorem final11 (c : Dev nD) : (dats m 0 c).arrAt 11 cfg0.N = Gh m c :=
  (dats m 0 c).arrAt_eq_of_cover 11 (Gh m c) (fun t _ => flushed11_eq m c t) cover11
theorem final12 (c : Dev nD) : (dats m 0 c).arrAt 12 cfg0.N = Gc m c :=
  (dats m 0 c).arrAt_eq_of_cover 12 (Gc m c) (fun t _ => flushed12_eq m c t) cover12

/-! ## What the host operations before the region leave in the arrays the windows stage -/

theorem V_v0 (c : Dev nD) : (V m c main_v0 : S8192x128.Idx → EReal)
    = shapeCast S8192x128 (m ((c : Thread nD τ).loc main_arg0) : FVec Ideal S16x512x128 .f32) shapeCasts_S16x512x128_S8192x128 := by
  show StableHlo.after hostOps0 (fun b => m (c, b)) (Proc.devRef .tc main_v0) = _
  after_results
  all_goals rfl

theorem V_v1 (c : Dev nD) : (V m c main_v1 : S8192x512.Idx → EReal)
    = shapeCast S8192x512 (m ((c : Thread nD τ).loc main_arg1) : FVec Ideal S16x512x512 .f32) shapeCasts_S16x512x512_S8192x512 := by
  show StableHlo.after hostOps0 (fun b => m (c, b)) (Proc.devRef .tc main_v1) = _
  after_results
  all_goals rfl

theorem V_v2 (c : Dev nD) : (V m c main_v2 : S8192x512.Idx → EReal)
    = shapeCast S8192x512 (m ((c : Thread nD τ).loc main_arg2) : FVec Ideal S16x512x512 .f32) shapeCasts_S16x512x512_S8192x512 := by
  show StableHlo.after hostOps0 (fun b => m (c, b)) (Proc.devRef .tc main_v2) = _
  after_results
  all_goals rfl

theorem V_v3 (c : Dev nD) : (V m c main_v3 : S8192x8x512.Idx → EReal)
    = shapeCast S8192x8x512 (m ((c : Thread nD τ).loc main_arg3) : FVec Ideal S16x512x8x512 .f32) shapeCasts_S16x512x8x512_S8192x8x512 := by
  show StableHlo.after hostOps0 (fun b => m (c, b)) (Proc.devRef .tc main_v3) = _
  after_results
  all_goals rfl

theorem V_v4 (c : Dev nD) : (V m c main_v4 : S512x4.Idx → EReal)
    = extractStridedSlice S512x4 ![0, 0] (m ((c : Thread nD τ).loc main_arg4) : FVec Ideal S1024x4 .f32) slices_S1024x4_S512x4_0_0 := by
  show StableHlo.after hostOps0 (fun b => m (c, b)) (Proc.devRef .tc main_v4) = _
  after_results
  all_goals rfl

theorem V_v5 (c : Dev nD) : (V m c main_v5 : S512x4.Idx → EReal)
    = extractStridedSlice S512x4 ![512, 0] (m ((c : Thread nD τ).loc main_arg4) : FVec Ideal S1024x4 .f32) slices_S1024x4_S512x4_512_0 := by
  show StableHlo.after hostOps0 (fun b => m (c, b)) (Proc.devRef .tc main_v5) = _
  after_results
  all_goals rfl

theorem V_v9 (c : Dev nD) : (V m c main_v9 : S2048x1024.Idx → EReal)
    = truncf (F := Ideal) .bf16 (concatenate S2048x1024 1 [⟨S2048x512, transpose S2048x512 [1, 0] (m ((c : Thread nD τ).loc main_arg5) : FVec Ideal S512x2048 .f32) transposes_S512x2048_S2048x512_1_0⟩,
        ⟨S2048x512, transpose S2048x512 [1, 0] (m ((c : Thread nD τ).loc main_arg7) : FVec Ideal S512x2048 .f32) transposes_S512x2048_S2048x512_1_0⟩] concatenates_S2048x512_S2048x512_S2048x1024_d1) bitsLt_bf16_f32 := by
  show StableHlo.after hostOps0 (fun b => m (c, b)) (Proc.devRef .tc main_v9) = _
  after_results
  all_goals rfl

theorem V_v11 (c : Dev nD) : (V m c main_v11 : S1x1024.Idx → EReal)
    = shapeCast S1x1024 (concatenate S1024 0 [⟨S512, (m ((c : Thread nD τ).loc main_arg6) : FVec Ideal S512 .f32)⟩, ⟨S512, (m ((c : Thread nD τ).loc main_arg8) : FVec Ideal S512 .f32)⟩] concatenates_S512_S512_S1024_d0) shapeCasts_S1024_S1x1024 := by
  show StableHlo.after hostOps0 (fun b => m (c, b)) (Proc.devRef .tc main_v11) = _
  after_results
  all_goals rfl

theorem V_v13 (c : Dev nD) : (V m c main_v13 : S128x2048.Idx → EReal)
    = truncf (F := Ideal) .bf16 (transpose S128x2048 [1, 0] (m ((c : Thread nD τ).loc main_arg9) : FVec Ideal S2048x128 .f32) transposes_S2048x128_S128x2048_1_0) bitsLt_bf16_f32 := by
  show StableHlo.after hostOps0 (fun b => m (c, b)) (Proc.devRef .tc main_v13) = _
  after_results
  all_goals rfl

theorem V_v15 (c : Dev nD) : (V m c main_v15 : S512x2048.Idx → EReal)
    = truncf (F := Ideal) .bf16 (transpose S512x2048 [1, 0] (m ((c : Thread nD τ).loc main_arg10) : FVec Ideal S2048x512 .f32) transposes_S2048x512_S512x2048_1_0) bitsLt_bf16_f32 := by
  show StableHlo.after hostOps0 (fun b => m (c, b)) (Proc.devRef .tc main_v15) = _
  after_results
  all_goals rfl

theorem V_v17 (c : Dev nD) : (V m c main_v17 : S1x2048.Idx → EReal)
    = shapeCast S1x2048 (addf (F := Ideal) (s := S2048) (φ := .f32) (m ((c : Thread nD τ).loc main_arg11) : FVec Ideal S2048 .f32) (m ((c : Thread nD τ).loc main_arg12) : FVec Ideal S2048 .f32)) shapeCasts_S2048_S1x2048 := by
  show StableHlo.after hostOps0 (fun b => m (c, b)) (Proc.devRef .tc main_v17) = _
  after_results
  all_goals rfl

/-! ## The weights the windows stage, as entries of the arguments -/

/-- The two LSTM bias arguments, at their literal type. -/
abbrev bihA (c : Dev nD) : S2048.Idx → EReal := m ((c : Thread nD τ).loc main_arg11)
abbrev bhhA (c : Dev nD) : S2048.Idx → EReal := m ((c : Thread nD τ).loc main_arg12)

theorem aSV_eq (c : Dev nD) : aSV m c = fun q h => (m ((c : Thread nD τ).loc main_arg4) : S1024x4.Idx → EReal) (ix2 (⟨q.val, by omega⟩ : Fin 1024) h) := by
  funext q h; show (V m c main_v4 : S512x4.Idx → EReal) (ix2 q h) = _; rw [V_v4]; exact aself_at _ q h
theorem aNV_eq (c : Dev nD) : aNV m c = fun q h => (m ((c : Thread nD τ).loc main_arg4) : S1024x4.Idx → EReal) (ix2 (⟨512 + q.val, by omega⟩ : Fin 1024) h) := by
  funext q h; show (V m c main_v5 : S512x4.Idx → EReal) (ix2 q h) = _; rw [V_v5]; exact anb_at _ q h
theorem wfV_eq (c : Dev nD) : wfV m c = fun q j => (m ((c : Thread nD τ).loc main_arg5) : S512x2048.Idx → EReal) (ix2 j q) := by
  funext q j; show (V m c main_v9 : S2048x1024.Idx → EReal) (ix2 q (AttCell.lo j)) = _; rw [V_v9]; exact wfused_lo _ _ q j
theorem wiV_eq (c : Dev nD) : wiV m c = fun q j => (m ((c : Thread nD τ).loc main_arg7) : S512x2048.Idx → EReal) (ix2 j q) := by
  funext q j; show (V m c main_v9 : S2048x1024.Idx → EReal) (ix2 q (AttCell.hi j)) = _; rw [V_v9]; exact wfused_hi _ _ q j
theorem bfV_eq (c : Dev nD) : bfV m c = fun j => (m ((c : Thread nD τ).loc main_arg6) : S512.Idx → EReal) (ix1 j) := by
  funext j; show (V m c main_v11 : S1x1024.Idx → EReal) (ix2 0 (AttCell.lo j)) = _; rw [V_v11]; exact bfused_lo _ _ j
theorem biV_eq (c : Dev nD) : biV m c = fun j => (m ((c : Thread nD τ).loc main_arg8) : S512.Idx → EReal) (ix1 j) := by
  funext j; show (V m c main_v11 : S1x1024.Idx → EReal) (ix2 0 (AttCell.hi j)) = _; rw [V_v11]; exact bfused_hi _ _ j
theorem wihV_eq (c : Dev nD) : wihV m c = fun q g => (m ((c : Thread nD τ).loc main_arg9) : S2048x128.Idx → EReal) (ix2 g q) := by
  funext q g; show (V m c main_v13 : S128x2048.Idx → EReal) (ix2 q g) = _; rw [V_v13]; exact wih_at _ q g
theorem whhV_eq (c : Dev nD) : whhV m c = fun q g => (m ((c : Thread nD τ).loc main_arg10) : S2048x512.Idx → EReal) (ix2 g q) := by
  funext q g; show (V m c main_v15 : S512x2048.Idx → EReal) (ix2 q g) = _; rw [V_v15]; exact whh_at _ q g
theorem blV_eq (c : Dev nD) : blV m c = fun g => bihA m c (ix1 g) + bhhA m c (ix1 g) := by
  funext g; show (V m c main_v17 : S1x2048.Idx → EReal) (ix2 0 g) = _; rw [V_v17]; exact blstm_at _ _ g

/-- `Gh` and `Gc` as functions of the ARGUMENTS: the state rows through the wrapper's reshapes, the weights directly. -/
theorem Gh_args (c : Dev nD) : Gh m c = fun i => AttCell.hnew
      (fun q => shapeCast S8192x512 (m ((c : Thread nD τ).loc main_arg1) : FVec Ideal S16x512x512 .f32) shapeCasts_S16x512x512_S8192x512 (ix2 (i 0) q))
      (fun q => shapeCast S8192x512 (m ((c : Thread nD τ).loc main_arg2) : FVec Ideal S16x512x512 .f32) shapeCasts_S16x512x512_S8192x512 (ix2 (i 0) q))
      (fun k q => shapeCast S8192x8x512 (m ((c : Thread nD τ).loc main_arg3) : FVec Ideal S16x512x8x512 .f32) shapeCasts_S16x512x8x512_S8192x8x512 (ix3 (i 0) k q))
      (fun q => shapeCast S8192x128 (m ((c : Thread nD τ).loc main_arg0) : FVec Ideal S16x512x128 .f32) shapeCasts_S16x512x128_S8192x128 (ix2 (i 0) q))
      (fun q h => (m ((c : Thread nD τ).loc main_arg4) : S1024x4.Idx → EReal) (ix2 (⟨q.val, by omega⟩ : Fin 1024) h))
      (fun q h => (m ((c : Thread nD τ).loc main_arg4) : S1024x4.Idx → EReal) (ix2 (⟨512 + q.val, by omega⟩ : Fin 1024) h))
      (fun q j => (m ((c : Thread nD τ).loc main_arg5) : S512x2048.Idx → EReal) (ix2 j q))
      (fun q j => (m ((c : Thread nD τ).loc main_arg7) : S512x2048.Idx → EReal) (ix2 j q))
      (fun j => (m ((c : Thread nD τ).loc main_arg6) : S512.Idx → EReal) (ix1 j))
      (fun j => (m ((c : Thread nD τ).loc main_arg8) : S512.Idx → EReal) (ix1 j))
      (fun q g => (m ((c : Thread nD τ).loc main_arg9) : S2048x128.Idx → EReal) (ix2 g q))
      (fun q g => (m ((c : Thread nD τ).loc main_arg10) : S2048x512.Idx → EReal) (ix2 g q))
      (fun g => bihA m c (ix1 g) + bhhA m c (ix1 g))
      (i 1) := by
  funext i
  unfold Gh
  rw [aSV_eq, aNV_eq, wfV_eq, wiV_eq, bfV_eq, biV_eq, wihV_eq, whhV_eq, blV_eq]
  show AttCell.hnew (fun q => (V m c main_v1 : S8192x512.Idx → EReal) (ix2 (i 0) q)) (fun q => (V m c main_v2 : S8192x512.Idx → EReal) (ix2 (i 0) q))
    (fun k q => (V m c main_v3 : S8192x8x512.Idx → EReal) (ix3 (i 0) k q)) (fun q => (V m c main_v0 : S8192x128.Idx → EReal) (ix2 (i 0) q)) _ _ _ _ _ _ _ _ _ _ = _
  rw [V_v0, V_v1, V_v2, V_v3]
theorem Gc_args (c : Dev nD) : Gc m c = fun i => AttCell.cnew
      (fun q => shapeCast S8192x512 (m ((c : Thread nD τ).loc main_arg1) : FVec Ideal S16x512x512 .f32) shapeCasts_S16x512x512_S8192x512 (ix2 (i 0) q))
      (fun q => shapeCast S8192x512 (m ((c : Thread nD τ).loc main_arg2) : FVec Ideal S16x512x512 .f32) shapeCasts_S16x512x512_S8192x512 (ix2 (i 0) q))
      (fun k q => shapeCast S8192x8x512 (m ((c : Thread nD τ).loc main_arg3) : FVec Ideal S16x512x8x512 .f32) shapeCasts_S16x512x8x512_S8192x8x512 (ix3 (i 0) k q))
      (fun q => shapeCast S8192x128 (m ((c : Thread nD τ).loc main_arg0) : FVec Ideal S16x512x128 .f32) shapeCasts_S16x512x128_S8192x128 (ix2 (i 0) q))
      (fun q h => (m ((c : Thread nD τ).loc main_arg4) : S1024x4.Idx → EReal) (ix2 (⟨q.val, by omega⟩ : Fin 1024) h))
      (fun q h => (m ((c : Thread nD τ).loc main_arg4) : S1024x4.Idx → EReal) (ix2 (⟨512 + q.val, by omega⟩ : Fin 1024) h))
      (fun q j => (m ((c : Thread nD τ).loc main_arg5) : S512x2048.Idx → EReal) (ix2 j q))
      (fun q j => (m ((c : Thread nD τ).loc main_arg7) : S512x2048.Idx → EReal) (ix2 j q))
      (fun j => (m ((c : Thread nD τ).loc main_arg6) : S512.Idx → EReal) (ix1 j))
      (fun j => (m ((c : Thread nD τ).loc main_arg8) : S512.Idx → EReal) (ix1 j))
      (fun q g => (m ((c : Thread nD τ).loc main_arg9) : S2048x128.Idx → EReal) (ix2 g q))
      (fun q g => (m ((c : Thread nD τ).loc main_arg10) : S2048x512.Idx → EReal) (ix2 g q))
      (fun g => bihA m c (ix1 g) + bhhA m c (ix1 g))
      (i 1) := by
  funext i
  unfold Gc
  rw [aSV_eq, aNV_eq, wfV_eq, wiV_eq, bfV_eq, biV_eq, wihV_eq, whhV_eq, blV_eq]
  show AttCell.cnew (fun q => (V m c main_v1 : S8192x512.Idx → EReal) (ix2 (i 0) q)) (fun q => (V m c main_v2 : S8192x512.Idx → EReal) (ix2 (i 0) q))
    (fun k q => (V m c main_v3 : S8192x8x512.Idx → EReal) (ix3 (i 0) k q)) (fun q => (V m c main_v0 : S8192x128.Idx → EReal) (ix2 (i 0) q)) _ _ _ _ _ _ _ _ _ _ = _
  rw [V_v0, V_v1, V_v2, V_v3]

/-! ## The two reshapes after the region, and the run -/

/-- The result `h_new`: the `h` output array reshaped to [16, 512, 512]. -/
theorem tail19 (c : Dev nD) :
    Pipeline.afterTail₀ cfgs (dats m) 0 (V0 m) [hostOps1] c main_v19
      = shapeCast S16x512x512 (Gh m c) shapeCasts_S8192x512_S16x512x512 := by
  unfold Pipeline.afterTail₀
  show StableHlo.after hostOps1 _ (Proc.devRef .tc main_v19) = _
  after_results
  have hw : Pipeline.withArrays (cfgs 0).spec c (V0 m c) (fun w => (dats m 0 c).arrAt w (cfgs 0).N) (Proc.devRef .tc main_v18_0) = Gh m c :=
    (Pipeline.withArrays_arr spec0 launch0.win.arr_inj c _ _ 11).trans (final11 m c)
  rw [hw]
  rfl
/-- The result `c_new`: the `c` output array reshaped to [16, 512, 512]. -/
theorem tail20 (c : Dev nD) :
    Pipeline.afterTail₀ cfgs (dats m) 0 (V0 m) [hostOps1] c main_v20
      = shapeCast S16x512x512 (Gc m c) shapeCasts_S8192x512_S16x512x512 := by
  unfold Pipeline.afterTail₀
  show StableHlo.after hostOps1 _ (Proc.devRef .tc main_v20) = _
  after_results
  have hw : Pipeline.withArrays (cfgs 0).spec c (V0 m c) (fun w => (dats m 0 c).arrAt w (cfgs 0).N) (Proc.devRef .tc main_v18_1) = Gc m c :=
    (Pipeline.withArrays_arr spec0 launch0.win.arr_inj c _ _ 12).trans (final12 m c)
  rw [hw]
  rfl

/-- The kernel's run, read: the two results at the reshaped `Gh` and `Gc`, the arguments unchanged. -/
theorem run : θ_run defs (onTc (τ := τ) (main (F := Ideal))) ⟨m, fun _ => 0, ρ⟩ fun r => ∀ c : Dev nD,
      r.2.mem ((c.tc : Thread nD τ).loc main_v19) = shapeCast S16x512x512 (Gh m c) shapeCasts_S8192x512_S16x512x512
      ∧ r.2.mem ((c.tc : Thread nD τ).loc main_v20) = shapeCast S16x512x512 (Gc m c) shapeCasts_S8192x512_S16x512x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v19 (Pipeline.mem_restRefs_of main_v19 (by decide) (by decide))).trans (tail19 m c),
      ((h c).2 main_v20 (Pipeline.mem_restRefs_of main_v20 (by decide) (by decide))).trans (tail20 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.KernelIdeal.Row

end
-- ==== Proof.RefAgg.lean ====
import proofs.«416576_j22479858827484_3_alg».proof.Proof.Gen.ReferenceIdeal.Read
import proofs.«416576_j22479858827484_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx

/-- The two halves of the attention vector `a_src`: rows 0–511 weigh the node's own state, rows 512–1023 a neighbour's. -/
abbrev aSelf (a : (⟨S1024x4, .f32⟩ : BufTy).Contents (Elt Ideal)) (q : Fin 512) (m : Fin 4) : EReal :=
  a (ix2 (⟨q.val, by omega⟩ : Fin 1024) m)
abbrev aNb (a : (⟨S1024x4, .f32⟩ : BufTy).Contents (Elt Ideal)) (q : Fin 512) (m : Fin 4) : EReal :=
  a (ix2 (⟨512 + q.val, by omega⟩ : Fin 1024) m)

namespace Agg

section Stages

variable (x1 : (⟨S16x512x512, .f32⟩ : BufTy).Contents (Elt Ideal)) (x3 : (⟨S16x512x8x512, .f32⟩ : BufTy).Contents (Elt Ideal))
  (x4 : (⟨S1024x4, .f32⟩ : BufTy).Contents (Elt Ideal)) (n : Fin 8192)

/-- Row `n` of the reshaped hidden states, and of the reshaped neighbour states. -/
abbrev hrow (q : Fin 512) : EReal := val_main_v1 (F := Ideal) x1 (ix2 n q)
abbrev hsrow (k : Fin 8) (q : Fin 512) : EReal := val_main_v3 (F := Ideal) x3 (ix3 n k q)

/-- The node's own score: row `n` of `h` against the first half of the attention vector, a sum over the 512 hidden coordinates. -/
theorem self_apply (m : Fin 4) :
    val_main_v6 (F := Ideal) x1 x4 (ix2 n m) = ∑ q : Fin 512, hrow x1 n q * aSelf x4 q m := by
  rw [val_main_v6_apply]
  refine Finset.sum_congr rfl fun q _ => ?_
  have el : lidx_main_v6 (ix2 n m) q = ix2 n q :=
    funext fun a => Fin.ext (by match a with | ⟨0, _⟩ => rfl | ⟨1, _⟩ => rfl)
  have er : idx_main_v4 (ridx_main_v6 (ix2 n m) q) = ix2 (⟨q.val, by omega⟩ : Fin 1024) m :=
    funext fun a => Fin.ext (by match a with | ⟨0, _⟩ => rfl | ⟨1, _⟩ => rfl)
  rw [val_main_v4_apply, el, er]

/-- The own score does not depend on the neighbour: broadcast along the neighbour axis it is the same sum. -/
theorem selfB_apply (k : Fin 8) (m : Fin 4) :
    val_main_v9 (F := Ideal) x1 x4 (ix3 n k m) = ∑ q : Fin 512, hrow x1 n q * aSelf x4 q m := by
  have e : idx_main_v7 (idx_main_v9 (ix3 n k m)) = ix2 n m :=
    funext fun a => Fin.ext (by match a with | ⟨0, _⟩ => rfl | ⟨1, _⟩ => rfl)
  rw [val_main_v9_apply, val_main_v7_apply, e]
  exact self_apply x1 x4 n m

/-- Neighbour `k`'s score: its state against the second half of the attention vector. -/
theorem nb_apply (k : Fin 8) (m : Fin 4) :
    val_main_v8 (F := Ideal) x3 x4 (ix3 n k m) = ∑ q : Fin 512, hsrow x3 n k q * aNb x4 q m := by
  rw [val_main_v8_apply]
  refine Finset.sum_congr rfl fun q _ => ?_
  have el : lidx_main_v8 (ix3 n k m) q = ix3 n k q :=
    funext fun a => Fin.ext (by match a with | ⟨0, _⟩ => rfl | ⟨1, _⟩ => rfl | ⟨2, _⟩ => rfl)
  have er : idx_main_v5 (ridx_main_v8 (ix3 n k m) q) = ix2 (⟨512 + q.val, by omega⟩ : Fin 1024) m :=
    funext fun a => Fin.ext (by match a with | ⟨0, _⟩ => rfl | ⟨1, _⟩ => rfl)
  rw [val_main_v5_apply, el, er]

/-- The attention logit of neighbour `k`, head `m`: own score plus neighbour score. -/
theorem logit_apply (k : Fin 8) (m : Fin 4) :
    val_main_v10 (F := Ideal) x1 x3 x4 (ix3 n k m)
      = AttCell.logit (hrow x1 n) (hsrow x3 n) (aSelf x4) (aNb x4) k m := by
  rw [val_main_v10_apply, selfB_apply, nb_apply]
  rfl

/-- leaky_relu of the logit: the select on `logit ≥ 0` between the logit and 0.2 times it. -/
theorem act_apply (k : Fin 8) (m : Fin 4) :
    val_main_v15 (F := Ideal) x1 x3 x4 (ix3 n k m)
      = AttCell.act (hrow x1 n) (hsrow x3 n) (aSelf x4) (aNb x4) k m := by
  rw [val_main_v15_apply, val_main_v12_apply, val_main_v14_apply, val_main_v11_apply, val_main_v13_apply,
    val_main_cst_apply, val_main_cst_0_apply, logit_apply]
  rfl

/-- Dropping the neighbour axis of the 8192 × 8 × 4 scores leaves the 8192 × 4 array. -/
theorem reduces_nb : S8192x8x4.Reduces [1] S8192x4 := by decide

/-- The index over `(n, m)` with neighbour coordinate `k` inserted is `(n, k, m)`. -/
theorem lift_nb (m : Fin 4) (k : Fin 8) : reduces_nb.lift (ix2 n m) k = ix3 n k m :=
  funext fun a => Fin.ext (by match a with | ⟨0, _⟩ => rfl | ⟨1, _⟩ => rfl | ⟨2, _⟩ => rfl)

/-- The maximum over the neighbour axis is the fold of `max` from -∞ over the eight neighbours:
    `max` commutes and associates, so the order of the fold does not matter. -/
theorem max16_apply (m : Fin 4) :
    val_main_v16 (F := Ideal) x1 x3 x4 (ix2 n m)
      = (Finset.univ : Finset (Fin 8)).fold max AttCell.litNegInf
          fun k => AttCell.act (hrow x1 n) (hsrow x3 n) (aSelf x4) (aNb x4) k m := by
  unfold val_main_v16
  refine (Host.reduce_eq_fold_single (FloatOps.maximumf (F := Ideal) (φ := .f32)) _ _
    reducesTo_S8192x8x4_S8192x4_d1 reduces_nb h_S_ (ix2 n m)).trans ?_
  have hf : (val_main_v15 (F := Ideal) x1 x3 x4 ∘ reduces_nb.lift (ix2 n m))
      = fun k : Fin 8 => AttCell.act (hrow x1 n) (hsrow x3 n) (aSelf x4) (aNb x4) k m :=
    funext fun (k : Fin 8) =>
      (congrArg (val_main_v15 (F := Ideal) x1 x3 x4) (lift_nb n m k)).trans (act_apply x1 x3 x4 n k m)
  exact congrArg (fun g : Fin 8 → EReal => (Finset.univ : Finset (Fin 8)).fold max AttCell.litNegInf g) hf

/-- The row maximum: the fold over the neighbours joined with -∞ once more. -/
theorem rowmax_apply (m : Fin 4) :
    val_main_v18 (F := Ideal) x1 x3 x4 (ix2 n m)
      = AttCell.rowmax (hrow x1 n) (hsrow x3 n) (aSelf x4) (aNb x4) m := by
  rw [val_main_v18_apply, val_main_v17_apply, val_main_cst_2_apply, max16_apply]
  rfl

/-- The shifted exponential: exp of the activation minus the row maximum (broadcast back along the neighbours). -/
theorem ex_apply (k : Fin 8) (m : Fin 4) :
    val_main_v22 (F := Ideal) x1 x3 x4 (ix3 n k m)
      = AttCell.ex (hrow x1 n) (hsrow x3 n) (aSelf x4) (aNb x4) k m := by
  have e : idx_main_v19 (idx_main_v20 (ix3 n k m)) = ix2 n m :=
    funext fun a => Fin.ext (by match a with | ⟨0, _⟩ => rfl | ⟨1, _⟩ => rfl)
  rw [val_main_v22_apply, val_main_v21_apply, val_main_v20_apply, val_main_v19_apply, e, rowmax_apply, act_apply]
  rfl

/-- The softmax denominator: the sum of the shifted exponentials over the eight neighbours (the sum starts from 0). -/
theorem den_apply (m : Fin 4) :
    val_main_v23 (F := Ideal) x1 x3 x4 (ix2 n m)
      = AttCell.den (hrow x1 n) (hsrow x3 n) (aSelf x4) (aNb x4) m := by
  rw [val_main_v23_apply, val_main_cst_3_apply, Ideal.ofBits_def, Ideal.ofBits_zero_f32, zero_add]
  unfold AttCell.den
  refine Finset.sum_congr rfl fun k _ => ?_
  have e : idx_main_v23 (ix2 n m) k = ix3 n k m :=
    funext fun a => Fin.ext (by match a with | ⟨0, _⟩ => rfl | ⟨1, _⟩ => rfl | ⟨2, _⟩ => rfl)
  rw [e]
  exact ex_apply x1 x3 x4 n k m

/-- The attention weight: shifted exponential over the denominator (broadcast back along the neighbours). -/
theorem prob_apply (k : Fin 8) (m : Fin 4) :
    val_main_v26 (F := Ideal) x1 x3 x4 (ix3 n k m)
      = AttCell.prob (hrow x1 n) (hsrow x3 n) (aSelf x4) (aNb x4) k m := by
  have e : idx_main_v24 (idx_main_v25 (ix3 n k m)) = ix2 n m :=
    funext fun a => Fin.ext (by match a with | ⟨0, _⟩ => rfl | ⟨1, _⟩ => rfl)
  rw [val_main_v26_apply, val_main_v25_apply, val_main_v24_apply, e, den_apply, ex_apply]
  rfl

/-- The per-head aggregate: the neighbours' states weighted by the attention weights, summed over the eight neighbours
    (the contraction is batched over the rows, so row `n` only meets row `n`). -/
theorem agg_apply (m : Fin 4) (j : Fin 512) :
    val_main_v27 (F := Ideal) x1 x3 x4 (ix3 n m j)
      = AttCell.agg (hrow x1 n) (hsrow x3 n) (aSelf x4) (aNb x4) m j := by
  rw [val_main_v27_apply]
  unfold AttCell.agg
  refine Finset.sum_congr rfl fun k _ => ?_
  have el : lidx_main_v27 (ix3 n m j) k = ix3 n k m :=
    funext fun a => Fin.ext (by match a with | ⟨0, _⟩ => rfl | ⟨1, _⟩ => rfl | ⟨2, _⟩ => rfl)
  have er : ridx_main_v27 (ix3 n m j) k = ix3 n k j :=
    funext fun a => Fin.ext (by match a with | ⟨0, _⟩ => rfl | ⟨1, _⟩ => rfl | ⟨2, _⟩ => rfl)
  rw [el, er, prob_apply]

end Stages

end Agg

/-- The reference's flat per-head aggregate at one entry: `aggFlat` of row `n` of the reshaped states. -/
theorem aggFlat_apply (x1 : (⟨S16x512x512, .f32⟩ : BufTy).Contents (Elt Ideal)) (x3 : (⟨S16x512x8x512, .f32⟩ : BufTy).Contents (Elt Ideal))
    (x4 : (⟨S1024x4, .f32⟩ : BufTy).Contents (Elt Ideal)) (n : Fin 8192) (q : Fin 2048) :
    val_main_v28 (F := Ideal) x1 x3 x4 (ix2 n q)
      = AttCell.aggFlat (fun q => val_main_v1 (F := Ideal) x1 (ix2 n q)) (fun k q => val_main_v3 (F := Ideal) x3 (ix3 n k q))
          (aSelf x4) (aNb x4) q := by
  have hn := n.isLt
  have hq := q.isLt
  have e : idx_main_v28 (ix2 n q) = ix3 n (AttCell.headOf q) (AttCell.colOf q) :=
    funext fun a => Fin.ext (by
      match a with
      | ⟨0, _⟩ => show (n.val * 2048 + q.val) / 2048 = n.val; omega
      | ⟨1, _⟩ => show (n.val * 2048 + q.val) / 512 % 4 = q.val / 512; omega
      | ⟨2, _⟩ => show (n.val * 2048 + q.val) % 512 = q.val % 512; omega)
  rw [val_main_v28_apply, e]
  exact Agg.agg_apply x1 x3 x4 n (AttCell.headOf q) (AttCell.colOf q)

end Cert.ReferenceIdeal.Row

end
-- ==== Proof.RefCell.lean ====
import proofs.«416576_j22479858827484_3_alg».proof.Proof.Gen.ReferenceIdeal.Read
import proofs.«416576_j22479858827484_3_alg».proof.Proof.Spec
import proofs.«416576_j22479858827484_3_alg».proof.Proof.RefAgg
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx

/-! ## Two facts about the extended reals -/

/-- The logistic function spelt out on the host, `1 / (1 + exp (-y))` with both ones the pattern `0x3F800000`,
    is the logistic function of the extended reals: that pattern is the real one, and the rest is the definition. -/
theorem cell_logistic_spelt (y : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) y)))
      = Ideal.logistic y := by
  show Ideal.div (Ideal.ofBits .f32 0x3F800000#32) (Ideal.ofBits .f32 0x3F800000#32 + Ideal.exp (-y))
    = Ideal.div 1 (1 + Ideal.exp (-y))
  rw [Ideal.ofBits_one_f32]

/-- Two biases, each added after one of the two product sums, are the summed bias added once: addition on the
    extended reals is commutative and associative (no finiteness is needed). -/
theorem cell_bias_reassoc (A B b1 b2 : EReal) : ((A + b1) + B) + b2 = (A + B) + (b1 + b2) := by
  rw [add_right_comm A b1 B, add_assoc]

/-! ## The reference's index functions at an entry given by its coordinates -/

section Indices
variable (n : Fin 8192) (j : Fin 512) (g : Fin 2048)

/-- Row `n` of the flat aggregate, column `k`: the left operand of the forget gate's product. -/
theorem lidx30_ix (k : Fin 2048) : lidx_main_v30 (ix2 n j) k = ix2 n k := funext fun a => match a with | ⟨0, _⟩ => rfl | ⟨1, _⟩ => rfl
/-- The transposed forget weights at (k, j) read `w_fg` at (j, k). -/
theorem ridx30_ix (k : Fin 2048) : idx_main_v29 (ridx_main_v30 (ix2 n j) k) = ix2 j k := funext fun a => match a with | ⟨0, _⟩ => rfl | ⟨1, _⟩ => rfl
/-- The twice broadcast forget bias at (n, j) reads the bias at j. -/
theorem bidx32_ix : idx_main_v31 (idx_main_v32 (ix2 n j)) = ix1 j := funext fun a => match a with | ⟨0, _⟩ => rfl
/-- The same three for the input gate. -/
theorem lidx41_ix (k : Fin 2048) : lidx_main_v41 (ix2 n j) k = ix2 n k := funext fun a => match a with | ⟨0, _⟩ => rfl | ⟨1, _⟩ => rfl
theorem ridx41_ix (k : Fin 2048) : idx_main_v40 (ridx_main_v41 (ix2 n j) k) = ix2 j k := funext fun a => match a with | ⟨0, _⟩ => rfl | ⟨1, _⟩ => rfl
theorem bidx43_ix : idx_main_v42 (idx_main_v43 (ix2 n j)) = ix1 j := funext fun a => match a with | ⟨0, _⟩ => rfl
/-- The input's product with the transposed `w_ih`: row `n` of the input, and `w_ih` at (g, k). -/
theorem lidx54_ix (k : Fin 128) : lidx_main_v54 (ix2 n g) k = ix2 n k := funext fun a => match a with | ⟨0, _⟩ => rfl | ⟨1, _⟩ => rfl
theorem ridx54_ix (k : Fin 128) : idx_main_v53 (ridx_main_v54 (ix2 n g) k) = ix2 g k := funext fun a => match a with | ⟨0, _⟩ => rfl | ⟨1, _⟩ => rfl
theorem bidx56_ix : idx_main_v55 (idx_main_v56 (ix2 n g)) = ix1 g := funext fun a => match a with | ⟨0, _⟩ => rfl
/-- The modulated state's product with the transposed `w_hh`. -/
theorem lidx59_ix (k : Fin 512) : lidx_main_v59 (ix2 n g) k = ix2 n k := funext fun a => match a with | ⟨0, _⟩ => rfl | ⟨1, _⟩ => rfl
theorem ridx59_ix (k : Fin 512) : idx_main_v58 (ridx_main_v59 (ix2 n g) k) = ix2 g k := funext fun a => match a with | ⟨0, _⟩ => rfl | ⟨1, _⟩ => rfl
theorem bidx62_ix : idx_main_v61 (idx_main_v62 (ix2 n g)) = ix1 g := funext fun a => match a with | ⟨0, _⟩ => rfl
/-- The four column slices of the 2048 gate columns start at 0, 512, 1024 and 1536. -/
theorem idx64_ix : idx_main_v64 (ix2 n j) = ix2 n (AttCell.q0 j) := funext fun a => match a with | ⟨0, _⟩ => rfl | ⟨1, _⟩ => rfl
theorem idx65_ix : idx_main_v65 (ix2 n j) = ix2 n (AttCell.q1 j) := funext fun a => match a with | ⟨0, _⟩ => rfl | ⟨1, _⟩ => rfl
theorem idx66_ix : idx_main_v66 (ix2 n j) = ix2 n (AttCell.q2 j) := funext fun a => match a with | ⟨0, _⟩ => rfl | ⟨1, _⟩ => rfl
theorem idx67_ix : idx_main_v67 (ix2 n j) = ix2 n (AttCell.q3 j) := funext fun a => match a with | ⟨0, _⟩ => rfl | ⟨1, _⟩ => rfl

end Indices

/-! ## The stages -/

section Stages
variable (x0 : (⟨S16x512x128, .f32⟩ : BufTy).Contents (Elt Ideal)) (x1 x2 : (⟨S16x512x512, .f32⟩ : BufTy).Contents (Elt Ideal))
  (x3 : (⟨S16x512x8x512, .f32⟩ : BufTy).Contents (Elt Ideal)) (x4 : (⟨S1024x4, .f32⟩ : BufTy).Contents (Elt Ideal))
  (x5 : (⟨S512x2048, .f32⟩ : BufTy).Contents (Elt Ideal)) (x6 : (⟨S512, .f32⟩ : BufTy).Contents (Elt Ideal))
  (x7 : (⟨S512x2048, .f32⟩ : BufTy).Contents (Elt Ideal)) (x8 : (⟨S512, .f32⟩ : BufTy).Contents (Elt Ideal))
  (x9 : (⟨S2048x128, .f32⟩ : BufTy).Contents (Elt Ideal)) (x10 : (⟨S2048x512, .f32⟩ : BufTy).Contents (Elt Ideal))
  (x11 x12 : (⟨S2048, .f32⟩ : BufTy).Contents (Elt Ideal)) (n : Fin 8192)

/-- Stages 34 to 39: negate, exponential, add to the 1.0 splat, divide the 1.0 splat by it: the logistic function of the forget gate's argument. -/
theorem v39_logistic (i : S8192x512.Idx) :
    val_main_v39 (F := Ideal) x1 x3 x4 x5 x6 i = Ideal.logistic (val_main_v33 (F := Ideal) x1 x3 x4 x5 x6 i) := by
  rw [val_main_v39_apply, val_main_v38_apply, val_main_cst_5_apply, val_main_v37_apply, val_main_v36_apply,
    val_main_cst_4_apply, val_main_v35_apply, val_main_v34_apply]
  exact cell_logistic_spelt _

/-- Stages 45 to 50: negate, exponential, add to the 1.0 splat, divide the 1.0 splat by it: the logistic function of the input gate's argument. -/
theorem v50_logistic (i : S8192x512.Idx) :
    val_main_v50 (F := Ideal) x1 x3 x4 x7 x8 i = Ideal.logistic (val_main_v44 (F := Ideal) x1 x3 x4 x7 x8 i) := by
  rw [val_main_v50_apply, val_main_v49_apply, val_main_cst_7_apply, val_main_v48_apply, val_main_v47_apply,
    val_main_cst_6_apply, val_main_v46_apply, val_main_v45_apply]
  exact cell_logistic_spelt _

/-- The forget gate's argument at (n, j): the flat aggregate of row `n` against column j of the transposed `w_fg`, plus the bias. -/
theorem v33_at (j : Fin 512) :
    val_main_v33 (F := Ideal) x1 x3 x4 x5 x6 (ix2 n j)
      = (∑ q : Fin 2048, val_main_v28 (F := Ideal) x1 x3 x4 (ix2 n q) * x5 (ix2 j q)) + x6 (ix1 j) := by
  rw [val_main_v33_apply, val_main_v30_apply, val_main_v32_apply, val_main_v31_apply, bidx32_ix]
  simp only [val_main_v29_apply, lidx30_ix, ridx30_ix]
  rfl

/-- The input gate's argument at (n, j), likewise with `w_ig` and its bias. -/
theorem v44_at (j : Fin 512) :
    val_main_v44 (F := Ideal) x1 x3 x4 x7 x8 (ix2 n j)
      = (∑ q : Fin 2048, val_main_v28 (F := Ideal) x1 x3 x4 (ix2 n q) * x7 (ix2 j q)) + x8 (ix1 j) := by
  rw [val_main_v44_apply, val_main_v41_apply, val_main_v43_apply, val_main_v42_apply, bidx43_ix]
  simp only [val_main_v40_apply, lidx41_ix, ridx41_ix]
  rfl

/-- Stage 39 at (n, j) is the forget gate of row `n`. -/
theorem gateF_apply (j : Fin 512) :
    val_main_v39 (F := Ideal) x1 x3 x4 x5 x6 (ix2 n j)
      = AttCell.gateF (fun q => val_main_v1 (F := Ideal) x1 (ix2 n q)) (fun k q => val_main_v3 (F := Ideal) x3 (ix3 n k q)) (aSelf x4) (aNb x4) (fun q j => x5 (ix2 j q)) (fun j => x6 (ix1 j)) j := by
  rw [v39_logistic, v33_at]
  unfold AttCell.gateF
  simp only [aggFlat_apply]

/-- Stage 50 at (n, j) is the input gate of row `n`. -/
theorem gateI_apply (j : Fin 512) :
    val_main_v50 (F := Ideal) x1 x3 x4 x7 x8 (ix2 n j)
      = AttCell.gateI (fun q => val_main_v1 (F := Ideal) x1 (ix2 n q)) (fun k q => val_main_v3 (F := Ideal) x3 (ix3 n k q)) (aSelf x4) (aNb x4) (fun q j => x7 (ix2 j q)) (fun j => x8 (ix1 j)) j := by
  rw [v50_logistic, v44_at]
  unfold AttCell.gateI
  simp only [aggFlat_apply]

/-- Stage 51 at (n, j): the hidden state times the input gate. -/
theorem hmod_apply (j : Fin 512) :
    val_main_v51 (F := Ideal) x1 x3 x4 x7 x8 (ix2 n j)
      = AttCell.hmod (fun q => val_main_v1 (F := Ideal) x1 (ix2 n q)) (fun k q => val_main_v3 (F := Ideal) x3 (ix3 n k q)) (aSelf x4) (aNb x4) (fun q j => x7 (ix2 j q)) (fun j => x8 (ix1 j)) j := by
  rw [val_main_v51_apply, gateI_apply]
  rfl

/-- Stage 52 at (n, j): the carried state times the forget gate. -/
theorem cmod_apply (j : Fin 512) :
    val_main_v52 (F := Ideal) x1 x2 x3 x4 x5 x6 (ix2 n j)
      = AttCell.cmod (fun q => val_main_v1 (F := Ideal) x1 (ix2 n q)) (fun q => val_main_v2 (F := Ideal) x2 (ix2 n q)) (fun k q => val_main_v3 (F := Ideal) x3 (ix3 n k q)) (aSelf x4) (aNb x4) (fun q j => x5 (ix2 j q)) (fun j => x6 (ix1 j)) j := by
  rw [val_main_v52_apply, gateF_apply]
  rfl

/-- Stage 63 at (n, g), as the reference adds it up: ((x·w_ihᵀ + b_ih) + hmod·w_hhᵀ) + b_hh. -/
theorem v63_at (g : Fin 2048) :
    val_main_v63 (F := Ideal) x0 x1 x3 x4 x7 x8 x9 x10 x11 x12 (ix2 n g)
      = (((∑ q : Fin 128, val_main_v0 (F := Ideal) x0 (ix2 n q) * x9 (ix2 g q)) + x11 (ix1 g))
          + ∑ q : Fin 512, val_main_v51 (F := Ideal) x1 x3 x4 x7 x8 (ix2 n q) * x10 (ix2 g q)) + x12 (ix1 g) := by
  rw [val_main_v63_apply, val_main_v60_apply, val_main_v57_apply, val_main_v54_apply, val_main_v56_apply, val_main_v55_apply,
    val_main_v59_apply, val_main_v62_apply, val_main_v61_apply, bidx56_ix, bidx62_ix]
  simp only [val_main_v53_apply, val_main_v58_apply, lidx54_ix, ridx54_ix, lidx59_ix, ridx59_ix]
  rfl

/-- Stage 63 at (n, g) is the LSTM gate g of row `n`, its bias the sum of the two biases. -/
theorem gate_apply (g : Fin 2048) :
    val_main_v63 (F := Ideal) x0 x1 x3 x4 x7 x8 x9 x10 x11 x12 (ix2 n g)
      = AttCell.gate (fun q => val_main_v1 (F := Ideal) x1 (ix2 n q)) (fun k q => val_main_v3 (F := Ideal) x3 (ix3 n k q)) (fun q => val_main_v0 (F := Ideal) x0 (ix2 n q)) (aSelf x4) (aNb x4) (fun q j => x7 (ix2 j q)) (fun j => x8 (ix1 j)) (fun q g => x9 (ix2 g q)) (fun q g => x10 (ix2 g q)) (fun g => x11 (ix1 g) + x12 (ix1 g)) g := by
  rw [v63_at, cell_bias_reassoc]
  unfold AttCell.gate
  simp only [hmod_apply]

/-- Stages 68 to 73: negate, exponential, add to the 1.0 splat, divide the 1.0 splat by it: the logistic function of the first quarter of the gates. -/
theorem v73_logistic (i : S8192x512.Idx) :
    val_main_v73 (F := Ideal) x0 x1 x3 x4 x7 x8 x9 x10 x11 x12 i = Ideal.logistic (val_main_v64 (F := Ideal) x0 x1 x3 x4 x7 x8 x9 x10 x11 x12 i) := by
  rw [val_main_v73_apply, val_main_v72_apply, val_main_cst_9_apply, val_main_v71_apply, val_main_v70_apply,
    val_main_cst_8_apply, val_main_v69_apply, val_main_v68_apply]
  exact cell_logistic_spelt _

/-- Stages 74 to 79: negate, exponential, add to the 1.0 splat, divide the 1.0 splat by it: the logistic function of the second quarter. -/
theorem v79_logistic (i : S8192x512.Idx) :
    val_main_v79 (F := Ideal) x0 x1 x3 x4 x7 x8 x9 x10 x11 x12 i = Ideal.logistic (val_main_v65 (F := Ideal) x0 x1 x3 x4 x7 x8 x9 x10 x11 x12 i) := by
  rw [val_main_v79_apply, val_main_v78_apply, val_main_cst_11_apply, val_main_v77_apply, val_main_v76_apply,
    val_main_cst_10_apply, val_main_v75_apply, val_main_v74_apply]
  exact cell_logistic_spelt _

/-- Stages 81 to 86: negate, exponential, add to the 1.0 splat, divide the 1.0 splat by it: the logistic function of the fourth quarter. -/
theorem v86_logistic (i : S8192x512.Idx) :
    val_main_v86 (F := Ideal) x0 x1 x3 x4 x7 x8 x9 x10 x11 x12 i = Ideal.logistic (val_main_v67 (F := Ideal) x0 x1 x3 x4 x7 x8 x9 x10 x11 x12 i) := by
  rw [val_main_v86_apply, val_main_v85_apply, val_main_cst_13_apply, val_main_v84_apply, val_main_v83_apply,
    val_main_cst_12_apply, val_main_v82_apply, val_main_v81_apply]
  exact cell_logistic_spelt _

end Stages

section Quarters
variable (x0 : (⟨S16x512x128, .f32⟩ : BufTy).Contents (Elt Ideal)) (x1 x2 : (⟨S16x512x512, .f32⟩ : BufTy).Contents (Elt Ideal))
  (x3 : (⟨S16x512x8x512, .f32⟩ : BufTy).Contents (Elt Ideal)) (x4 : (⟨S1024x4, .f32⟩ : BufTy).Contents (Elt Ideal))
  (x5 : (⟨S512x2048, .f32⟩ : BufTy).Contents (Elt Ideal)) (x6 : (⟨S512, .f32⟩ : BufTy).Contents (Elt Ideal))
  (x7 : (⟨S512x2048, .f32⟩ : BufTy).Contents (Elt Ideal)) (x8 : (⟨S512, .f32⟩ : BufTy).Contents (Elt Ideal))
  (x9 : (⟨S2048x128, .f32⟩ : BufTy).Contents (Elt Ideal)) (x10 : (⟨S2048x512, .f32⟩ : BufTy).Contents (Elt Ideal))
  (x11 x12 : (⟨S2048, .f32⟩ : BufTy).Contents (Elt Ideal)) (n : Fin 8192)

/-- The slice of columns 0 to 511 at (n, j) is gate j. -/
theorem v64_at (j : Fin 512) :
    val_main_v64 (F := Ideal) x0 x1 x3 x4 x7 x8 x9 x10 x11 x12 (ix2 n j)
      = AttCell.gate (fun q => val_main_v1 (F := Ideal) x1 (ix2 n q)) (fun k q => val_main_v3 (F := Ideal) x3 (ix3 n k q)) (fun q => val_main_v0 (F := Ideal) x0 (ix2 n q)) (aSelf x4) (aNb x4) (fun q j => x7 (ix2 j q)) (fun j => x8 (ix1 j)) (fun q g => x9 (ix2 g q)) (fun q g => x10 (ix2 g q)) (fun g => x11 (ix1 g) + x12 (ix1 g)) (AttCell.q0 j) := by
  rw [val_main_v64_apply, idx64_ix, gate_apply]

/-- The slice of columns 512 to 1023 at (n, j) is gate 512 + j. -/
theorem v65_at (j : Fin 512) :
    val_main_v65 (F := Ideal) x0 x1 x3 x4 x7 x8 x9 x10 x11 x12 (ix2 n j)
      = AttCell.gate (fun q => val_main_v1 (F := Ideal) x1 (ix2 n q)) (fun k q => val_main_v3 (F := Ideal) x3 (ix3 n k q)) (fun q => val_main_v0 (F := Ideal) x0 (ix2 n q)) (aSelf x4) (aNb x4) (fun q j => x7 (ix2 j q)) (fun j => x8 (ix1 j)) (fun q g => x9 (ix2 g q)) (fun q g => x10 (ix2 g q)) (fun g => x11 (ix1 g) + x12 (ix1 g)) (AttCell.q1 j) := by
  rw [val_main_v65_apply, idx65_ix, gate_apply]

/-- The slice of columns 1024 to 1535 at (n, j) is gate 1024 + j. -/
theorem v66_at (j : Fin 512) :
    val_main_v66 (F := Ideal) x0 x1 x3 x4 x7 x8 x9 x10 x11 x12 (ix2 n j)
      = AttCell.gate (fun q => val_main_v1 (F := Ideal) x1 (ix2 n q)) (fun k q => val_main_v3 (F := Ideal) x3 (ix3 n k q)) (fun q => val_main_v0 (F := Ideal) x0 (ix2 n q)) (aSelf x4) (aNb x4) (fun q j => x7 (ix2 j q)) (fun j => x8 (ix1 j)) (fun q g => x9 (ix2 g q)) (fun q g => x10 (ix2 g q)) (fun g => x11 (ix1 g) + x12 (ix1 g)) (AttCell.q2 j) := by
  rw [val_main_v66_apply, idx66_ix, gate_apply]

/-- The slice of columns 1536 to 2047 at (n, j) is gate 1536 + j. -/
theorem v67_at (j : Fin 512) :
    val_main_v67 (F := Ideal) x0 x1 x3 x4 x7 x8 x9 x10 x11 x12 (ix2 n j)
      = AttCell.gate (fun q => val_main_v1 (F := Ideal) x1 (ix2 n q)) (fun k q => val_main_v3 (F := Ideal) x3 (ix3 n k q)) (fun q => val_main_v0 (F := Ideal) x0 (ix2 n q)) (aSelf x4) (aNb x4) (fun q j => x7 (ix2 j q)) (fun j => x8 (ix1 j)) (fun q g => x9 (ix2 g q)) (fun q g => x10 (ix2 g q)) (fun g => x11 (ix1 g) + x12 (ix1 g)) (AttCell.q3 j) := by
  rw [val_main_v67_apply, idx67_ix, gate_apply]

end Quarters

/-- The reference's new carried state, before its last reshape, at one entry: `cnew` of row `n`. -/
theorem cnew_apply (x0 : (⟨S16x512x128, .f32⟩ : BufTy).Contents (Elt Ideal)) (x1 x2 : (⟨S16x512x512, .f32⟩ : BufTy).Contents (Elt Ideal))
    (x3 : (⟨S16x512x8x512, .f32⟩ : BufTy).Contents (Elt Ideal)) (x4 : (⟨S1024x4, .f32⟩ : BufTy).Contents (Elt Ideal))
    (x5 : (⟨S512x2048, .f32⟩ : BufTy).Contents (Elt Ideal)) (x6 : (⟨S512, .f32⟩ : BufTy).Contents (Elt Ideal))
    (x7 : (⟨S512x2048, .f32⟩ : BufTy).Contents (Elt Ideal)) (x8 : (⟨S512, .f32⟩ : BufTy).Contents (Elt Ideal))
    (x9 : (⟨S2048x128, .f32⟩ : BufTy).Contents (Elt Ideal)) (x10 : (⟨S2048x512, .f32⟩ : BufTy).Contents (Elt Ideal))
    (x11 x12 : (⟨S2048, .f32⟩ : BufTy).Contents (Elt Ideal)) (n : Fin 8192) (j : Fin 512) :
    val_main_v89 (F := Ideal) x0 x1 x2 x3 x4 x5 x6 x7 x8 x9 x10 x11 x12 (ix2 n j)
      = AttCell.cnew (fun q => val_main_v1 (F := Ideal) x1 (ix2 n q)) (fun q => val_main_v2 (F := Ideal) x2 (ix2 n q))
          (fun k q => val_main_v3 (F := Ideal) x3 (ix3 n k q)) (fun q => val_main_v0 (F := Ideal) x0 (ix2 n q))
          (aSelf x4) (aNb x4) (fun q j => x5 (ix2 j q)) (fun q j => x7 (ix2 j q)) (fun j => x6 (ix1 j)) (fun j => x8 (ix1 j))
          (fun q g => x9 (ix2 g q)) (fun q g => x10 (ix2 g q)) (fun g => x11 (ix1 g) + x12 (ix1 g)) j := by
  rw [val_main_v89_apply, val_main_v87_apply, val_main_v88_apply, v79_logistic, v73_logistic, val_main_v80_apply,
    v65_at, v64_at, v66_at, cmod_apply]
  rfl

/-- The reference's new hidden state, before its last reshape, at one entry: `hnew` of row `n`. -/
theorem hnew_apply (x0 : (⟨S16x512x128, .f32⟩ : BufTy).Contents (Elt Ideal)) (x1 x2 : (⟨S16x512x512, .f32⟩ : BufTy).Contents (Elt Ideal))
    (x3 : (⟨S16x512x8x512, .f32⟩ : BufTy).Contents (Elt Ideal)) (x4 : (⟨S1024x4, .f32⟩ : BufTy).Contents (Elt Ideal))
    (x5 : (⟨S512x2048, .f32⟩ : BufTy).Contents (Elt Ideal)) (x6 : (⟨S512, .f32⟩ : BufTy).Contents (Elt Ideal))
    (x7 : (⟨S512x2048, .f32⟩ : BufTy).Contents (Elt Ideal)) (x8 : (⟨S512, .f32⟩ : BufTy).Contents (Elt Ideal))
    (x9 : (⟨S2048x128, .f32⟩ : BufTy).Contents (Elt Ideal)) (x10 : (⟨S2048x512, .f32⟩ : BufTy).Contents (Elt Ideal))
    (x11 x12 : (⟨S2048, .f32⟩ : BufTy).Contents (Elt Ideal)) (n : Fin 8192) (j : Fin 512) :
    val_main_v91 (F := Ideal) x0 x1 x2 x3 x4 x5 x6 x7 x8 x9 x10 x11 x12 (ix2 n j)
      = AttCell.hnew (fun q => val_main_v1 (F := Ideal) x1 (ix2 n q)) (fun q => val_main_v2 (F := Ideal) x2 (ix2 n q))
          (fun k q => val_main_v3 (F := Ideal) x3 (ix3 n k q)) (fun q => val_main_v0 (F := Ideal) x0 (ix2 n q))
          (aSelf x4) (aNb x4) (fun q j => x5 (ix2 j q)) (fun q j => x7 (ix2 j q)) (fun j => x6 (ix1 j)) (fun j => x8 (ix1 j))
          (fun q g => x9 (ix2 g q)) (fun q g => x10 (ix2 g q)) (fun g => x11 (ix1 g) + x12 (ix1 g)) j := by
  rw [val_main_v91_apply, v86_logistic, val_main_v90_apply, v67_at, cnew_apply]
  rfl

end Cert.ReferenceIdeal.Row

end
-- ==== Proof.Bridge.lean ====
/-
  The kernel's two output arrays are the reference's two results before their last reshape.

  On the kernel's side the arrays after the run are `Gh` and `Gc`: entry (n, j) is `hnew` / `cnew` of row n of the
  reshaped states, with the weights read off the arguments. On the reference's side the stages before the final reshape
  are the same row function of the same rows. So the arrays are equal, entry by entry, with no law of arithmetic used
  here: the one reassociation (the two LSTM biases added first or last) is inside the reference's reading.
-/
import proofs.«416576_j22479858827484_3_alg».proof.Proof.KernelArray
import proofs.«416576_j22479858827484_3_alg».proof.Proof.RefCell

noncomputable section

open Idealize.ShloMosaic Idealize.ShloMosaic.TcCoe Idealize.SL.Sem Idealize.ShloMosaic.ValueIdx

namespace Cert.Proof.Bridge

variable (m : (ℓ : Loc Cert.KernelIdeal.nD Cert.KernelIdeal.τ Cert.KernelIdeal.sig) → Buf (Elt Ideal) ℓ)

/-- The new hidden state: the kernel's array is the reference's stage, as functions of the kernel's arguments. -/
theorem Gh_eq_ref (c : Dev Cert.KernelIdeal.nD) :
    Cert.KernelIdeal.Row.Gh m c
      = Cert.ReferenceIdeal.Read.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [Cert.KernelIdeal.Row.Gh_args]
  funext i
  obtain ⟨n, j, rfl⟩ : ∃ (n : Fin 8192) (j : Fin 512), i = ix2 n j := ⟨i 0, i 1, eq_ix2 i⟩
  rw [Cert.ReferenceIdeal.Row.hnew_apply]
  rfl

/-- The new carried state likewise. -/
theorem Gc_eq_ref (c : Dev Cert.KernelIdeal.nD) :
    Cert.KernelIdeal.Row.Gc m c
      = Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [Cert.KernelIdeal.Row.Gc_args]
  funext i
  obtain ⟨n, j, rfl⟩ : ∃ (n : Fin 8192) (j : Fin 512), i = ix2 n j := ⟨i 0, i 1, eq_ix2 i⟩
  rw [Cert.ReferenceIdeal.Row.cnew_apply]
  rfl

end Cert.Proof.Bridge

end
-- ==== Proof.lean ====
/-
  The certificate of the attention cell: the tiled kernel against its jnp reference, over the extended reals.

  The cell maps each of the 8192 rows of the state arrays independently: eight neighbour states are scored against the
  node's own state by a two-part attention vector, the scores pass a leaky rectifier and a softmax over the neighbours,
  the neighbours are averaged per head with those weights, two spatial gates are read off the flattened averages and
  scale the hidden and the carried state, and an LSTM cell's four gates give the new carried and hidden state. The
  kernel runs a grid of sixteen points over blocks of 512 rows, with the two spatial-gate weights fused side by side
  and the two LSTM biases added beforehand; the reference computes the whole arrays at once, keeping the weights
  apart and adding the biases one after the other.

  Proof/Spec.lean states the row function (`AttCell.hnew`, `AttCell.cnew`). The kernel's body leaves `hnew` / `cnew`
  of each row of its blocks in its two output blocks (Proof/KSoftmax.lean: the softmax; Proof/KHeads.lean: the four
  heads' averages and the fused gate logits; Proof/KUpper.lean: the gates and the two outputs); the sixteen blocks
  tile the output arrays, so after the run these hold `hnew` / `cnew` of every row, and the weights the windows stage
  are entries of the arguments (Proof/KWeights.lean, Proof/KernelArray.lean). The reference's stages before its final
  reshape are the same row function of the same rows (Proof/RefAgg.lean, Proof/RefCell.lean), the one difference in
  arithmetic being the order in which the two LSTM biases are added, which is a reassociation of a sum. Both programs
  end with the same reshape (Proof/Bridge.lean). The precondition is never opened: no step needs a finite input.

  The three frames are the generated frame certificates and the reference's generated run; the idealization rewrote
  nothing, so `preserves` is `True`.
-/
import proofs.«416576_j22479858827484_3_alg».proof.Defs
import proofs.«416576_j22479858827484_3_alg».proof.Proof.Gen.Kernel
import proofs.«416576_j22479858827484_3_alg».proof.Proof.Gen.Kernel.Skeleton
import proofs.«416576_j22479858827484_3_alg».proof.Proof.Gen.Kernel.Launch
import proofs.«416576_j22479858827484_3_alg».proof.Proof.Gen.Kernel.Points
import proofs.«416576_j22479858827484_3_alg».proof.Proof.Gen.Kernel.Frame
import proofs.«416576_j22479858827484_3_alg».proof.Proof.Gen.KernelIdeal
import proofs.«416576_j22479858827484_3_alg».proof.Proof.Gen.KernelIdeal.Skeleton
import proofs.«416576_j22479858827484_3_alg».proof.Proof.Gen.KernelIdeal.Launch
import proofs.«416576_j22479858827484_3_alg».proof.Proof.Gen.KernelIdeal.Points
import proofs.«416576_j22479858827484_3_alg».proof.Proof.Gen.KernelIdeal.Frame
import proofs.«416576_j22479858827484_3_alg».proof.Proof.Gen.ReferenceIdeal
import proofs.«416576_j22479858827484_3_alg».proof.Proof.Gen.Pre_finite_inputs
import proofs.«416576_j22479858827484_3_alg».proof.Proof.Gen.ReferenceIdeal.Run
import proofs.«416576_j22479858827484_3_alg».proof.Proof.Gen.ReferenceIdeal.Read
import proofs.«416576_j22479858827484_3_alg».proof.Proof.KernelArray
import proofs.«416576_j22479858827484_3_alg».proof.Proof.RefCell
import proofs.«416576_j22479858827484_3_alg».proof.Proof.Bridge
import Idealize.ShloMosaic.Adequacy
import Idealize.ShloMosaic.Init

noncomputable section

namespace Cert.Proof

open Idealize.ShloMosaic Idealize.SL.Sem Cert.Kernel

/-- The word-level kernel runs and keeps its arguments: the generated frame certificate. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the two results at the reshaped `hnew` and `cnew`
    arrays of the kernel's arguments: the kernel by its run read back, the reference because its stages before the last
    reshape are those arrays. -/
theorem algebraic : Cert.algebraic_KernelIdeal_ReferenceIdeal := by
  intro m ρ m' ρ' _ hagree
  refine ⟨fun c => shapeCast Cert.KernelIdeal.S16x512x512 (Cert.KernelIdeal.Row.Gh m c) Cert.KernelIdeal.Facts₀.shapeCasts_S8192x512_S16x512x512,
    fun c => shapeCast Cert.KernelIdeal.S16x512x512 (Cert.KernelIdeal.Row.Gc m c) Cert.KernelIdeal.Facts₀.shapeCasts_S8192x512_S16x512x512,
    Cert.KernelIdeal.Row.run m ρ, ?_⟩
  refine (θ_run Cert.ReferenceIdeal.defs _ _).mono (fun _ h c => ?_) (Cert.ReferenceIdeal.Value.run (F := Ideal) m' ρ')
  obtain ⟨h0, h1, hrest⟩ := h c
  obtain ⟨a0, a1, a2, a3, a4, a5, a6, a7, a8, a9, a10, a11, a12⟩ := hagree c
  refine ⟨h0.trans ?_, h1.trans ?_, hrest⟩
  · rw [Cert.ReferenceIdeal.Read.val_main_v92_eq, a0, a1, a2, a3, a4, a5, a6, a7, a8, a9, a10, a11, a12]
    beta_reduce
    rw [Bridge.Gh_eq_ref]
    rfl
  · rw [Cert.ReferenceIdeal.Read.val_main_v93_eq, a0, a1, a2, a3, a4, a5, a6, a7, a8, a9, a10, a11, a12]
    beta_reduce
    rw [Bridge.Gc_eq_ref]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
